-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S2048x512 : Shape := ⟨2, ![2048, 512]⟩
abbrev S4096x512 : Shape := ⟨2, ![4096, 512]⟩
abbrev S32 : Shape := ⟨1, ![32]⟩
abbrev S_ : Shape := ⟨0, ![]⟩
abbrev S1 : Shape := ⟨1, ![1]⟩
abbrev S32x512 : Shape := ⟨2, ![32, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .f32⟩
  | .hbm, ⟨1, _⟩ => ⟨S4096x512, .f32⟩
  | .local _ .vmem, ⟨0, _⟩ => ⟨S2048x512, .f32⟩
  | .local _ .vmem, ⟨1, _⟩ => ⟨S4096x512, .f32⟩
  | _, _ => ⟨S2048x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v10 : BitVec 32 := Scalar.muli v2 c2_i32_5
  let v11 : BitVec 32 := Scalar.addi c0_i32 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v12 : BitVec 32 := Scalar.muli v6 c1_i32_6
  let v13 : BitVec 32 := Scalar.addi v11 v12
  v13.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v14 : BitVec 32 := Scalar.muli v7 c2_i32_8
  let v15 : BitVec 32 := Scalar.addi c0_i32_9 v14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v16 : BitVec 32 := Scalar.muli v5 c1_i32_10
  let v17 : BitVec 32 := Scalar.addi v15 v16
  v17.toNat
def k0_off1 (d0 : Dev nD) (c0_i32_13 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v19 : BitVec 32 := Scalar.muli v5 c2048_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v20 : BitVec 32 := Scalar.addi v19 v8
  let v21 : BitVec 32 := Scalar.addi v20 c0_i32_13
  let c0_i32_19 : BitVec 32 := 0#32
  ![v21.toNat, 0]
def k0_off2 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v18 : BitVec 32 := Scalar.addi v8 c0_i32_12
  let c0_i32_20 : BitVec 32 := 0#32
  ![v18.toNat, 0]
def k0_dev3 (d0 : Dev nD) : Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_16 : BitVec 32 := 2#32
  let v22 : BitVec 32 := Scalar.muli v2 c2_i32_16
  let v23 : BitVec 32 := Scalar.addi c0_i32_17 v22
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_18 : BitVec 32 := 1#32
  let v24 : BitVec 32 := Scalar.muli v6 c1_i32_18
  let v25 : BitVec 32 := Scalar.addi v23 v24
  v25.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v36 : BitVec 32 := Scalar.muli v2 c2_i32_25
  let v37 : BitVec 32 := Scalar.addi c0_i32_26 v36
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v38 : BitVec 32 := Scalar.muli v6 c1_i32_27
  let v39 : BitVec 32 := Scalar.addi v37 v38
  v39.toNat
def k0_dev5 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v50 : BitVec 32 := Scalar.muli v2 c2_i32_34
  let v51 : BitVec 32 := Scalar.addi c0_i32_35 v50
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_36 : BitVec 32 := 1#32
  let v52 : BitVec 32 := Scalar.muli v6 c1_i32_36
  let v53 : BitVec 32 := Scalar.addi v51 v52
  v53.toNat
def k0_dev6 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v64 : BitVec 32 := Scalar.muli v2 c2_i32_42
  let v65 : BitVec 32 := Scalar.addi c0_i32_43 v64
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_44 : BitVec 32 := 1#32
  let v66 : BitVec 32 := Scalar.muli v6 c1_i32_44
  let v67 : BitVec 32 := Scalar.addi v65 v66
  v67.toNat
def k0_dev7 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v78 : BitVec 32 := Scalar.muli v2 c2_i32_50
  let v79 : BitVec 32 := Scalar.addi c0_i32_51 v78
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_52 : BitVec 32 := 1#32
  let v80 : BitVec 32 := Scalar.muli v6 c1_i32_52
  let v81 : BitVec 32 := Scalar.addi v79 v80
  v81.toNat
def k0_dev8 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v92 : BitVec 32 := Scalar.muli v2 c2_i32_58
  let v93 : BitVec 32 := Scalar.addi c0_i32_59 v92
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_60 : BitVec 32 := 1#32
  let v94 : BitVec 32 := Scalar.muli v6 c1_i32_60
  let v95 : BitVec 32 := Scalar.addi v93 v94
  v95.toNat
def k0_dev9 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v106 : BitVec 32 := Scalar.muli v2 c2_i32_66
  let v107 : BitVec 32 := Scalar.addi c0_i32_67 v106
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_68 : BitVec 32 := 1#32
  let v108 : BitVec 32 := Scalar.muli v6 c1_i32_68
  let v109 : BitVec 32 := Scalar.addi v107 v108
  v109.toNat
def k0_dev10 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v120 : BitVec 32 := Scalar.muli v2 c2_i32_74
  let v121 : BitVec 32 := Scalar.addi c0_i32_75 v120
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_76 : BitVec 32 := 1#32
  let v122 : BitVec 32 := Scalar.muli v6 c1_i32_76
  let v123 : BitVec 32 := Scalar.addi v121 v122
  v123.toNat
def k0_dev11 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v134 : BitVec 32 := Scalar.muli v2 c2_i32_82
  let v135 : BitVec 32 := Scalar.addi c0_i32_83 v134
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_84 : BitVec 32 := 1#32
  let v136 : BitVec 32 := Scalar.muli v6 c1_i32_84
  let v137 : BitVec 32 := Scalar.addi v135 v136
  v137.toNat
def k0_dev12 (d0 : Dev nD) : Nat :=
  let c0_i32_91 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_90 : BitVec 32 := 2#32
  let v148 : BitVec 32 := Scalar.muli v2 c2_i32_90
  let v149 : BitVec 32 := Scalar.addi c0_i32_91 v148
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_92 : BitVec 32 := 1#32
  let v150 : BitVec 32 := Scalar.muli v6 c1_i32_92
  let v151 : BitVec 32 := Scalar.addi v149 v150
  v151.toNat
def k0_dev13 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v162 : BitVec 32 := Scalar.muli v2 c2_i32_98
  let v163 : BitVec 32 := Scalar.addi c0_i32_99 v162
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_100 : BitVec 32 := 1#32
  let v164 : BitVec 32 := Scalar.muli v6 c1_i32_100
  let v165 : BitVec 32 := Scalar.addi v163 v164
  v165.toNat
def k0_dev14 (d0 : Dev nD) : Nat :=
  let c0_i32_107 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_106 : BitVec 32 := 2#32
  let v176 : BitVec 32 := Scalar.muli v2 c2_i32_106
  let v177 : BitVec 32 := Scalar.addi c0_i32_107 v176
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_108 : BitVec 32 := 1#32
  let v178 : BitVec 32 := Scalar.muli v6 c1_i32_108
  let v179 : BitVec 32 := Scalar.addi v177 v178
  v179.toNat
def k0_dev15 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v190 : BitVec 32 := Scalar.muli v2 c2_i32_114
  let v191 : BitVec 32 := Scalar.addi c0_i32_115 v190
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_116 : BitVec 32 := 1#32
  let v192 : BitVec 32 := Scalar.muli v6 c1_i32_116
  let v193 : BitVec 32 := Scalar.addi v191 v192
  v193.toNat
def k0_dev16 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v204 : BitVec 32 := Scalar.muli v2 c2_i32_122
  let v205 : BitVec 32 := Scalar.addi c0_i32_123 v204
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_124 : BitVec 32 := 1#32
  let v206 : BitVec 32 := Scalar.muli v6 c1_i32_124
  let v207 : BitVec 32 := Scalar.addi v205 v206
  v207.toNat
def k0_dev17 (d0 : Dev nD) : Nat :=
  let c0_i32_131 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_130 : BitVec 32 := 2#32
  let v218 : BitVec 32 := Scalar.muli v2 c2_i32_130
  let v219 : BitVec 32 := Scalar.addi c0_i32_131 v218
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_132 : BitVec 32 := 1#32
  let v220 : BitVec 32 := Scalar.muli v6 c1_i32_132
  let v221 : BitVec 32 := Scalar.addi v219 v220
  v221.toNat
def k0_dev18 (d0 : Dev nD) : Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_138 : BitVec 32 := 2#32
  let v232 : BitVec 32 := Scalar.muli v2 c2_i32_138
  let v233 : BitVec 32 := Scalar.addi c0_i32_139 v232
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_140 : BitVec 32 := 1#32
  let v234 : BitVec 32 := Scalar.muli v6 c1_i32_140
  let v235 : BitVec 32 := Scalar.addi v233 v234
  v235.toNat
def k0_dev19 (d0 : Dev nD) : Nat :=
  let c0_i32_147 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_146 : BitVec 32 := 2#32
  let v246 : BitVec 32 := Scalar.muli v2 c2_i32_146
  let v247 : BitVec 32 := Scalar.addi c0_i32_147 v246
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_148 : BitVec 32 := 1#32
  let v248 : BitVec 32 := Scalar.muli v6 c1_i32_148
  let v249 : BitVec 32 := Scalar.addi v247 v248
  v249.toNat
def k0_dev20 (d0 : Dev nD) : Nat :=
  let c0_i32_155 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_154 : BitVec 32 := 2#32
  let v260 : BitVec 32 := Scalar.muli v2 c2_i32_154
  let v261 : BitVec 32 := Scalar.addi c0_i32_155 v260
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_156 : BitVec 32 := 1#32
  let v262 : BitVec 32 := Scalar.muli v6 c1_i32_156
  let v263 : BitVec 32 := Scalar.addi v261 v262
  v263.toNat
def k0_dev21 (d0 : Dev nD) : Nat :=
  let c0_i32_163 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_162 : BitVec 32 := 2#32
  let v274 : BitVec 32 := Scalar.muli v2 c2_i32_162
  let v275 : BitVec 32 := Scalar.addi c0_i32_163 v274
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_164 : BitVec 32 := 1#32
  let v276 : BitVec 32 := Scalar.muli v6 c1_i32_164
  let v277 : BitVec 32 := Scalar.addi v275 v276
  v277.toNat
def k0_dev22 (d0 : Dev nD) : Nat :=
  let c0_i32_171 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_170 : BitVec 32 := 2#32
  let v288 : BitVec 32 := Scalar.muli v2 c2_i32_170
  let v289 : BitVec 32 := Scalar.addi c0_i32_171 v288
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_172 : BitVec 32 := 1#32
  let v290 : BitVec 32 := Scalar.muli v6 c1_i32_172
  let v291 : BitVec 32 := Scalar.addi v289 v290
  v291.toNat
def k0_dev23 (d0 : Dev nD) : Nat :=
  let c0_i32_179 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_178 : BitVec 32 := 2#32
  let v302 : BitVec 32 := Scalar.muli v2 c2_i32_178
  let v303 : BitVec 32 := Scalar.addi c0_i32_179 v302
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_180 : BitVec 32 := 1#32
  let v304 : BitVec 32 := Scalar.muli v6 c1_i32_180
  let v305 : BitVec 32 := Scalar.addi v303 v304
  v305.toNat
def k0_dev24 (d0 : Dev nD) : Nat :=
  let c0_i32_187 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_186 : BitVec 32 := 2#32
  let v316 : BitVec 32 := Scalar.muli v2 c2_i32_186
  let v317 : BitVec 32 := Scalar.addi c0_i32_187 v316
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_188 : BitVec 32 := 1#32
  let v318 : BitVec 32 := Scalar.muli v6 c1_i32_188
  let v319 : BitVec 32 := Scalar.addi v317 v318
  v319.toNat
def k0_dev25 (d0 : Dev nD) : Nat :=
  let c0_i32_195 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_194 : BitVec 32 := 2#32
  let v330 : BitVec 32 := Scalar.muli v2 c2_i32_194
  let v331 : BitVec 32 := Scalar.addi c0_i32_195 v330
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_196 : BitVec 32 := 1#32
  let v332 : BitVec 32 := Scalar.muli v6 c1_i32_196
  let v333 : BitVec 32 := Scalar.addi v331 v332
  v333.toNat
def k0_dev26 (d0 : Dev nD) : Nat :=
  let c0_i32_203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_202 : BitVec 32 := 2#32
  let v344 : BitVec 32 := Scalar.muli v2 c2_i32_202
  let v345 : BitVec 32 := Scalar.addi c0_i32_203 v344
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_204 : BitVec 32 := 1#32
  let v346 : BitVec 32 := Scalar.muli v6 c1_i32_204
  let v347 : BitVec 32 := Scalar.addi v345 v346
  v347.toNat
def k0_dev27 (d0 : Dev nD) : Nat :=
  let c0_i32_211 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_210 : BitVec 32 := 2#32
  let v358 : BitVec 32 := Scalar.muli v2 c2_i32_210
  let v359 : BitVec 32 := Scalar.addi c0_i32_211 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_212 : BitVec 32 := 1#32
  let v360 : BitVec 32 := Scalar.muli v6 c1_i32_212
  let v361 : BitVec 32 := Scalar.addi v359 v360
  v361.toNat
def k0_dev28 (d0 : Dev nD) : Nat :=
  let c0_i32_219 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_218 : BitVec 32 := 2#32
  let v372 : BitVec 32 := Scalar.muli v2 c2_i32_218
  let v373 : BitVec 32 := Scalar.addi c0_i32_219 v372
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_220 : BitVec 32 := 1#32
  let v374 : BitVec 32 := Scalar.muli v6 c1_i32_220
  let v375 : BitVec 32 := Scalar.addi v373 v374
  v375.toNat
def k0_dev29 (d0 : Dev nD) : Nat :=
  let c0_i32_227 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_226 : BitVec 32 := 2#32
  let v386 : BitVec 32 := Scalar.muli v2 c2_i32_226
  let v387 : BitVec 32 := Scalar.addi c0_i32_227 v386
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_228 : BitVec 32 := 1#32
  let v388 : BitVec 32 := Scalar.muli v6 c1_i32_228
  let v389 : BitVec 32 := Scalar.addi v387 v388
  v389.toNat
def k0_dev30 (d0 : Dev nD) : Nat :=
  let c0_i32_235 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_234 : BitVec 32 := 2#32
  let v400 : BitVec 32 := Scalar.muli v2 c2_i32_234
  let v401 : BitVec 32 := Scalar.addi c0_i32_235 v400
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_236 : BitVec 32 := 1#32
  let v402 : BitVec 32 := Scalar.muli v6 c1_i32_236
  let v403 : BitVec 32 := Scalar.addi v401 v402
  v403.toNat
def k0_dev31 (d0 : Dev nD) : Nat :=
  let c0_i32_243 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_242 : BitVec 32 := 2#32
  let v414 : BitVec 32 := Scalar.muli v2 c2_i32_242
  let v415 : BitVec 32 := Scalar.addi c0_i32_243 v414
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_244 : BitVec 32 := 1#32
  let v416 : BitVec 32 := Scalar.muli v6 c1_i32_244
  let v417 : BitVec 32 := Scalar.addi v415 v416
  v417.toNat
def k0_dev32 (d0 : Dev nD) : Nat :=
  let c0_i32_251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_250 : BitVec 32 := 2#32
  let v428 : BitVec 32 := Scalar.muli v2 c2_i32_250
  let v429 : BitVec 32 := Scalar.addi c0_i32_251 v428
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_252 : BitVec 32 := 1#32
  let v430 : BitVec 32 := Scalar.muli v6 c1_i32_252
  let v431 : BitVec 32 := Scalar.addi v429 v430
  v431.toNat
def k0_dev33 (d0 : Dev nD) : Nat :=
  let c0_i32_259 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_258 : BitVec 32 := 2#32
  let v442 : BitVec 32 := Scalar.muli v2 c2_i32_258
  let v443 : BitVec 32 := Scalar.addi c0_i32_259 v442
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_260 : BitVec 32 := 1#32
  let v444 : BitVec 32 := Scalar.muli v6 c1_i32_260
  let v445 : BitVec 32 := Scalar.addi v443 v444
  v445.toNat
def k0_dev34 (d0 : Dev nD) : Nat :=
  let c0_i32_267 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_266 : BitVec 32 := 2#32
  let v456 : BitVec 32 := Scalar.muli v2 c2_i32_266
  let v457 : BitVec 32 := Scalar.addi c0_i32_267 v456
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_268 : BitVec 32 := 1#32
  let v458 : BitVec 32 := Scalar.muli v6 c1_i32_268
  let v459 : BitVec 32 := Scalar.addi v457 v458
  v459.toNat
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_271 : BitVec 32 := 2048#32
  let v466 : BitVec 32 := Scalar.muli v5 c2048_i32_271
  let c0_i32_272 : BitVec 32 := 0#32
  ![v466.toNat, 0]
def k0_off4 (d0 : Dev nD) (c0_i32_274 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c2048_i32_273 : BitVec 32 := 2048#32
  let v468 : BitVec 32 := Scalar.muli v6 c2048_i32_273
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v469 : BitVec 32 := Scalar.addi v468 v8
  let v470 : BitVec 32 := Scalar.addi v469 c0_i32_274
  let c0_i32_280 : BitVec 32 := 0#32
  ![v470.toNat, 0]
def k0_dev35 (d0 : Dev nD) : Nat :=
  let c0_i32_286 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_285 : BitVec 32 := 2#32
  let v479 : BitVec 32 := Scalar.muli v7 c2_i32_285
  let v480 : BitVec 32 := Scalar.addi c0_i32_286 v479
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_287 : BitVec 32 := 1#32
  let v481 : BitVec 32 := Scalar.muli v5 c1_i32_287
  let v482 : BitVec 32 := Scalar.addi v480 v481
  v482.toNat
def k0_dev36 (d0 : Dev nD) : Nat :=
  let c0_i32_303 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_302 : BitVec 32 := 2#32
  let v500 : BitVec 32 := Scalar.muli v7 c2_i32_302
  let v501 : BitVec 32 := Scalar.addi c0_i32_303 v500
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_304 : BitVec 32 := 1#32
  let v502 : BitVec 32 := Scalar.muli v5 c1_i32_304
  let v503 : BitVec 32 := Scalar.addi v501 v502
  v503.toNat
def k0_dev37 (d0 : Dev nD) : Nat :=
  let c0_i32_320 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_319 : BitVec 32 := 2#32
  let v521 : BitVec 32 := Scalar.muli v7 c2_i32_319
  let v522 : BitVec 32 := Scalar.addi c0_i32_320 v521
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_321 : BitVec 32 := 1#32
  let v523 : BitVec 32 := Scalar.muli v5 c1_i32_321
  let v524 : BitVec 32 := Scalar.addi v522 v523
  v524.toNat
def k0_dev38 (d0 : Dev nD) : Nat :=
  let c0_i32_337 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_336 : BitVec 32 := 2#32
  let v542 : BitVec 32 := Scalar.muli v7 c2_i32_336
  let v543 : BitVec 32 := Scalar.addi c0_i32_337 v542
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_338 : BitVec 32 := 1#32
  let v544 : BitVec 32 := Scalar.muli v5 c1_i32_338
  let v545 : BitVec 32 := Scalar.addi v543 v544
  v545.toNat
def k0_dev39 (d0 : Dev nD) : Nat :=
  let c0_i32_354 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_353 : BitVec 32 := 2#32
  let v563 : BitVec 32 := Scalar.muli v7 c2_i32_353
  let v564 : BitVec 32 := Scalar.addi c0_i32_354 v563
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_355 : BitVec 32 := 1#32
  let v565 : BitVec 32 := Scalar.muli v5 c1_i32_355
  let v566 : BitVec 32 := Scalar.addi v564 v565
  v566.toNat
def k0_dev40 (d0 : Dev nD) : Nat :=
  let c0_i32_371 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_370 : BitVec 32 := 2#32
  let v584 : BitVec 32 := Scalar.muli v7 c2_i32_370
  let v585 : BitVec 32 := Scalar.addi c0_i32_371 v584
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_372 : BitVec 32 := 1#32
  let v586 : BitVec 32 := Scalar.muli v5 c1_i32_372
  let v587 : BitVec 32 := Scalar.addi v585 v586
  v587.toNat
def k0_dev41 (d0 : Dev nD) : Nat :=
  let c0_i32_388 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_387 : BitVec 32 := 2#32
  let v605 : BitVec 32 := Scalar.muli v7 c2_i32_387
  let v606 : BitVec 32 := Scalar.addi c0_i32_388 v605
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_389 : BitVec 32 := 1#32
  let v607 : BitVec 32 := Scalar.muli v5 c1_i32_389
  let v608 : BitVec 32 := Scalar.addi v606 v607
  v608.toNat
def k0_dev42 (d0 : Dev nD) : Nat :=
  let c0_i32_405 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_404 : BitVec 32 := 2#32
  let v626 : BitVec 32 := Scalar.muli v7 c2_i32_404
  let v627 : BitVec 32 := Scalar.addi c0_i32_405 v626
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_406 : BitVec 32 := 1#32
  let v628 : BitVec 32 := Scalar.muli v5 c1_i32_406
  let v629 : BitVec 32 := Scalar.addi v627 v628
  v629.toNat
def k0_dev43 (d0 : Dev nD) : Nat :=
  let c0_i32_422 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_421 : BitVec 32 := 2#32
  let v647 : BitVec 32 := Scalar.muli v7 c2_i32_421
  let v648 : BitVec 32 := Scalar.addi c0_i32_422 v647
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_423 : BitVec 32 := 1#32
  let v649 : BitVec 32 := Scalar.muli v5 c1_i32_423
  let v650 : BitVec 32 := Scalar.addi v648 v649
  v650.toNat
def k0_dev44 (d0 : Dev nD) : Nat :=
  let c0_i32_439 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_438 : BitVec 32 := 2#32
  let v668 : BitVec 32 := Scalar.muli v7 c2_i32_438
  let v669 : BitVec 32 := Scalar.addi c0_i32_439 v668
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_440 : BitVec 32 := 1#32
  let v670 : BitVec 32 := Scalar.muli v5 c1_i32_440
  let v671 : BitVec 32 := Scalar.addi v669 v670
  v671.toNat
def k0_dev45 (d0 : Dev nD) : Nat :=
  let c0_i32_456 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_455 : BitVec 32 := 2#32
  let v689 : BitVec 32 := Scalar.muli v7 c2_i32_455
  let v690 : BitVec 32 := Scalar.addi c0_i32_456 v689
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_457 : BitVec 32 := 1#32
  let v691 : BitVec 32 := Scalar.muli v5 c1_i32_457
  let v692 : BitVec 32 := Scalar.addi v690 v691
  v692.toNat
def k0_dev46 (d0 : Dev nD) : Nat :=
  let c0_i32_473 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_472 : BitVec 32 := 2#32
  let v710 : BitVec 32 := Scalar.muli v7 c2_i32_472
  let v711 : BitVec 32 := Scalar.addi c0_i32_473 v710
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_474 : BitVec 32 := 1#32
  let v712 : BitVec 32 := Scalar.muli v5 c1_i32_474
  let v713 : BitVec 32 := Scalar.addi v711 v712
  v713.toNat
def k0_dev47 (d0 : Dev nD) : Nat :=
  let c0_i32_490 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_489 : BitVec 32 := 2#32
  let v731 : BitVec 32 := Scalar.muli v7 c2_i32_489
  let v732 : BitVec 32 := Scalar.addi c0_i32_490 v731
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_491 : BitVec 32 := 1#32
  let v733 : BitVec 32 := Scalar.muli v5 c1_i32_491
  let v734 : BitVec 32 := Scalar.addi v732 v733
  v734.toNat
def k0_dev48 (d0 : Dev nD) : Nat :=
  let c0_i32_507 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_506 : BitVec 32 := 2#32
  let v752 : BitVec 32 := Scalar.muli v7 c2_i32_506
  let v753 : BitVec 32 := Scalar.addi c0_i32_507 v752
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_508 : BitVec 32 := 1#32
  let v754 : BitVec 32 := Scalar.muli v5 c1_i32_508
  let v755 : BitVec 32 := Scalar.addi v753 v754
  v755.toNat
def k0_dev49 (d0 : Dev nD) : Nat :=
  let c0_i32_524 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_523 : BitVec 32 := 2#32
  let v773 : BitVec 32 := Scalar.muli v7 c2_i32_523
  let v774 : BitVec 32 := Scalar.addi c0_i32_524 v773
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_525 : BitVec 32 := 1#32
  let v775 : BitVec 32 := Scalar.muli v5 c1_i32_525
  let v776 : BitVec 32 := Scalar.addi v774 v775
  v776.toNat
def k0_dev50 (d0 : Dev nD) : Nat :=
  let c0_i32_541 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_540 : BitVec 32 := 2#32
  let v794 : BitVec 32 := Scalar.muli v7 c2_i32_540
  let v795 : BitVec 32 := Scalar.addi c0_i32_541 v794
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_542 : BitVec 32 := 1#32
  let v796 : BitVec 32 := Scalar.muli v5 c1_i32_542
  let v797 : BitVec 32 := Scalar.addi v795 v796
  v797.toNat
def k0_dev51 (d0 : Dev nD) : Nat :=
  let c0_i32_558 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_557 : BitVec 32 := 2#32
  let v815 : BitVec 32 := Scalar.muli v7 c2_i32_557
  let v816 : BitVec 32 := Scalar.addi c0_i32_558 v815
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_559 : BitVec 32 := 1#32
  let v817 : BitVec 32 := Scalar.muli v5 c1_i32_559
  let v818 : BitVec 32 := Scalar.addi v816 v817
  v818.toNat
def k0_dev52 (d0 : Dev nD) : Nat :=
  let c0_i32_575 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_574 : BitVec 32 := 2#32
  let v836 : BitVec 32 := Scalar.muli v7 c2_i32_574
  let v837 : BitVec 32 := Scalar.addi c0_i32_575 v836
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_576 : BitVec 32 := 1#32
  let v838 : BitVec 32 := Scalar.muli v5 c1_i32_576
  let v839 : BitVec 32 := Scalar.addi v837 v838
  v839.toNat
def k0_dev53 (d0 : Dev nD) : Nat :=
  let c0_i32_592 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_591 : BitVec 32 := 2#32
  let v857 : BitVec 32 := Scalar.muli v7 c2_i32_591
  let v858 : BitVec 32 := Scalar.addi c0_i32_592 v857
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_593 : BitVec 32 := 1#32
  let v859 : BitVec 32 := Scalar.muli v5 c1_i32_593
  let v860 : BitVec 32 := Scalar.addi v858 v859
  v860.toNat
def k0_dev54 (d0 : Dev nD) : Nat :=
  let c0_i32_609 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_608 : BitVec 32 := 2#32
  let v878 : BitVec 32 := Scalar.muli v7 c2_i32_608
  let v879 : BitVec 32 := Scalar.addi c0_i32_609 v878
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_610 : BitVec 32 := 1#32
  let v880 : BitVec 32 := Scalar.muli v5 c1_i32_610
  let v881 : BitVec 32 := Scalar.addi v879 v880
  v881.toNat
def k0_dev55 (d0 : Dev nD) : Nat :=
  let c0_i32_626 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_625 : BitVec 32 := 2#32
  let v899 : BitVec 32 := Scalar.muli v7 c2_i32_625
  let v900 : BitVec 32 := Scalar.addi c0_i32_626 v899
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_627 : BitVec 32 := 1#32
  let v901 : BitVec 32 := Scalar.muli v5 c1_i32_627
  let v902 : BitVec 32 := Scalar.addi v900 v901
  v902.toNat
def k0_dev56 (d0 : Dev nD) : Nat :=
  let c0_i32_643 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_642 : BitVec 32 := 2#32
  let v920 : BitVec 32 := Scalar.muli v7 c2_i32_642
  let v921 : BitVec 32 := Scalar.addi c0_i32_643 v920
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_644 : BitVec 32 := 1#32
  let v922 : BitVec 32 := Scalar.muli v5 c1_i32_644
  let v923 : BitVec 32 := Scalar.addi v921 v922
  v923.toNat
def k0_dev57 (d0 : Dev nD) : Nat :=
  let c0_i32_660 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_659 : BitVec 32 := 2#32
  let v941 : BitVec 32 := Scalar.muli v7 c2_i32_659
  let v942 : BitVec 32 := Scalar.addi c0_i32_660 v941
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_661 : BitVec 32 := 1#32
  let v943 : BitVec 32 := Scalar.muli v5 c1_i32_661
  let v944 : BitVec 32 := Scalar.addi v942 v943
  v944.toNat
def k0_dev58 (d0 : Dev nD) : Nat :=
  let c0_i32_677 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_676 : BitVec 32 := 2#32
  let v962 : BitVec 32 := Scalar.muli v7 c2_i32_676
  let v963 : BitVec 32 := Scalar.addi c0_i32_677 v962
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_678 : BitVec 32 := 1#32
  let v964 : BitVec 32 := Scalar.muli v5 c1_i32_678
  let v965 : BitVec 32 := Scalar.addi v963 v964
  v965.toNat
def k0_dev59 (d0 : Dev nD) : Nat :=
  let c0_i32_694 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_693 : BitVec 32 := 2#32
  let v983 : BitVec 32 := Scalar.muli v7 c2_i32_693
  let v984 : BitVec 32 := Scalar.addi c0_i32_694 v983
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_695 : BitVec 32 := 1#32
  let v985 : BitVec 32 := Scalar.muli v5 c1_i32_695
  let v986 : BitVec 32 := Scalar.addi v984 v985
  v986.toNat
def k0_dev60 (d0 : Dev nD) : Nat :=
  let c0_i32_711 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_710 : BitVec 32 := 2#32
  let v1004 : BitVec 32 := Scalar.muli v7 c2_i32_710
  let v1005 : BitVec 32 := Scalar.addi c0_i32_711 v1004
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_712 : BitVec 32 := 1#32
  let v1006 : BitVec 32 := Scalar.muli v5 c1_i32_712
  let v1007 : BitVec 32 := Scalar.addi v1005 v1006
  v1007.toNat
def k0_dev61 (d0 : Dev nD) : Nat :=
  let c0_i32_728 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_727 : BitVec 32 := 2#32
  let v1025 : BitVec 32 := Scalar.muli v7 c2_i32_727
  let v1026 : BitVec 32 := Scalar.addi c0_i32_728 v1025
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_729 : BitVec 32 := 1#32
  let v1027 : BitVec 32 := Scalar.muli v5 c1_i32_729
  let v1028 : BitVec 32 := Scalar.addi v1026 v1027
  v1028.toNat
def k0_dev62 (d0 : Dev nD) : Nat :=
  let c0_i32_745 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_744 : BitVec 32 := 2#32
  let v1046 : BitVec 32 := Scalar.muli v7 c2_i32_744
  let v1047 : BitVec 32 := Scalar.addi c0_i32_745 v1046
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_746 : BitVec 32 := 1#32
  let v1048 : BitVec 32 := Scalar.muli v5 c1_i32_746
  let v1049 : BitVec 32 := Scalar.addi v1047 v1048
  v1049.toNat
def k0_dev63 (d0 : Dev nD) : Nat :=
  let c0_i32_762 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_761 : BitVec 32 := 2#32
  let v1067 : BitVec 32 := Scalar.muli v7 c2_i32_761
  let v1068 : BitVec 32 := Scalar.addi c0_i32_762 v1067
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_763 : BitVec 32 := 1#32
  let v1069 : BitVec 32 := Scalar.muli v5 c1_i32_763
  let v1070 : BitVec 32 := Scalar.addi v1068 v1069
  v1070.toNat
def k0_dev64 (d0 : Dev nD) : Nat :=
  let c0_i32_779 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_778 : BitVec 32 := 2#32
  let v1088 : BitVec 32 := Scalar.muli v7 c2_i32_778
  let v1089 : BitVec 32 := Scalar.addi c0_i32_779 v1088
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_780 : BitVec 32 := 1#32
  let v1090 : BitVec 32 := Scalar.muli v5 c1_i32_780
  let v1091 : BitVec 32 := Scalar.addi v1089 v1090
  v1091.toNat
def k0_dev65 (d0 : Dev nD) : Nat :=
  let c0_i32_796 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_795 : BitVec 32 := 2#32
  let v1109 : BitVec 32 := Scalar.muli v7 c2_i32_795
  let v1110 : BitVec 32 := Scalar.addi c0_i32_796 v1109
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_797 : BitVec 32 := 1#32
  let v1111 : BitVec 32 := Scalar.muli v5 c1_i32_797
  let v1112 : BitVec 32 := Scalar.addi v1110 v1111
  v1112.toNat
def k0_dev66 (d0 : Dev nD) : Nat :=
  let c0_i32_813 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_812 : BitVec 32 := 2#32
  let v1130 : BitVec 32 := Scalar.muli v7 c2_i32_812
  let v1131 : BitVec 32 := Scalar.addi c0_i32_813 v1130
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_814 : BitVec 32 := 1#32
  let v1132 : BitVec 32 := Scalar.muli v5 c1_i32_814
  let v1133 : BitVec 32 := Scalar.addi v1131 v1132
  v1133.toNat
def k0_off5 (d0 : Dev nD) (c0_i32_819 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c2048_i32_817 : BitVec 32 := 2048#32
  let v1140 : BitVec 32 := Scalar.muli v6 c2048_i32_817
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c1024_i32_818 : BitVec 32 := 1024#32
  let v1141 : BitVec 32 := Scalar.muli v7 c1024_i32_818
  let v1142 : BitVec 32 := Scalar.addi v1140 v1141
  let v1143 : BitVec 32 := Scalar.addi v1142 c0_i32_819
  let c0_i32_825 : BitVec 32 := 0#32
  ![v1143.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S32_S1_1 : ∀ a, (![1] : Fin 1 → Nat) a + S1.size a ≤ S32.size a
  inb_S32_S1_2 : ∀ a, (![2] : Fin 1 → Nat) a + S1.size a ≤ S32.size a
  inb_S32_S1_3 : ∀ a, (![3] : Fin 1 → Nat) a + S1.size a ≤ S32.size a
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S32_S1_9 : ∀ a, (![9] : Fin 1 → Nat) a + S1.size a ≤ S32.size a
  inb_S32_S1_10 : ∀ a, (![10] : Fin 1 → Nat) a + S1.size a ≤ S32.size a
  inb_S32_S1_11 : ∀ a, (![11] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S32_S1_17 : ∀ a, (![17] : Fin 1 → Nat) a + S1.size a ≤ S32.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  inb_S2048x512_S32x512_0_0 : ∀ a, (![0, 0] : Fin 2 → Nat) a + S32x512.size a ≤ S2048x512.size a
  inb_S2048x512_S32x512_32_0 : ∀ a, (![32, 0] : Fin 2 → Nat) a + S32x512.size a ≤ S2048x512.size a
  inb_S2048x512_S32x512_64_0 : ∀ a, (![64, 0] : Fin 2 → Nat) a + S32x512.size a ≤ S2048x512.size a
  inb_S2048x512_S32x512_96_0 : ∀ a, (![96, 0] : Fin 2 → Nat) a + S32x512.size a ≤ S2048x512.size a
  inb_S2048x512_S32x512_128_0 : ∀ a, (![128, 0] : Fin 2 → Nat) a + S32x512.size a ≤ S2048x512.size a
  inb_S2048x512_S32x512_160_0 : ∀ a, (![160, 0] : Fin 2 → Nat) a + S32x512.size a ≤ S2048x512.size a
  inb_S2048x512_S32x512_192_0 : ∀ a, (![192, 0] : Fin 2 → Nat) a + S32x512.size a ≤ S2048x512.size a
  inb_S2048x512_S32x512_224_0 : ∀ a, (![224, 0] : Fin 2 → Nat) a + S32x512.size a ≤ S2048x512.size a
  inb_S2048x512_S32x512_256_0 : ∀ a, (![256, 0] : Fin 2 → Nat) a + S32x512.size a ≤ S2048x512.size a
  inb_S2048x512_S32x512_288_0 : ∀ a, (![288, 0] : Fin 2 → Nat) a + S32x512.size a ≤ S2048x512.size a
  inb_S2048x512_S32x512_320_0 : ∀ a, (![320, 0] : Fin 2 → Nat) a + S32x512.size a ≤ S2048x512.size a
  inb_S2048x512_S32x512_352_0 : ∀ a, (![352, 0] : Fin 2 → Nat) a + S32x512.size a ≤ S2048x512.size a
  inb_S2048x512_S32x512_384_0 : ∀ a, (![384, 0] : Fin 2 → Nat) a + S32x512.size a ≤ S2048x512.size a
  inb_S2048x512_S32x512_416_0 : ∀ a, (![416, 0] : Fin 2 → Nat) a + S32x512.size a ≤ S2048x512.size a
  inb_S2048x512_S32x512_448_0 : ∀ a, (![448, 0] : Fin 2 → Nat) a + S32x512.size a ≤ S2048x512.size a
  inb_S2048x512_S32x512_480_0 : ∀ a, (![480, 0] : Fin 2 → Nat) a + S32x512.size a ≤ S2048x512.size a
  inb_S2048x512_S32x512_512_0 : ∀ a, (![512, 0] : Fin 2 → Nat) a + S32x512.size a ≤ S2048x512.size a
  inb_S2048x512_S32x512_544_0 : ∀ a, (![544, 0] : Fin 2 → Nat) a + S32x512.size a ≤ S2048x512.size a
  inb_S2048x512_S32x512_576_0 : ∀ a, (![576, 0] : Fin 2 → Nat) a + S32x512.size a ≤ S2048x512.size a
  inb_S2048x512_S32x512_608_0 : ∀ a, (![608, 0] : Fin 2 → Nat) a + S32x512.size a ≤ S2048x512.size a
  inb_S2048x512_S32x512_640_0 : ∀ a, (![640, 0] : Fin 2 → Nat) a + S32x512.size a ≤ S2048x512.size a
  inb_S2048x512_S32x512_672_0 : ∀ a, (![672, 0] : Fin 2 → Nat) a + S32x512.size a ≤ S2048x512.size a
  inb_S2048x512_S32x512_704_0 : ∀ a, (![704, 0] : Fin 2 → Nat) a + S32x512.size a ≤ S2048x512.size a
  inb_S2048x512_S32x512_736_0 : ∀ a, (![736, 0] : Fin 2 → Nat) a + S32x512.size a ≤ S2048x512.size a
  inb_S2048x512_S32x512_768_0 : ∀ a, (![768, 0] : Fin 2 → Nat) a + S32x512.size a ≤ S2048x512.size a
  inb_S2048x512_S32x512_800_0 : ∀ a, (![800, 0] : Fin 2 → Nat) a + S32x512.size a ≤ S2048x512.size a
  inb_S2048x512_S32x512_832_0 : ∀ a, (![832, 0] : Fin 2 → Nat) a + S32x512.size a ≤ S2048x512.size a
  inb_S2048x512_S32x512_864_0 : ∀ a, (![864, 0] : Fin 2 → Nat) a + S32x512.size a ≤ S2048x512.size a
  inb_S2048x512_S32x512_896_0 : ∀ a, (![896, 0] : Fin 2 → Nat) a + S32x512.size a ≤ S2048x512.size a
  inb_S2048x512_S32x512_928_0 : ∀ a, (![928, 0] : Fin 2 → Nat) a + S32x512.size a ≤ S2048x512.size a
  inb_S2048x512_S32x512_960_0 : ∀ a, (![960, 0] : Fin 2 → Nat) a + S32x512.size a ≤ S2048x512.size a
  inb_S2048x512_S32x512_992_0 : ∀ a, (![992, 0] : Fin 2 → Nat) a + S32x512.size a ≤ S2048x512.size a
  hcc0_scratch0 : 2 + S32.numel ≤ 131
  hcc0_scratch1 : 34 + S32.numel ≤ 131
  hcc0_scratch2 : 66 + S32.numel ≤ 131
  hcc0_scratch3 : 98 + S32.numel ≤ 131
  hcc0_scratch4 : 130 + S_.numel ≤ 131
  k0_dev1_lt : ∀ d0 : Dev nD, (k0_dev1 d0) < nD
  k0_dev2_lt : ∀ d0 : Dev nD, (k0_dev2 d0) < nD
  k0_off1_inb : ∀ d0 : Dev nD, ∀ (r : Fin 32), ∀ a, (k0_off1 d0 (BitVec.ofNat 32 (32 * r.val))) a + S32x512.size a ≤ S4096x512.size a
  k0_off2_inb : ∀ d0 : Dev nD, ∀ (r : Fin 32), ∀ a, (k0_off2 d0 (BitVec.ofNat 32 (32 * r.val))) a + S32x512.size a ≤ S2048x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off3_inb : ∀ d0 : Dev nD, ∀ a, (k0_off3 d0) a + S2048x512.size a ≤ S4096x512.size a
  k0_off4_inb : ∀ d0 : Dev nD, ∀ (r : Fin 32), ∀ a, (k0_off4 d0 (BitVec.ofNat 32 (32 * r.val))) a + S32x512.size a ≤ S4096x512.size a
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off5_inb : ∀ d0 : Dev nD, ∀ (r : Fin 32), ∀ a, (k0_off5 d0 (BitVec.ofNat 32 (32 * r.val))) a + S32x512.size a ≤ S4096x512.size a
  hstage0_0 : ∀ j, (stage0_0 j).IsWhole
  hstage0_1 : ∀ j, (stage0_1 j).IsWhole

variable [Facts₀]

abbrev cc0_scratch0 : DmaSems sig S32 := SemArray.consecutive 2 S32 hcc0_scratch0
abbrev cc0_scratch1 : DmaSems sig S32 := SemArray.consecutive 34 S32 hcc0_scratch1
abbrev cc0_scratch2 : DmaSems sig S32 := SemArray.consecutive 66 S32 hcc0_scratch2
abbrev cc0_scratch3 : DmaSems sig S32 := SemArray.consecutive 98 S32 hcc0_scratch3
abbrev cc0_scratch4 : DmaSems sig S_ := SemArray.consecutive 130 S_ hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.AGFold.lean ====
/-
  The all-gather kernel's body read as four counted phases.

  Device `c` of the 2 × 2 mesh sits at coordinates (x, y) = (c / 2, c % 2); `yn c` flips y, `xn c` flips x.
  After the entry handshake the body is: 32 row-chunks of the device's half x of its block sent to `yn c`
  (phase 1), the whole block copied into its own place of the result, then per chunk the wait for the
  chunk `yn c` sends and its forwarding to `xn c` (phase 2), the waits for the chunks `xn c` forwards
  (phase 3), and the waits for the two send sides of every chunk (phase 4) and for the local copy.
  The printed body unrolls the chunks; here each phase is a recursion over the list of chunks, and the
  printed body is that program by unfolding.
-/
import proofs.«900097_g7700000000000098_dist_ag_v7x_xy2x2_y_m2048_n512_f32_1_alg».proof.Proof.Gen.KernelIdeal
import proofs.«900097_g7700000000000098_dist_ag_v7x_xy2x2_y_m2048_n512_f32_1_alg».proof.Proof.Gen.KernelIdeal.Skeleton

noncomputable section

namespace Cert.KernelIdeal.AG

open Cert.KernelIdeal Cert.KernelIdeal.Gen
open Idealize.ShloMosaic Idealize.ShloMosaic.TcCoe Idealize.SL.Sem

variable {F : FTy → Type} [FloatOps F]

/-! ## The mesh -/

/-- The neighbour along y: same x, the other y. -/
def yn (c : Dev nD) : Dev nD := ⟨(2 * (c.val / 2) + 1) - c.val % 2, by have : c.val < 4 := c.isLt; show _ < 4; omega⟩
/-- The neighbour along x: same y, the other x. -/
def xn (c : Dev nD) : Dev nD := ⟨(c.val % 2 + 2) - 2 * (c.val / 2), by have : c.val < 4 := c.isLt; show _ < 4; omega⟩

theorem yn_yn (c : Dev nD) : yn (yn c) = c := by revert c; decide
theorem xn_xn (c : Dev nD) : xn (xn c) = c := by revert c; decide
theorem yn_xn (c : Dev nD) : yn (xn c) = xn (yn c) := by revert c; decide
theorem yn_ne (c : Dev nD) : yn c ≠ c := by revert c; decide
theorem xn_ne (c : Dev nD) : xn c ≠ c := by revert c; decide
theorem xn_ne_yn (c : Dev nD) : xn c ≠ yn c := by revert c; decide

theorem devY1_eq (c : Dev nD) : (⟨k0_dev1 c, k0_dev1_lt c⟩ : Dev nD) = yn c := Fin.ext (k0_dev1_eq c)
theorem devX2_eq (c : Dev nD) : (⟨k0_dev2 c, k0_dev2_lt c⟩ : Dev nD) = xn c := Fin.ext (k0_dev2_eq c)
theorem devY3_eq (c : Dev nD) : (⟨k0_dev3 c, k0_dev3_lt c⟩ : Dev nD) = yn c := Fin.ext (k0_dev3_eq c)
theorem devX35_eq (c : Dev nD) : (⟨k0_dev35 c, k0_dev35_lt c⟩ : Dev nD) = xn c := Fin.ext (k0_dev35_eq c)

/-! ## The buffers' views -/

/-- The staged block of `x` and the staged result. -/
abbrev xM : Memref sig .tc .vmem S2048x512 .f32 := Memref.whole cc0_stg0_0
abbrev oM : Memref sig .tc .vmem S4096x512 .f32 := Memref.whole cc0_stg1_0

theorem inbSem (k : Fin 32) : ∀ a, (![k.val] : Fin 1 → Nat) a + S1.size a ≤ S32.size a := by
  intro a; have := k.isLt; fin_cases a; show k.val + 1 ≤ 32; omega
theorem inbRow (k : Fin 32) : ∀ a, (![32 * k.val, 0] : Fin 2 → Nat) a + S32x512.size a ≤ S2048x512.size a := by
  intro a; have := k.isLt; fin_cases a
  · show 32 * k.val + 32 ≤ 2048; omega
  · show 0 + 512 ≤ 512; omega

/-- Semaphore `k` of a 32-semaphore scratch array. -/
abbrev semAt (a : DmaSems sig S32) (k : Fin 32) : DmaSem sig :=
  ((a.slice (Rect.unit (s := S32) ![k.val] S1.size (inbSem k))).squeeze S_ squeezes_S1_S_).sem

/-- Chunk `k` of the half of `x` the device sends along y. -/
abbrev xS (c : Dev nD) (k : Fin 32) : Memref sig .tc .vmem S32x512 .f32 :=
  xM.slice (Rect.unit (s := S2048x512) (k0_off2 c (BitVec.ofNat 32 (32 * k.val))) S32x512.size (k0_off2_inb c k)) (fun _ => rfl)
/-- Rows `32 k …` of `x`: the source a receive wait names (only its size matters). -/
abbrev xR (k : Fin 32) : Memref sig .tc .vmem S32x512 .f32 :=
  xM.slice (Rect.unit (s := S2048x512) ![32 * k.val, 0] S32x512.size (inbRow k)) (fun _ => rfl)
/-- Where chunk `k` of device `c`'s half lands in the result (on `yn c`). -/
abbrev oS1 (c : Dev nD) (k : Fin 32) : Memref sig .tc .vmem S32x512 .f32 :=
  oM.slice (Rect.unit (s := S4096x512) (k0_off1 c (BitVec.ofNat 32 (32 * k.val))) S32x512.size (k0_off1_inb c k)) (fun _ => rfl)
/-- Where chunk `k` from `yn c` lands on `c`; `c` forwards it to the same rows on `xn c`. -/
abbrev oS4 (c : Dev nD) (k : Fin 32) : Memref sig .tc .vmem S32x512 .f32 :=
  oM.slice (Rect.unit (s := S4096x512) (k0_off4 c (BitVec.ofNat 32 (32 * k.val))) S32x512.size (k0_off4_inb c k)) (fun _ => rfl)
/-- Where chunk `k` forwarded by `xn c` lands on `c`. -/
abbrev oS5 (c : Dev nD) (k : Fin 32) : Memref sig .tc .vmem S32x512 .f32 :=
  oM.slice (Rect.unit (s := S4096x512) (k0_off5 c (BitVec.ofNat 32 (32 * k.val))) S32x512.size (k0_off5_inb c k)) (fun _ => rfl)
/-- The device's own block's place in the result. -/
abbrev oL (c : Dev nD) : Memref sig .tc .vmem S2048x512 .f32 :=
  oM.slice (Rect.unit (s := S4096x512) (k0_off3 c) S2048x512.size (k0_off3_inb c)) (fun _ => rfl)

/-- The runtime's barrier semaphore of collective id 0. -/
abbrev barS : Sem sig := (SemArray.scalar (sig.barrier 0 rfl) : Sems sig S_).sem

/-! ## The phases -/

abbrev P : Type 1 := Prog (TpuEff nD τ sig (Elt F) Λ₀ .tc) PUnit

/-- Phase 1: chunk `j` of the half sent to `yn c`. -/
def ph1 (c : Dev nD) : List (Fin 32) → P (F := F) → P (F := F)
  | [], k => k
  | j :: l, k => do
      Prog.lift (.enqueueDma (xS c j) (.remote (Dev.tc (⟨k0_dev3 c, k0_dev3_lt c⟩ : Dev nD)) (oS1 c j) (.dma (semAt cc0_scratch0 j))) (.dma (semAt cc0_scratch1 j)) (View.wordExact_bits rfl) (View.wordExact_bits rfl) ⟨⟨rfl, Or.inl rfl⟩, trivial⟩)
      ph1 c l k

/-- Phase 2: wait for chunk `j` from `yn c`, forward it to `xn c`. -/
def ph2 (c : Dev nD) : List (Fin 32) → P (F := F) → P (F := F)
  | [], k => k
  | j :: l, k => do
      Prog.lift (.waitDma2 (semAt cc0_scratch1 j) (xR j) (oS4 c j) (View.wordExact_bits rfl) (View.wordExact_bits rfl))
      Prog.lift (.enqueueDma (oS4 c j) (.remote (Dev.tc (⟨k0_dev35 c, k0_dev35_lt c⟩ : Dev nD)) (oS4 c j) (.dma (semAt cc0_scratch2 j))) (.dma (semAt cc0_scratch3 j)) (View.wordExact_bits rfl) (View.wordExact_bits rfl) ⟨⟨rfl, Or.inl rfl⟩, trivial⟩)
      ph2 c l k

/-- Phase 3: wait for chunk `j` forwarded by `xn c`. -/
def ph3 (c : Dev nD) : List (Fin 32) → P (F := F) → P (F := F)
  | [], k => k
  | j :: l, k => do
      Prog.lift (.waitDma2 (semAt cc0_scratch3 j) (xR j) (oS5 c j) (View.wordExact_bits rfl) (View.wordExact_bits rfl))
      ph3 c l k

/-- Phase 4: the two send sides of chunk `j`. -/
def ph4 (c : Dev nD) : List (Fin 32) → P (F := F) → P (F := F)
  | [], k => k
  | j :: l, k => do
      Prog.lift (.waitDma2 (semAt cc0_scratch0 j) (oS1 c j) (xS c j) (View.wordExact_bits rfl) (View.wordExact_bits rfl))
      Prog.lift (.waitDma2 (semAt cc0_scratch2 j) (oS4 c j) (oS4 c j) (View.wordExact_bits rfl) (View.wordExact_bits rfl))
      ph4 c l k

/-- The 32 chunks in order. -/
abbrev chunks : List (Fin 32) := List.finRange 32

/-- What follows the entry handshake on device `c`. -/
def afterBarrier (c : Dev nD) : P (F := F) :=
  ph1 c chunks (do
    Prog.lift (.enqueueDma xM (.here (oL c)) (.dma cc0_scratch4.sem) (Memref.isWhole_whole _).wordExact (View.wordExact_bits rfl) ⟨Or.inl rfl, trivial⟩)
    ph2 c chunks (ph3 c chunks (ph4 c chunks (do
      Prog.lift (.waitDma2 cc0_scratch4.sem xM (oL c) (Memref.isWhole_whole _).wordExact (View.wordExact_bits rfl))
      pure ⟨⟩))))

/-- The body: the device id, the handshake, the phases. -/
def folded : P (F := F) := do
  let d0 : Dev nD ← Prog.lift .deviceId
  semSignalWord (⟨k0_dev1 d0, k0_dev1_lt d0⟩ : Dev nD) barS 1#32 hamt_1
  semSignalWord (⟨k0_dev2 d0, k0_dev2_lt d0⟩ : Dev nD) barS 1#32 hamt_1
  semWaitWord barS 2#32 hamt_2
  afterBarrier d0

set_option maxRecDepth 200000 in
set_option maxHeartbeats 4000000 in
/-- The printed body, called on the staging buffers, is the folded program. -/
theorem body_eq_folded :
    cc0_body (F := F) xM (Memref.isWhole_whole _) oM (Memref.isWhole_whole _) cc0_scratch0 cc0_scratch1 cc0_scratch2 cc0_scratch3 cc0_scratch4
      = folded (F := F) := by
  rfl

end Cert.KernelIdeal.AG

end
-- ==== Proof.AGContents.lean ====
/-
  What the buffers hold. Device `c` = (x, y) stages its block `xstg c` of the argument (2048 rows); the
  all-gather must leave in its result buffer (4096 rows) block 0 then block 1 of the whole argument. Written
  through the devices' own blocks: the rows of the device's own y come from its own block; of the other y,
  the half of its own x comes from `yn c` (phase 1) and the other half from `yn (xn c)` through `xn c`
  (phase 2).
-/
import proofs.«900097_g7700000000000098_dist_ag_v7x_xy2x2_y_m2048_n512_f32_1_alg».proof.Proof.AGFold
import Idealize.ShloMosaic.Lib.ValueIdx

noncomputable section

namespace Cert.KernelIdeal.AG

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The staged block of the argument on device `c`: its argument array, read through the (whole) block. -/
def xstg (c : Dev nD) : (cc0_stg0_0 : Ref sig .tc).ty.Contents (Elt F) :=
  (win0_0.blk (0 : Fin 1)).view.read (Elt F) (m ((c : Thread nD τ).loc main_arg0))

/-- The gathered result on device `c`, row by row. -/
def outFinal (c : Dev nD) : (cc0_stg1_0 : Ref sig .tc).ty.Contents (Elt F) := fun (i : S4096x512.Idx) =>
  let r : ℕ := (i 0).val
  let row : Fin 2048 := ⟨r % 2048, Nat.mod_lt _ (by decide)⟩
  if r / 2048 = c.val % 2 then xstg m c (ValueIdx.ix2 row (i 1))
  else if (r % 2048) / 1024 = c.val / 2 then xstg m (yn c) (ValueIdx.ix2 row (i 1))
  else xstg m (yn (xn c)) (ValueIdx.ix2 row (i 1))

end Cert.KernelIdeal.AG

end
-- ==== Proof.AGSched.lean ====
/-
  The protocol of the all-gather under the rounds discipline.

  Cells of device `c`: its barrier cell (two duties of one unit: `false` paid by `yn c`, `true` by `xn c`),
  and one-duty cells, all of round 0: per chunk `k` the phase-1 send cell (paid by `c`'s own transfer `k`,
  handing back the chunk's share of `x`), the phase-1 receive cell (paid by `yn c`'s transfer `k`: the chunk
  landed, holding the gathered array's rows there), the phase-2 send and receive cells likewise with `xn c`,
  and the local copy's cell. The entry signals carry the landing places: `c`'s signal to `yn c` hands over
  the 32 places on `c` where `yn c`'s chunks land, its signal to `xn c` the 32 places where `xn c`'s
  forwarded chunks land. A wait is allowed below what the waiter still owes: barrier cells at level 1,
  phase-1 receive cells at 2, phase-2 receive cells at 3.
-/
import proofs.«900097_g7700000000000098_dist_ag_v7x_xy2x2_y_m2048_n512_f32_1_alg».proof.Proof.AGContents
import proofs.«900097_g7700000000000098_dist_ag_v7x_xy2x2_y_m2048_n512_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barCell (c : Dev nD) : GSem nD τ sig := ((c : Thread nD τ), .reg barS)
abbrev locCell (c : Dev nD) : GSem nD τ sig := ((c : Thread nD τ), .dma cc0_scratch4.sem)
abbrev p1s (c : Dev nD) (k : Fin 32) : GSem nD τ sig := ((c : Thread nD τ), .dma (semAt cc0_scratch0 k))
abbrev p1r (c : Dev nD) (k : Fin 32) : GSem nD τ sig := ((c : Thread nD τ), .dma (semAt cc0_scratch1 k))
abbrev p2s (c : Dev nD) (k : Fin 32) : GSem nD τ sig := ((c : Thread nD τ), .dma (semAt cc0_scratch2 k))
abbrev p2r (c : Dev nD) (k : Fin 32) : GSem nD τ sig := ((c : Thread nD τ), .dma (semAt cc0_scratch3 k))

/-- The protocol's cells of one device, indexed: the barrier, the local copy, and (array, chunk). -/
abbrev CK : Type := Fin 2 ⊕ (Fin 4 × Fin 32)
def csem : CK → SemLoc sig
  | .inl 0 => .reg barS
  | .inl 1 => .dma cc0_scratch4.sem
  | .inr (0, k) => .dma (semAt cc0_scratch0 k)
  | .inr (1, k) => .dma (semAt cc0_scratch1 k)
  | .inr (2, k) => .dma (semAt cc0_scratch2 k)
  | .inr (3, k) => .dma (semAt cc0_scratch3 k)
abbrev kcell (ck : Dev nD × CK) : GSem nD τ sig := ((ck.1 : Thread nD τ), csem ck.2)

/-- The semaphores' places in the pool of 131 DMA semaphores. -/
theorem semAt0_val (k : Fin 32) : (semAt cc0_scratch0 k).val = 2 + k.val := by
  revert k; decide
theorem semAt1_val (k : Fin 32) : (semAt cc0_scratch1 k).val = 34 + k.val := by
  revert k; decide
theorem semAt2_val (k : Fin 32) : (semAt cc0_scratch2 k).val = 66 + k.val := by
  revert k; decide
theorem semAt3_val (k : Fin 32) : (semAt cc0_scratch3 k).val = 98 + k.val := by
  revert k; decide
theorem locS_val : (cc0_scratch4.sem : DmaSem sig).val = 130 := by
  decide

/-- A semaphore's number: 0 for a regular one, one more than its place in the pool for a DMA one. -/
private def semNum : SemLoc sig → ℕ
  | .reg _ => 0
  | .dma q => q.val + 1
/-- The number of an indexed cell's semaphore: 0 and 131 for the barrier and the local copy,
    3 + 32 i + k for chunk k of array i. -/
private def ckNum : CK → ℕ
  | .inl a => 131 * a.val
  | .inr (i, k) => 3 + 32 * i.val + k.val

private theorem semNum_csem (ck : CK) : semNum (csem ck) = ckNum ck := by
  rcases ck with a | ⟨i, k⟩
  · fin_cases a
    · rfl
    · show (cc0_scratch4.sem : DmaSem sig).val + 1 = 131 * 1
      rw [locS_val]
  · fin_cases i
    · show (semAt cc0_scratch0 k).val + 1 = 3 + 32 * 0 + k.val
      rw [semAt0_val]; omega
    · show (semAt cc0_scratch1 k).val + 1 = 3 + 32 * 1 + k.val
      rw [semAt1_val]; omega
    · show (semAt cc0_scratch2 k).val + 1 = 3 + 32 * 2 + k.val
      rw [semAt2_val]; omega
    · show (semAt cc0_scratch3 k).val + 1 = 3 + 32 * 3 + k.val
      rw [semAt3_val]; omega

/-- The numbers tell the indexed cells apart: 3 + 32 i + k is at most 130 for i below 4 and k below 32. -/
theorem csem_injective : Function.Injective csem := by
  intro a b h
  have h' : ckNum a = ckNum b := by rw [← semNum_csem, ← semNum_csem, h]
  rcases a with a | ⟨i, k⟩ <;> rcases b with b | ⟨j, l⟩ <;> dsimp only [ckNum] at h'
  · exact congrArg Sum.inl (Fin.ext (by omega))
  · exfalso; have := j.isLt; have := l.isLt
    rcases (by omega : a.val = 0 ∨ a.val = 1) with h0 | h0 <;> rw [h0] at h' <;> omega
  · exfalso; have := i.isLt; have := k.isLt
    rcases (by omega : b.val = 0 ∨ b.val = 1) with h0 | h0 <;> rw [h0] at h' <;> omega
  · have hi : i = j := Fin.ext (by have := k.isLt; have := l.isLt; omega)
    have hk : k = l := Fin.ext (by have := k.isLt; have := l.isLt; omega)
    rw [hi, hk]
/-- A cell names its device and, on it, its semaphore. -/
theorem kcell_injective : Function.Injective (kcell : Dev nD × CK → GSem nD τ sig) := by
  rintro ⟨c, a⟩ ⟨c', b⟩ h
  have h1 : c = c' := congrArg (fun g : GSem nD τ sig => g.1.1) h
  have h2 : csem a = csem b := congrArg (fun g : GSem nD τ sig => g.2) h
  rw [h1, csem_injective h2]

/-! ## Amounts and shares -/

/-- A chunk's credit (32 × 512 words) and the block's (2048 × 512). -/
abbrev N : ℕ := (xR 0).view.dmaCredit
abbrev NL : ℕ := xM.view.dmaCredit
theorem N_pos : 0 < N := View.dmaCredit_pos _ (by decide)
theorem NL_pos : 0 < NL := View.dmaCredit_pos _ (by decide)

/-- `x` is read by the chunk transfers at one half share and by the local copy at the other. -/
abbrev qL : PosShare TreeShare := fullShare.left
abbrev qR : PosShare TreeShare := fullShare.right

/-! ## Payloads -/

/-- Phase-1 send cell `k`: the chunk's share of `x` back. -/
def sendPay1 (c : Dev nD) (k : Fin 32) : sProp 𝕄 :=
  (xS c k).view.loc (c : Thread nD τ) ↦[(xS c k).view.set]{qL} xstg m c
/-- Phase-1 receive cell `k` (and, after forwarding, phase-2 send cell `k`): the chunk from `yn c` in place. -/
def recvPay1 (c : Dev nD) (k : Fin 32) : sProp 𝕄 :=
  (oS4 c k).view.loc (c : Thread nD τ) ↦[(oS4 c k).view.set]{fullShare} outFinal m c
/-- Phase-2 receive cell `k`: the chunk forwarded by `xn c` in place. -/
def recvPay2 (c : Dev nD) (k : Fin 32) : sProp 𝕄 :=
  (oS5 c k).view.loc (c : Thread nD τ) ↦[(oS5 c k).view.set]{fullShare} outFinal m c
/-- The local copy's cell: the device's own block in place, and the copy's share of `x` back. -/
def locPay (c : Dev nD) : sProp 𝕄 :=
  iprop(((oL c).view.loc (c : Thread nD τ) ↦[(oL c).view.set]{fullShare} outFinal m c)
    ∗ (xM.view.loc (c : Thread nD τ) ↦[xM.view.set]{qR} xstg m c))
/-- What `yn c`'s entry signal hands `c`: the 32 places on `yn c` where `c`'s chunks land. -/
def barPayY (c : Dev nD) : sProp 𝕄 :=
  bigSep Finset.univ fun k : Fin 32 => iprop(∃ f, (oS1 c k).view.loc (yn c : Thread nD τ) ↦[(oS1 c k).view.set]{fullShare} f)
/-- What `xn c`'s entry signal hands `c`: the 32 places on `xn c` where the chunks `c` forwards land. -/
def barPayX (c : Dev nD) : sProp 𝕄 :=
  bigSep Finset.univ fun k : Fin 32 => iprop(∃ f, (oS4 c k).view.loc (xn c : Thread nD τ) ↦[(oS4 c k).view.set]{fullShare} f)

/-- The chunk a pool index belongs to. -/
def idxOf (q : DmaSem sig) : Fin 32 := ⟨(q.val - 2) % 32, Nat.mod_lt _ (by decide)⟩

/-- The payload of the one duty of a DMA cell, by the semaphore's place in the pool. -/
def dmaPay (c : Dev nD) (q : DmaSem sig) : sProp 𝕄 :=
  if q.val < 2 then iprop(emp)
  else if q.val < 34 then sendPay1 m c (idxOf q)
  else if q.val < 66 then recvPay1 m c (idxOf q)
  else if q.val < 98 then recvPay1 m c (idxOf q)
  else if q.val < 130 then recvPay2 m c (idxOf q)
  else locPay m c

/-! ## The schedule -/

/-- One round, round 0. -/
def sched : Rounds.Schedule (GSem nD τ sig) Bool 𝕄 where
  duties g r :=
    if r = 0 ∧ g.1.2 = .tc then
      (match g.2 with
        | .reg s => if s = barS then Finset.univ else ∅
        | .dma q => if 2 ≤ q.val then {false} else ∅)
    else ∅
  unitless _ := False
  amount g _ _ := match g.2 with
    | .reg _ => 1
    | .dma q => if q.val = 130 then NL else N
  payload g _ d := match g.2 with
    | .reg _ => if d then barPayX (F := F) g.1.1 else barPayY (F := F) g.1.1
    | .dma q => dmaPay m g.1.1 q
  amount_pos g _ _ _ := by
    rcases g with ⟨t, sm⟩
    cases sm with
    | reg s => exact Nat.one_pos
    | dma q => show 0 < (if q.val = 130 then NL else N); split
               · exact NL_pos
               · exact N_pos

instance sched_payload_storable (g : GSem nD τ sig) (r : ℕ) (d : Bool) :
    BI.Storable (upEmb : UEmb _ 𝕄) ((sched (F := F) m).payload g r d) := by
  rcases g with ⟨⟨c, κ⟩, sm⟩
  cases sm with
  | reg s =>
    show BI.Storable upEmb (if d then barPayX (F := F) c else barPayY (F := F) c)
    unfold barPayX barPayY
    split <;> infer_instance
  | dma q =>
    show BI.Storable upEmb (dmaPay m c q)
    unfold dmaPay sendPay1 recvPay1 recvPay2 locPay
    (repeat' split) <;> infer_instance

/-- A round of one duty expects that duty's amount, and its rest is that duty's payload: over any schedule. -/
theorem expect_single {G D M : Type} [DecidableEq D] [URA M] (Rd : Rounds.Schedule G D M) (g : G) (r : ℕ) (d : D) (n : ℕ)
    (hd : Rd.duties g r = {d}) (ha : Rd.amount g r d = n) : Rd.expect g r = n := by
  unfold Schedule.expect Schedule.amountOf; rw [hd, Finset.sum_singleton, ha]
theorem rest_single {G D M : Type} [DecidableEq D] [URA M] (Rd : Rounds.Schedule G D M) (g : G) (r : ℕ) (d : D) (P : sProp M)
    (hd : Rd.duties g r = {d}) (hp : Rd.payload g r d = P) : bigSep (Rd.duties g r \ ∅) (fun d => Rd.payload g r d) = P := by
  rw [Finset.sdiff_empty, hd, bigSep_singleton, hp]

/-- Past every chunk's semaphore the pool index is the local copy's. -/
theorem dmaPay_loc (c : Dev nD) (q : DmaSem sig) (h1 : 130 ≤ q.val) : dmaPay m c q = locPay m c := by
  unfold dmaPay; rw [if_neg (by omega), if_neg (by omega), if_neg (by omega), if_neg (by omega), if_neg (by omega)]

section Tables
variable (c : Dev nD) (k : Fin 32)

/-- The chunk of a pool index in one of the four arrays. -/
theorem idxOf_semAt0 : idxOf (semAt cc0_scratch0 k) = k :=
  Fin.ext (by show ((semAt cc0_scratch0 k).val - 2) % 32 = k.val; have := semAt0_val k; have := k.isLt; omega)
theorem idxOf_semAt1 : idxOf (semAt cc0_scratch1 k) = k :=
  Fin.ext (by show ((semAt cc0_scratch1 k).val - 2) % 32 = k.val; have := semAt1_val k; have := k.isLt; omega)
theorem idxOf_semAt2 : idxOf (semAt cc0_scratch2 k) = k :=
  Fin.ext (by show ((semAt cc0_scratch2 k).val - 2) % 32 = k.val; have := semAt2_val k; have := k.isLt; omega)
theorem idxOf_semAt3 : idxOf (semAt cc0_scratch3 k) = k :=
  Fin.ext (by show ((semAt cc0_scratch3 k).val - 2) % 32 = k.val; have := semAt3_val k; have := k.isLt; omega)

theorem duties_bar : (sched (F := F) m).duties (barCell c) 0 = Finset.univ := by
  dsimp only [sched]; rw [if_pos ⟨rfl, rfl⟩]; exact if_pos rfl
theorem duties_p1s : (sched (F := F) m).duties (p1s c k) 0 = {false} := by
  dsimp only [sched]; rw [if_pos ⟨rfl, rfl⟩]; exact if_pos (by have := semAt0_val k; omega)
theorem duties_p1r : (sched (F := F) m).duties (p1r c k) 0 = {false} := by
  dsimp only [sched]; rw [if_pos ⟨rfl, rfl⟩]; exact if_pos (by have := semAt1_val k; omega)
theorem duties_p2s : (sched (F := F) m).duties (p2s c k) 0 = {false} := by
  dsimp only [sched]; rw [if_pos ⟨rfl, rfl⟩]; exact if_pos (by have := semAt2_val k; omega)
theorem duties_p2r : (sched (F := F) m).duties (p2r c k) 0 = {false} := by
  dsimp only [sched]; rw [if_pos ⟨rfl, rfl⟩]; exact if_pos (by have := semAt3_val k; omega)
theorem duties_loc : (sched (F := F) m).duties (locCell c) 0 = {false} := by
  dsimp only [sched]; rw [if_pos ⟨rfl, rfl⟩]; exact if_pos (by have := locS_val; omega)
theorem duties_later (g : GSem nD τ sig) : ∀ r, 1 ≤ r → (sched (F := F) m).duties g r = ∅ :=
  fun r hr => by dsimp only [sched]; exact if_neg fun h => absurd h.1 (by omega)

theorem amount_bar (d : Bool) : (sched (F := F) m).amount (barCell c) 0 d = 1 := rfl
theorem amount_p1s (d : Bool) : (sched (F := F) m).amount (p1s c k) 0 d = N := by
  dsimp only [sched]; exact if_neg (by have := semAt0_val k; have := k.isLt; omega)
theorem amount_p1r (d : Bool) : (sched (F := F) m).amount (p1r c k) 0 d = N := by
  dsimp only [sched]; exact if_neg (by have := semAt1_val k; have := k.isLt; omega)
theorem amount_p2s (d : Bool) : (sched (F := F) m).amount (p2s c k) 0 d = N := by
  dsimp only [sched]; exact if_neg (by have := semAt2_val k; have := k.isLt; omega)
theorem amount_p2r (d : Bool) : (sched (F := F) m).amount (p2r c k) 0 d = N := by
  dsimp only [sched]; exact if_neg (by have := semAt3_val k; have := k.isLt; omega)
theorem amount_loc (d : Bool) : (sched (F := F) m).amount (locCell c) 0 d = NL := by
  dsimp only [sched]; exact if_pos locS_val

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_p1s : (sched (F := F) m).expect (p1s c k) 0 = N := by
  unfold Schedule.expect Schedule.amountOf; rw [duties_p1s, Finset.sum_singleton, amount_p1s]
theorem expect_p1r : (sched (F := F) m).expect (p1r c k) 0 = N := by
  unfold Schedule.expect Schedule.amountOf; rw [duties_p1r, Finset.sum_singleton, amount_p1r]
theorem expect_p2s : (sched (F := F) m).expect (p2s c k) 0 = N := by
  unfold Schedule.expect Schedule.amountOf; rw [duties_p2s, Finset.sum_singleton, amount_p2s]
theorem expect_p2r : (sched (F := F) m).expect (p2r c k) 0 = N := by
  unfold Schedule.expect Schedule.amountOf; rw [duties_p2r, Finset.sum_singleton, amount_p2r]
theorem expect_loc : (sched (F := F) m).expect (locCell c) 0 = NL :=
  expect_single (sched m) (locCell c) 0 false NL (duties_loc m c) (amount_loc m c false)

theorem payload_bar_true : (sched (F := F) m).payload (barCell c) 0 true = barPayX (F := F) c := by
  dsimp only [sched]; exact if_pos rfl
theorem payload_bar_false : (sched (F := F) m).payload (barCell c) 0 false = barPayY (F := F) c := by
  dsimp only [sched]; exact if_neg Bool.false_ne_true
theorem payload_p1s (d : Bool) : (sched (F := F) m).payload (p1s c k) 0 d = sendPay1 m c k := by
  show dmaPay m c (semAt cc0_scratch0 k) = _
  have hv := semAt0_val k; have hk := k.isLt
  unfold dmaPay
  rw [if_neg (by omega), if_pos (by omega), idxOf_semAt0]
theorem payload_p1r (d : Bool) : (sched (F := F) m).payload (p1r c k) 0 d = recvPay1 m c k := by
  show dmaPay m c (semAt cc0_scratch1 k) = _
  have hv := semAt1_val k; have hk := k.isLt
  unfold dmaPay
  rw [if_neg (by omega), if_neg (by omega), if_pos (by omega), idxOf_semAt1]
theorem payload_p2s (d : Bool) : (sched (F := F) m).payload (p2s c k) 0 d = recvPay1 m c k := by
  show dmaPay m c (semAt cc0_scratch2 k) = _
  have hv := semAt2_val k; have hk := k.isLt
  unfold dmaPay
  rw [if_neg (by omega), if_neg (by omega), if_neg (by omega), if_pos (by omega), idxOf_semAt2]
theorem payload_p2r (d : Bool) : (sched (F := F) m).payload (p2r c k) 0 d = recvPay2 m c k := by
  show dmaPay m c (semAt cc0_scratch3 k) = _
  have hv := semAt3_val k; have hk := k.isLt
  unfold dmaPay
  rw [if_neg (by omega), if_neg (by omega), if_neg (by omega), if_neg (by omega), if_pos (by omega), idxOf_semAt3]
theorem payload_loc (d : Bool) : (sched (F := F) m).payload (locCell c) 0 d = locPay m c := by
  show dmaPay m c cc0_scratch4.sem = locPay m c
  exact dmaPay_loc m c _ (Nat.le_of_eq locS_val.symm)

/-- The rest of a round no duty of which is taken yet: its payloads. -/
theorem rest_bar : bigSep ((sched (F := F) m).duties (barCell c) 0 \ ∅) (fun d => (sched (F := F) m).payload (barCell c) 0 d)
    = iprop(barPayY (F := F) c ∗ barPayX (F := F) c) := by
  rw [Finset.sdiff_empty, duties_bar, bigSep_univ_eq_bigSepL [false, true] (by decide) (by decide), bigSepL_cons_cons, bigSepL_singleton,
    payload_bar_false, payload_bar_true]
  rfl
theorem rest_p1s : bigSep ((sched (F := F) m).duties (p1s c k) 0 \ ∅) (fun d => (sched (F := F) m).payload (p1s c k) 0 d) = sendPay1 m c k := by
  rw [Finset.sdiff_empty, duties_p1s, bigSep_singleton, payload_p1s]
theorem rest_p1r : bigSep ((sched (F := F) m).duties (p1r c k) 0 \ ∅) (fun d => (sched (F := F) m).payload (p1r c k) 0 d) = recvPay1 m c k := by
  rw [Finset.sdiff_empty, duties_p1r, bigSep_singleton, payload_p1r]
theorem rest_p2s : bigSep ((sched (F := F) m).duties (p2s c k) 0 \ ∅) (fun d => (sched (F := F) m).payload (p2s c k) 0 d) = recvPay1 m c k := by
  rw [Finset.sdiff_empty, duties_p2s, bigSep_singleton, payload_p2s]
theorem rest_p2r : bigSep ((sched (F := F) m).duties (p2r c k) 0 \ ∅) (fun d => (sched (F := F) m).payload (p2r c k) 0 d) = recvPay2 m c k := by
  rw [Finset.sdiff_empty, duties_p2r, bigSep_singleton, payload_p2r]
theorem rest_loc : bigSep ((sched (F := F) m).duties (locCell c) 0 \ ∅) (fun d => (sched (F := F) m).payload (locCell c) 0 d) = locPay m c :=
  rest_single (sched m) (locCell c) 0 false (locPay m c) (duties_loc m c) (payload_loc m c false)

end Tables

/-! ## What each device owes at launch; the levels -/

/-- The phase-1 arrivals device `c` still owes `yn c` for the chunks of `l`; the phase-2 arrivals it owes `xn c`. -/
def owe1 (c : Dev nD) (l : List (Fin 32)) : CellTallies nD τ sig Unit := (l.map fun k => tallyAt (p1r (yn c) k) () N).sum
def owe2 (c : Dev nD) (l : List (Fin 32)) : CellTallies nD τ sig Unit := (l.map fun k => tallyAt (p2r (xn c) k) () N).sum
/-- At launch: every arrival and the two entry signals, the first signal (to `yn c`) the last summand. -/
def O₀ (c : Dev nD) : CellTallies nD τ sig Unit :=
  ((owe2 c chunks + owe1 c chunks) + tallyAt (barCell (xn c)) () 1) + tallyAt (barCell (yn c)) () 1

theorem owe1_cons (c : Dev nD) (j : Fin 32) (l : List (Fin 32)) : owe1 c (j :: l) = owe1 c l + tallyAt (p1r (yn c) j) () N := by
  unfold owe1; rw [List.map_cons, List.sum_cons, add_comm]
theorem owe2_cons (c : Dev nD) (j : Fin 32) (l : List (Fin 32)) : owe2 c (j :: l) = owe2 c l + tallyAt (p2r (xn c) j) () N := by
  unfold owe2; rw [List.map_cons, List.sum_cons, add_comm]
theorem owe1_nil (c : Dev nD) : owe1 c [] = 0 := rfl
theorem owe2_nil (c : Dev nD) : owe2 c [] = 0 := rfl

def L (g : GSem nD τ sig) : Finset Unit := if g.1.2 = .tc then {()} else ∅
/-- Barrier cells at 1, phase-1 receive cells at 2, phase-2 receive cells at 3, every other cell at 0. -/
def lv (g : GSem nD τ sig) (_ : Unit) : ℕ := match g.2 with
  | .reg _ => 1
  | .dma q => if 34 ≤ q.val ∧ q.val < 66 then 2 else if 98 ≤ q.val ∧ q.val < 130 then 3 else 0

theorem L_of_ne (g : GSem nD τ sig) (h : g.1.2 ≠ .tc) : L g = ∅ := if_neg h
theorem L_tc (c : Dev nD) (sm : SemLoc sig) : L ((c : Thread nD τ), sm) = {()} := if_pos rfl

/-- A one-cell tally is positive at that cell only. -/
theorem tallyAt_pos {g₀ g : GSem nD τ sig} {n : ℕ} {u : Unit} (h : 0 < tallyAt g₀ () n g u) : g = g₀ := by
  rw [tallyAt_apply] at h
  by_contra hn
  rw [if_neg (fun h' => hn h'.1)] at h
  exact Nat.lt_irrefl 0 h

/-- The phase-1 arrivals owed for a list of chunks are owed to phase-1 receive cells of the y-neighbour: by induction on
    the list, the head's tally being positive at its own cell only. -/
theorem owe1_pos {c : Dev nD} {l : List (Fin 32)} {g : GSem nD τ sig} {u : Unit} (h : 0 < owe1 c l g u) : ∃ k, g = p1r (yn c) k := by
  induction l with
  | nil => rw [owe1_nil] at h; exact absurd h (Nat.lt_irrefl 0)
  | cons j l ih =>
    rw [owe1_cons] at h
    rcases Pipeline.add_pos_cases h with h | h
    · exact ih h
    · exact ⟨j, tallyAt_pos h⟩
/-- Likewise the phase-2 arrivals, to phase-2 receive cells of the x-neighbour. -/
theorem owe2_pos {c : Dev nD} {l : List (Fin 32)} {g : GSem nD τ sig} {u : Unit} (h : 0 < owe2 c l g u) : ∃ k, g = p2r (xn c) k := by
  induction l with
  | nil => rw [owe2_nil] at h; exact absurd h (Nat.lt_irrefl 0)
  | cons j l ih =>
    rw [owe2_cons] at h
    rcases Pipeline.add_pos_cases h with h | h
    · exact ih h
    · exact ⟨j, tallyAt_pos h⟩

/-- The levels of the cells that are waited on or owed to. -/
theorem lv_p1r (c : Dev nD) (k : Fin 32) : lv (p1r c k) () = 2 := by
  have hv := semAt1_val k; have hk := k.isLt
  show (if 34 ≤ (semAt cc0_scratch1 k).val ∧ (semAt cc0_scratch1 k).val < 66 then 2
    else if 98 ≤ (semAt cc0_scratch1 k).val ∧ (semAt cc0_scratch1 k).val < 130 then 3 else 0) = 2
  rw [if_pos ⟨by omega, by omega⟩]
theorem lv_p2r (c : Dev nD) (k : Fin 32) : lv (p2r c k) () = 3 := by
  have hv := semAt3_val k; have hk := k.isLt
  show (if 34 ≤ (semAt cc0_scratch3 k).val ∧ (semAt cc0_scratch3 k).val < 66 then 2
    else if 98 ≤ (semAt cc0_scratch3 k).val ∧ (semAt cc0_scratch3 k).val < 130 then 3 else 0) = 3
  rw [if_neg (by omega), if_pos ⟨by omega, by omega⟩]
theorem lv_stage (c : Dev nD) (q : DmaSem sig) (hq : q.val < 2) : lv ((c : Thread nD τ), .dma q) () = 0 := by
  show (if 34 ≤ q.val ∧ q.val < 66 then 2 else if 98 ≤ q.val ∧ q.val < 130 then 3 else 0) = 0
  rw [if_neg (by omega), if_neg (by omega)]

theorem owe1_lv {c : Dev nD} {l : List (Fin 32)} {g : GSem nD τ sig} {u : Unit} (h : 0 < owe1 c l g u) : u ∈ L g ∧ lv g u = 2 := by
  obtain ⟨k, rfl⟩ := owe1_pos h
  exact ⟨by rw [L_tc]; exact Finset.mem_singleton_self _, lv_p1r (yn c) k⟩
theorem owe2_lv {c : Dev nD} {l : List (Fin 32)} {g : GSem nD τ sig} {u : Unit} (h : 0 < owe2 c l g u) : u ∈ L g ∧ lv g u = 3 := by
  obtain ⟨k, rfl⟩ := owe2_pos h
  exact ⟨by rw [L_tc]; exact Finset.mem_singleton_self _, lv_p2r (xn c) k⟩

/-- Everything owed at launch is owed to a cell with levels, at a level above 0: arrivals at 3 and 2, the two entry signals at 1. -/
theorem O₀_lv {c : Dev nD} {g : GSem nD τ sig} {u : Unit} (h : 0 < O₀ c g u) : u ∈ L g ∧ 0 < lv g u := by
  unfold O₀ at h
  rcases Pipeline.add_pos_cases h with h | h
  · rcases Pipeline.add_pos_cases h with h | h
    · rcases Pipeline.add_pos_cases h with h | h
      · exact ⟨(owe2_lv h).1, by rw [(owe2_lv h).2]; decide⟩
      · exact ⟨(owe1_lv h).1, by rw [(owe1_lv h).2]; decide⟩
    · rw [tallyAt_pos h]; exact ⟨by rw [L_tc]; exact Finset.mem_singleton_self _, Nat.one_pos⟩
  · rw [tallyAt_pos h]; exact ⟨by rw [L_tc]; exact Finset.mem_singleton_self _, Nat.one_pos⟩

/-- A wait on a staging semaphore (level 0) under what is owed at launch, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_lv hg).1)
      (fun p hp => by rw [Finset.mem_singleton.mp hp]; exact Nat.le_of_eq (lv_stage c q hq))
      (fun g u hg => (O₀_lv hg).2)
  · rw [MayWait_zero]; iintro -; iempintro
/-- The barrier wait: only arrivals are owed, all above level 1. -/
theorem mayWait_bar (c : Dev nD) :
    (levAts L lv : sProp 𝕄) ⊢ MayWait (c : Thread nD τ) (.reg barS) () (owe2 c chunks + owe1 c chunks) := by
  exact MayOwe.of_cut (L := L) (lev := lv) 1 (fun p hp => by rw [Finset.mem_singleton.mp hp, L_tc]; exact Finset.mem_singleton_self _)
    (fun g u hg => by rcases Pipeline.add_pos_cases hg with h | h; exacts [(owe2_lv h).1, (owe1_lv h).1])
    (fun p hp => by rw [Finset.mem_singleton.mp hp]; exact Nat.le_refl 1)
    (fun g u hg => by
      rcases Pipeline.add_pos_cases hg with h | h
      · rw [(owe2_lv h).2]; decide
      · rw [(owe1_lv h).2]; decide)
/-- A phase-1 receive wait: only phase-2 arrivals are owed, at level 3. -/
theorem mayWait_p1r (c : Dev nD) (k : Fin 32) (l : List (Fin 32)) :
    (levAts L lv : sProp 𝕄) ⊢ MayWait (c : Thread nD τ) (.dma (semAt cc0_scratch1 k)) () (owe2 c l) := by
  exact MayOwe.of_cut (L := L) (lev := lv) 2 (fun p hp => by rw [Finset.mem_singleton.mp hp, L_tc]; exact Finset.mem_singleton_self _)
    (fun g u hg => (owe2_lv hg).1)
    (fun p hp => by rw [Finset.mem_singleton.mp hp]; exact Nat.le_of_eq (lv_p1r c k))
    (fun g u hg => by rw [(owe2_lv hg).2]; decide)

/-! ## The invariants every device shares -/

/-- Every cell's invariant at its name, and that round 0 of every cell is reached. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records (F := F) m K) := by unfold records; infer_instance

theorem inv_at (K : Dev nD × CK → ℕ) (ck : Dev nD × CK) : records (F := F) m K ⊢ cellInv ER (sched m) (K ck) (kcell ck) := by
  unfold records; exact sep_elim_left.trans (bigSep_elim (Finset.mem_univ ck))
theorem reached_at (K : Dev nD × CK → ℕ) (ck : Dev nD × CK) : records (F := F) m K ⊢ reached ER (kcell ck) 0 := by
  unfold records; exact sep_elim_right.trans (bigSep_elim (Finset.mem_univ ck))

end Cert.KernelIdeal.AG

end
-- ==== Proof.AGData.lean ====
/-
  The pipeline's proof data for the all-gather's one region, and what one device's body starts from and ends
  with. A device starts holding: every cell's invariant; its positions at round 0 of its own 130 cells; the duty
  tokens of the duties IT pays (the two neighbours' barrier duties, its own send cells' and local copy's, the
  receive cells' of the chunks it sends); the credit of what the others owe it (two barrier units, the 64
  arrivals); the levels. It ends with its 129 own semaphores closed at zero; the staged `x` is unchanged and
  the staged result holds the gathered array.
-/
import proofs.«900097_g7700000000000098_dist_ag_v7x_xy2x2_y_m2048_n512_f32_1_alg».proof.Proof.AGSched
import proofs.«900097_g7700000000000098_dist_ag_v7x_xy2x2_y_m2048_n512_f32_1_alg».proof.Proof.Gen.KernelIdeal.Points
import proofs.«900097_g7700000000000098_dist_ag_v7x_xy2x2_y_m2048_n512_f32_1_alg».proof.Proof.Gen.KernelIdeal.Frame

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => (Variants.none : Variants)

variable (m : (ℓ : Loc nD τ sig) → Buf (Elt F) ℓ)

/-- The kernel's own (scoped) semaphores: the local copy's and the 4 × 32 of the chunks. -/
abbrev OK : Type := Unit ⊕ (Fin 4 × Fin 32)
def osem : OK → SemLoc sig
  | .inl _ => csem (.inl 1)
  | .inr bk => csem (.inr bk)

/-- The duty tokens device `c` pays with. -/
def payToks (c : Dev nD) : sProp 𝕄 :=
  iprop(dutyTok ER (barCell (yn c)) 0 false ∗ dutyTok ER (barCell (xn c)) 0 true ∗ dutyTok ER (locCell c) 0 false
    ∗ bigSep Finset.univ fun k : Fin 32 => iprop(dutyTok ER (p1s c k) 0 false ∗ dutyTok ER (p1r (yn c) k) 0 false
        ∗ dutyTok ER (p2s c k) 0 false ∗ dutyTok ER (p2r (xn c) k) 0 false))

/-- Its positions at round 0 of its own cells, and those tokens. -/
def linear (c : Dev nD) : sProp 𝕄 :=
  iprop((bigSep Finset.univ fun x : CK => atPos ER (kcell (c, x)) 0 ∅ 0) ∗ payToks c)

/-- The protocol's ghost state on device `c`, at the names `K`. -/
def ghost (K : Dev nD × CK → ℕ) (c : Dev nD) : sProp 𝕄 := iprop(records m K ∗ linear c)

/-- What the others owe `c` from launch, as credit: its barrier's two units, the 64 arrivals. -/
def creds (c : Dev nD) : sProp 𝕄 :=
  iprop(cred (tallyAt (barCell c) () 2)
    ∗ bigSep Finset.univ fun k : Fin 32 => iprop(cred (tallyAt (p1r c k) () N) ∗ cred (tallyAt (p2r c k) () N)))

/-- What device `c`'s body starts from. -/
def start (c : Dev nD) : sProp 𝕄 := iprop((∃ K, ghost m K c) ∗ creds (F := F) c ∗ levAts L lv)

def Φ₀ (c : Dev nD) : sProp 𝕄 := start m c
/-- After the point: the own semaphores at zero. -/
def Φ₁ (c : Dev nD) : sProp 𝕄 := Pipeline.ownSems0 osem c

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outFinal m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outFinal m c))

end Cert.KernelIdeal.AG

end
-- ==== Proof.AGValue.lean ====
/-
  The values the copies land. Every copy of the kernel moves rows of one staged block to the rows of the
  result that the gathered array assigns them: read at an index, the destination rewritten by the copy
  agrees with the gathered array `outFinal` on the copy's rows. Also here: which rows each view covers
  (the views of one chunk named from its two ends are one set of rows), that the views the result buffer is
  cut into are pairwise disjoint and cover it, and that the gathered array is the whole argument when every
  device's block is its block of it.
-/
import proofs.«900097_g7700000000000098_dist_ag_v7x_xy2x2_y_m2048_n512_f32_1_alg».proof.Proof.AGContents
import Idealize.ShloMosaic.Lib.Pipeline.Value
import Idealize.ShloMosaic.Lib.Layout

noncomputable section

namespace Cert.KernelIdeal.AG

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-! ## The rows of the views -/

/-- The row offset `c` sends chunk `k` to is the one `yn c` waits for it at. -/
theorem off1_eq_off4 (c : Dev nD) (k : Fin 32) :
    k0_off1 c (BitVec.ofNat 32 (32 * k.val)) = k0_off4 (yn c) (BitVec.ofNat 32 (32 * k.val)) := by
  rw [k0_off1_eq, k0_off4_eq]
  have hk := k.isLt
  fin_cases c <;> simp [yn] <;> omega

/-- The row offset `c` forwards chunk `k` to is the one `xn c` waits for it at. -/
theorem off4_eq_off5 (c : Dev nD) (k : Fin 32) :
    k0_off4 c (BitVec.ofNat 32 (32 * k.val)) = k0_off5 (xn c) (BitVec.ofNat 32 (32 * k.val)) := by
  rw [k0_off4_eq, k0_off5_eq]
  have hk := k.isLt
  fin_cases c <;> simp [xn] <;> omega
/-- The rows of a slice of the result buffer are its rectangle. -/
theorem oS1_rect (c : Dev nD) (k : Fin 32) : (oS1 c k).view.set
    = (Rect.unit (s := S4096x512) (k0_off1 c (BitVec.ofNat 32 (32 * k.val))) S32x512.size (k0_off1_inb c k)).set :=
  View.set_slice_whole cc0_stg1_0 _
theorem oS4_rect (c : Dev nD) (k : Fin 32) : (oS4 c k).view.set
    = (Rect.unit (s := S4096x512) (k0_off4 c (BitVec.ofNat 32 (32 * k.val))) S32x512.size (k0_off4_inb c k)).set :=
  View.set_slice_whole cc0_stg1_0 _
theorem oS5_rect (c : Dev nD) (k : Fin 32) : (oS5 c k).view.set
    = (Rect.unit (s := S4096x512) (k0_off5 c (BitVec.ofNat 32 (32 * k.val))) S32x512.size (k0_off5_inb c k)).set :=
  View.set_slice_whole cc0_stg1_0 _
theorem oL_rect (c : Dev nD) : (oL c).view.set
    = (Rect.unit (s := S4096x512) (k0_off3 c) S2048x512.size (k0_off3_inb c)).set :=
  View.set_slice_whole cc0_stg1_0 _
theorem xS_rect (c : Dev nD) (k : Fin 32) : (xS c k).view.set
    = (Rect.unit (s := S2048x512) (k0_off2 c (BitVec.ofNat 32 (32 * k.val))) S32x512.size (k0_off2_inb c k)).set :=
  View.set_slice_whole cc0_stg0_0 _

/-- Chunk `k` sent by `c` lands on the rows `yn c` waits for it at. -/
theorem oS1_set (c : Dev nD) (k : Fin 32) : (oS1 c k).view.set = (oS4 (yn c) k).view.set := by
  rw [oS1_rect, oS4_rect, Rect.unit_congr (off1_eq_off4 c k) (k0_off1_inb c k) (k0_off4_inb (yn c) k)]
/-- Chunk `k` forwarded by `c` lands on the rows `xn c` waits for it at. -/
theorem oS4_set (c : Dev nD) (k : Fin 32) : (oS4 c k).view.set = (oS5 (xn c) k).view.set := by
  rw [oS4_rect, oS5_rect, Rect.unit_congr (off4_eq_off5 c k) (k0_off4_inb c k) (k0_off5_inb (xn c) k)]

/-! ## Membership in a band of rows -/

/-- A full-width band of `n` rows from row `lo`: membership is the row's range. -/
theorem mem_rows {N n lo : Nat} {off : Fin 2 → Nat} (h0 : off = ![lo, 0])
    (inb : ∀ a, off a + (⟨2, ![n, 512]⟩ : Shape).size a ≤ (⟨2, ![N, 512]⟩ : Shape).size a)
    (i : (⟨2, ![N, 512]⟩ : Shape).Idx) :
    i ∈ (Rect.unit (s := ⟨2, ![N, 512]⟩) off (⟨2, ![n, 512]⟩ : Shape).size inb).set
      ↔ lo ≤ (i 0).val ∧ (i 0).val < lo + n := by
  subst h0
  have h1 : (i 1).val < 512 := (i 1).isLt
  rw [Rect.mem_set_unit, Fin.forall_fin_two]
  constructor
  · rintro ⟨⟨a, b⟩, -⟩; exact ⟨a, b⟩
  · rintro ⟨a, b⟩; exact ⟨⟨a, b⟩, Nat.zero_le _, by show (i 1).val < 0 + 512; omega⟩

theorem mem_oL (c : Dev nD) (i : S4096x512.Idx) :
    i ∈ (oL c).view.set ↔ 2048 * (c.val % 2) ≤ (i 0).val ∧ (i 0).val < 2048 * (c.val % 2) + 2048 := by
  rw [oL_rect]; exact mem_rows (k0_off3_eq c) _ i
theorem mem_oS4 (c : Dev nD) (k : Fin 32) (i : S4096x512.Idx) :
    i ∈ (oS4 c k).view.set ↔ (1024 * (c.val / 2) + 32 * k.val + 2048) - 2048 * (c.val % 2) ≤ (i 0).val
      ∧ (i 0).val < (1024 * (c.val / 2) + 32 * k.val + 2048) - 2048 * (c.val % 2) + 32 := by
  rw [oS4_rect]; exact mem_rows (k0_off4_eq c k) _ i
theorem mem_oS5 (c : Dev nD) (k : Fin 32) (i : S4096x512.Idx) :
    i ∈ (oS5 c k).view.set ↔ (32 * k.val + 3072) - (2048 * (c.val % 2) + 1024 * (c.val / 2)) ≤ (i 0).val
      ∧ (i 0).val < (32 * k.val + 3072) - (2048 * (c.val % 2) + 1024 * (c.val / 2)) + 32 := by
  rw [oS5_rect]; exact mem_rows (k0_off5_eq c k) _ i
theorem mem_xS (c : Dev nD) (k : Fin 32) (i : S2048x512.Idx) :
    i ∈ (xS c k).view.set ↔ 1024 * (c.val / 2) + 32 * k.val ≤ (i 0).val
      ∧ (i 0).val < 1024 * (c.val / 2) + 32 * k.val + 32 := by
  rw [xS_rect]; exact mem_rows (k0_off2_eq c k) _ i

/-- The pieces the result buffer of device `c` is cut into: its own block's place, the 32 chunks from
    `yn c`, the 32 chunks from `xn c`. -/
def piece (c : Dev nD) : Unit ⊕ (Bool × Fin 32) → Finset (oM.view.ty.Idx)
  | .inl _ => (oL c).view.set
  | .inr (false, k) => (oS4 c k).view.set
  | .inr (true, k) => (oS5 c k).view.set

theorem piece_disjoint (c : Dev nD) (t t' : Unit ⊕ (Bool × Fin 32)) (h : t ≠ t') : Disjoint (piece c t) (piece c t') := by
  rw [Finset.disjoint_left]
  intro i h1 h2
  have hc : c.val < 4 := c.isLt
  have hx : c.val / 2 = 0 ∨ c.val / 2 = 1 := by omega
  have hy : c.val % 2 = 0 ∨ c.val % 2 = 1 := by omega
  rcases t with u | ⟨b, k⟩ <;> rcases t' with u' | ⟨b', k'⟩
  · exact h rfl
  · have a1 := (mem_oL c i).mp h1
    have hk' := k'.isLt
    cases b'
    · have a2 := (mem_oS4 c k' i).mp h2
      rcases hx with hx | hx <;> rcases hy with hy | hy <;> simp only [hx, hy] at a1 a2 <;> omega
    · have a2 := (mem_oS5 c k' i).mp h2
      rcases hx with hx | hx <;> rcases hy with hy | hy <;> simp only [hx, hy] at a1 a2 <;> omega
  · have a2 := (mem_oL c i).mp h2
    have hk := k.isLt
    cases b
    · have a1 := (mem_oS4 c k i).mp h1
      rcases hx with hx | hx <;> rcases hy with hy | hy <;> simp only [hx, hy] at a1 a2 <;> omega
    · have a1 := (mem_oS5 c k i).mp h1
      rcases hx with hx | hx <;> rcases hy with hy | hy <;> simp only [hx, hy] at a1 a2 <;> omega
  · have hk := k.isLt
    have hk' := k'.isLt
    cases b <;> cases b'
    · have a1 := (mem_oS4 c k i).mp h1
      have a2 := (mem_oS4 c k' i).mp h2
      have : k.val ≠ k'.val := fun e => h (by rw [Fin.ext e])
      omega
    · have a1 := (mem_oS4 c k i).mp h1
      have a2 := (mem_oS5 c k' i).mp h2
      rcases hx with hx | hx <;> rcases hy with hy | hy <;> simp only [hx, hy] at a1 a2 <;> omega
    · have a1 := (mem_oS5 c k i).mp h1
      have a2 := (mem_oS4 c k' i).mp h2
      rcases hx with hx | hx <;> rcases hy with hy | hy <;> simp only [hx, hy] at a1 a2 <;> omega
    · have a1 := (mem_oS5 c k i).mp h1
      have a2 := (mem_oS5 c k' i).mp h2
      have : k.val ≠ k'.val := fun e => h (by rw [Fin.ext e])
      omega

/-- Every row of the result buffer lies in one of the pieces. -/
theorem exists_piece (c : Dev nD) (i : S4096x512.Idx) : ∃ t, i ∈ piece c t := by
  have hi : (i 0).val < 4096 := (i 0).isLt
  have hc : c.val < 4 := c.isLt
  have hx : c.val / 2 = 0 ∨ c.val / 2 = 1 := by omega
  have hy : c.val % 2 = 0 ∨ c.val % 2 = 1 := by omega
  have hk : (i 0).val % 1024 / 32 < 32 := by omega
  by_cases h1 : (i 0).val / 2048 = c.val % 2
  · exact ⟨.inl (), (mem_oL c i).mpr (by omega)⟩
  · by_cases h2 : ((i 0).val % 2048) / 1024 = c.val / 2
    · refine ⟨.inr (false, ⟨(i 0).val % 1024 / 32, hk⟩), (mem_oS4 c ⟨(i 0).val % 1024 / 32, hk⟩ i).mpr ?_⟩
      show _ ≤ (i 0).val ∧ (i 0).val < _
      rcases hx with hx | hx <;> rcases hy with hy | hy <;> simp only [hx, hy] at h1 h2 ⊢ <;> omega
    · refine ⟨.inr (true, ⟨(i 0).val % 1024 / 32, hk⟩), (mem_oS5 c ⟨(i 0).val % 1024 / 32, hk⟩ i).mpr ?_⟩
      show _ ≤ (i 0).val ∧ (i 0).val < _
      rcases hx with hx | hx <;> rcases hy with hy | hy <;> simp only [hx, hy] at h1 h2 ⊢ <;> omega

theorem piece_cover (c : Dev nD) : Finset.univ.biUnion (piece c) = (Finset.univ : Finset (oM.view.ty.Idx)) := by
  rw [Finset.eq_univ_iff_forall]
  intro i
  obtain ⟨t, ht⟩ := exists_piece c i
  exact Finset.mem_biUnion.mpr ⟨t, Finset.mem_univ _, ht⟩

/-- The chunks of the half of `x` sent along y are disjoint row ranges. -/
theorem xS_disjoint (c : Dev nD) (k k' : Fin 32) (h : k ≠ k') : Disjoint (xS c k).view.set (xS c k').view.set := by
  rw [Finset.disjoint_left]
  intro i h1 h2
  have a1 := (mem_xS c k i).mp h1
  have a2 := (mem_xS c k' i).mp h2
  have : k.val ≠ k'.val := fun e => h (Fin.ext e)
  omega

/-! ## The neighbours' coordinates -/

theorem yn_coords (c : Dev nD) : (yn c).val % 2 = 1 - c.val % 2 ∧ (yn c).val / 2 = c.val / 2 := by revert c; decide
theorem xn_coords (c : Dev nD) : (xn c).val % 2 = c.val % 2 ∧ (xn c).val / 2 = 1 - c.val / 2 := by revert c; decide

/-! ## The gathered array at a row of each kind -/

/-- A row of the device's own y is its own block's. -/
theorem outFinal_own (c : Dev nD) (i : S4096x512.Idx) (j : S2048x512.Idx)
    (h0 : (i 0).val = 2048 * (c.val % 2) + (j 0).val) (h1 : i 1 = j 1) : outFinal m c i = xstg m c j := by
  have hj0 := ValueIdx.idx2_lt0 j
  have hj : ValueIdx.ix2 (⟨(i 0).val % 2048, Nat.mod_lt _ (by decide)⟩ : Fin 2048) (i 1) = j := by
    funext a
    match a with
    | ⟨0, _⟩ => exact Fin.ext (by show (i 0).val % 2048 = (j 0).val; omega)
    | ⟨1, _⟩ => exact h1
  simp only [outFinal]
  rw [if_pos (by omega)]
  exact congrArg (xstg m c) hj

/-- A row of the other y in the half of the device's own x is the block of `yn c`'s. -/
theorem outFinal_y (c : Dev nD) (i : S4096x512.Idx) (j : S2048x512.Idx)
    (h0 : (i 0).val = 2048 * (1 - c.val % 2) + (j 0).val) (hx : (j 0).val / 1024 = c.val / 2) (h1 : i 1 = j 1) :
    outFinal m c i = xstg m (yn c) j := by
  have hj0 := ValueIdx.idx2_lt0 j
  have hj : ValueIdx.ix2 (⟨(i 0).val % 2048, Nat.mod_lt _ (by decide)⟩ : Fin 2048) (i 1) = j := by
    funext a
    match a with
    | ⟨0, _⟩ => exact Fin.ext (by show (i 0).val % 2048 = (j 0).val; omega)
    | ⟨1, _⟩ => exact h1
  simp only [outFinal]
  rw [if_neg (by omega), if_pos (by omega)]
  exact congrArg (xstg m (yn c)) hj

/-- A row of the other y in the other half is the block of `yn (xn c)`'s. -/
theorem outFinal_xy (c : Dev nD) (i : S4096x512.Idx) (j : S2048x512.Idx)
    (h0 : (i 0).val = 2048 * (1 - c.val % 2) + (j 0).val) (hx : (j 0).val / 1024 ≠ c.val / 2) (h1 : i 1 = j 1) :
    outFinal m c i = xstg m (yn (xn c)) j := by
  have hj0 := ValueIdx.idx2_lt0 j
  have hj : ValueIdx.ix2 (⟨(i 0).val % 2048, Nat.mod_lt _ (by decide)⟩ : Fin 2048) (i 1) = j := by
    funext a
    match a with
    | ⟨0, _⟩ => exact Fin.ext (by show (i 0).val % 2048 = (j 0).val; omega)
    | ⟨1, _⟩ => exact h1
  simp only [outFinal]
  rw [if_neg (by omega), if_neg (by omega)]
  exact congrArg (xstg m (yn (xn c))) hj

/-! ## Where a slice's index sits -/

theorem oS1_emb0 (c : Dev nD) (k : Fin 32) (y : S32x512.Idx) :
    (((oS1 c k).view.emb y) 0).val = 2048 * (c.val % 2) + 1024 * (c.val / 2) + 32 * k.val + (y 0).val := by
  have h : (((oS1 c k).view.emb y) 0).val = k0_off1 c (BitVec.ofNat 32 (32 * k.val)) 0 + 1 * (y 0).val := rfl
  rw [h, k0_off1_eq]; simp
theorem oS1_emb1 (c : Dev nD) (k : Fin 32) (y : S32x512.Idx) : (((oS1 c k).view.emb y) 1).val = (y 1).val := by
  have h : (((oS1 c k).view.emb y) 1).val = k0_off1 c (BitVec.ofNat 32 (32 * k.val)) 1 + 1 * (y 1).val := rfl
  rw [h, k0_off1_eq]; simp
theorem oS4_emb0 (c : Dev nD) (k : Fin 32) (y : S32x512.Idx) :
    (((oS4 c k).view.emb y) 0).val = (1024 * (c.val / 2) + 32 * k.val + 2048) - 2048 * (c.val % 2) + (y 0).val := by
  have h : (((oS4 c k).view.emb y) 0).val = k0_off4 c (BitVec.ofNat 32 (32 * k.val)) 0 + 1 * (y 0).val := rfl
  rw [h, k0_off4_eq]; simp
theorem oS4_emb1 (c : Dev nD) (k : Fin 32) (y : S32x512.Idx) : (((oS4 c k).view.emb y) 1).val = (y 1).val := by
  have h : (((oS4 c k).view.emb y) 1).val = k0_off4 c (BitVec.ofNat 32 (32 * k.val)) 1 + 1 * (y 1).val := rfl
  rw [h, k0_off4_eq]; simp
theorem xS_emb0 (c : Dev nD) (k : Fin 32) (y : S32x512.Idx) :
    (((xS c k).view.emb y) 0).val = 1024 * (c.val / 2) + 32 * k.val + (y 0).val := by
  have h : (((xS c k).view.emb y) 0).val = k0_off2 c (BitVec.ofNat 32 (32 * k.val)) 0 + 1 * (y 0).val := rfl
  rw [h, k0_off2_eq]; simp
theorem xS_emb1 (c : Dev nD) (k : Fin 32) (y : S32x512.Idx) : (((xS c k).view.emb y) 1).val = (y 1).val := by
  have h : (((xS c k).view.emb y) 1).val = k0_off2 c (BitVec.ofNat 32 (32 * k.val)) 1 + 1 * (y 1).val := rfl
  rw [h, k0_off2_eq]; simp
theorem oL_emb0 (c : Dev nD) (y : S2048x512.Idx) : (((oL c).view.emb y) 0).val = 2048 * (c.val % 2) + (y 0).val := by
  have h : (((oL c).view.emb y) 0).val = k0_off3 c 0 + 1 * (y 0).val := rfl
  rw [h, k0_off3_eq]; simp
theorem oL_emb1 (c : Dev nD) (y : S2048x512.Idx) : (((oL c).view.emb y) 1).val = (y 1).val := by
  have h : (((oL c).view.emb y) 1).val = k0_off3 c 1 + 1 * (y 1).val := rfl
  rw [h, k0_off3_eq]; simp

/-! ## What each copy lands -/

/-- Phase 1: chunk `k` of `c`'s block, landed on `yn c`, is the gathered array's there. -/
theorem land1 (c : Dev nD) (k : Fin 32) (fd : Buf (Elt F) ((oS1 c k).view.loc (Dev.tc (yn c) : Thread nD τ))) :
    ∀ i ∈ (oS1 c k).view.set,
      (oS1 c k).view.write (Elt F) fd ((xS c k).view.read (Elt F) (xstg m c)) Finset.univ i = outFinal m (yn c) i := by
  intro i hi
  obtain ⟨y, rfl⟩ := View.exists_emb_of_mem_set (oS1 c k).view hi
  rw [View.write_emb_of_mem _ _ (Finset.mem_univ y), View.read_apply, cast_cast, cast_eq]
  have hy := ValueIdx.idx2_lt0 y
  have hk := k.isLt
  have e0 := oS1_emb0 c k y
  have e1 := oS1_emb1 c k y
  have x0 := xS_emb0 c k y
  have x1 := xS_emb1 c k y
  have hc := yn_coords c
  have hcl : c.val < 4 := c.isLt
  rw [outFinal_y m (yn c) _ ((xS c k).view.emb y) (by rw [e0, x0, hc.1]; omega) (by rw [x0, hc.2]; omega)
    (Fin.ext (by rw [e1, x1])), yn_yn]

/-- Phase 2: chunk `k` of the gathered array on `c`, forwarded to `xn c`, is the gathered array's there. -/
theorem land2 (c : Dev nD) (k : Fin 32) (fd : Buf (Elt F) ((oS4 c k).view.loc (Dev.tc (xn c) : Thread nD τ))) :
    ∀ i ∈ (oS4 c k).view.set,
      (oS4 c k).view.write (Elt F) fd ((oS4 c k).view.read (Elt F) (outFinal m c)) Finset.univ i = outFinal m (xn c) i := by
  intro i hi
  obtain ⟨y, rfl⟩ := View.exists_emb_of_mem_set (oS4 c k).view hi
  rw [View.write_emb_of_mem _ _ (Finset.mem_univ y), View.read_apply, cast_cast, cast_eq]
  have hy := ValueIdx.idx2_lt0 y
  have hk := k.isLt
  have e0 := oS4_emb0 c k y
  have hc := xn_coords c
  have hcl : c.val < 4 := c.isLt
  -- the row of the block of `yn c` this element is
  let j : S2048x512.Idx := ValueIdx.ix2 (⟨1024 * (c.val / 2) + 32 * k.val + (y 0).val, by omega⟩ : Fin 2048) ((oS4 c k).view.emb y 1)
  have hj0 : (j 0).val = 1024 * (c.val / 2) + 32 * k.val + (y 0).val := rfl
  have hj1 : (oS4 c k).view.emb y 1 = j 1 := rfl
  rw [outFinal_y m c _ j (by rw [e0, hj0]; omega) (by rw [hj0]; omega) hj1,
    outFinal_xy m (xn c) _ j (by rw [e0, hj0, hc.1]; omega) (by rw [hj0, hc.2]; omega) hj1, xn_xn]

/-- The local copy: the device's own block at its own place is the gathered array's. -/
theorem landL (c : Dev nD) (fd : Buf (Elt F) ((oL c).view.loc (Dev.tc c : Thread nD τ))) :
    ∀ i ∈ (oL c).view.set,
      (oL c).view.write (Elt F) fd (xM.view.read (Elt F) (xstg m c)) Finset.univ i = outFinal m c i := by
  intro i hi
  obtain ⟨y, rfl⟩ := View.exists_emb_of_mem_set (oL c).view hi
  rw [View.write_emb_of_mem _ _ (Finset.mem_univ y), View.read_apply, cast_cast, cast_eq]
  have e0 := oL_emb0 c y
  have e1 := oL_emb1 c y
  exact (outFinal_own m c _ y e0 (Fin.ext e1)).symm

/-! ## The gathered array is the whole argument -/

/-- The staged block is the device's argument array: the block read is the whole array's. -/
theorem xstg_eq (c : Dev nD) : xstg m c = m ((c : Thread nD τ).loc main_arg0) :=
  Memref.read_access_unit_zero (Elt F) main_arg0 (funext fun a => Nat.zero_mul _) _ _

/-- Along the rows the device's block of the whole array is block `c % 2`; along the columns there is one block. -/
theorem meshRow (c : Dev nD) : ((Layout.meshBlock [2, 2] ![[1], []] c) 0).val = c.val % 2 := by revert c; decide
theorem meshCol (c : Dev nD) : ((Layout.meshBlock [2, 2] ![[1], []] c) 1).val = 0 := by revert c; decide

/-- If every device's argument array is its block (along y) of one whole array `X`, the gathered array on
    every device is `X`. -/
theorem outFinal_whole (X : (⟨2, ![4096, 512]⟩ : Shape).Idx → Elt F .f32)
    (h : ∀ c : Dev nD, m ((c.tc : Thread nD τ).loc main_arg0)
      = Layout.blockN ⟨2, ![2048, 512]⟩ ⟨2, ![4096, 512]⟩ (Layout.meshBlock [2, 2] ![[1], []] c) X)
    (c : Dev nD) : outFinal m c = X := by
  funext i
  have hi : (i 0).val < 4096 := (i 0).isLt
  have hc : c.val < 4 := c.isLt
  -- a row of device `d`'s block is the row of the whole array 2048 (d % 2) further down
  have key : ∀ (d : Dev nD) (j : S2048x512.Idx), (i 0).val = 2048 * (d.val % 2) + (j 0).val → i 1 = j 1 →
      xstg m d j = X i := by
    intro d j h0 h1
    rw [xstg_eq, h d, Layout.blockN_apply]
    congr 1
    funext b
    match b with
    | ⟨0, _⟩ =>
      apply Fin.ext
      rw [Layout.TilesN.idx_val]
      show ((Layout.meshBlock [2, 2] ![[1], []] d) 0).val * 2048 + (j 0).val = (i 0).val
      rw [meshRow]; omega
    | ⟨1, _⟩ =>
      apply Fin.ext
      rw [Layout.TilesN.idx_val]
      show ((Layout.meshBlock [2, 2] ![[1], []] d) 1).val * 512 + (j 1).val = (i 1).val
      rw [meshCol, h1]; omega
  let j : S2048x512.Idx := ValueIdx.ix2 (⟨(i 0).val % 2048, Nat.mod_lt _ (by decide)⟩ : Fin 2048) (i 1)
  have hj0 : (j 0).val = (i 0).val % 2048 := rfl
  have hj1 : i 1 = j 1 := rfl
  by_cases h1 : (i 0).val / 2048 = c.val % 2
  · have e0 : (i 0).val = 2048 * (c.val % 2) + (j 0).val := by rw [hj0]; omega
    rw [outFinal_own m c i j e0 hj1]
    exact key c j e0 hj1
  · by_cases h2 : ((i 0).val % 2048) / 1024 = c.val / 2
    · rw [outFinal_y m c i j (by rw [hj0]; omega) (by rw [hj0]; exact h2) hj1]
      exact key (yn c) j (by rw [(yn_coords c).1, hj0]; omega) hj1
    · rw [outFinal_xy m c i j (by rw [hj0]; omega) (by rw [hj0]; exact h2) hj1]
      exact key (yn (xn c)) j (by rw [(yn_coords (xn c)).1, (xn_coords c).1, hj0]; omega) hj1

end Cert.KernelIdeal.AG

end
-- ==== Proof.AGGlue.lean ====
/-
  Cutting and rejoining what one device holds: its result buffer into the own block's place and the 64
  chunk places (which the entry signals hand to the neighbours), its staged `x` into two half shares and the
  left one into the 32 chunks sent along y; its positions cell by cell; and, at the end, its own cells closed.
-/
import proofs.«900097_g7700000000000098_dist_ag_v7x_xy2x2_y_m2048_n512_f32_1_alg».proof.Proof.AGData
import proofs.«900097_g7700000000000098_dist_ag_v7x_xy2x2_y_m2048_n512_f32_1_alg».proof.Proof.AGValue

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem chunks_univ : (Finset.univ : Finset (Fin 32)) = chunks.toFinset := by
  ext x; simp [chunks]
theorem chunks_nodup : chunks.Nodup := List.nodup_finRange 32
/-- Over all 32 chunks, the set's product is the list's chain. -/
theorem toL (Φ : Fin 32 → sProp 𝕄) : bigSep Finset.univ Φ = bigSepL chunks Φ :=
  bigSep_univ_eq_bigSepL chunks chunks_univ chunks_nodup Φ

/-! ## The result buffer -/

/-- The result buffer of `c` at contents `f` is its own block's place, the 32 places of `yn c`'s chunks and the
    32 places of the chunks `xn c` forwards, each at `f`. -/
theorem out_pieces (c : Dev nD) (f : Buf (Elt F) ((c : Thread nD τ).loc cc0_stg1_0)) :
    (((c : Thread nD τ).loc cc0_stg1_0) ↦{fullShare} f : sProp 𝕄)
      = iprop((((c : Thread nD τ).loc cc0_stg1_0) ↦[(oL c).view.set]{fullShare} f)
          ∗ (bigSep Finset.univ fun k : Fin 32 => (((c : Thread nD τ).loc cc0_stg1_0) ↦[(oS4 c k).view.set]{fullShare} f))
          ∗ (bigSep Finset.univ fun k : Fin 32 => (((c : Thread nD τ).loc cc0_stg1_0) ↦[(oS5 c k).view.set]{fullShare} f))) := by
  have h := pointsTo_biUnion (Val := Elt F) (ℓ := (c : Thread nD τ).loc cc0_stg1_0) (q := fullShare) (f := f)
    (Ix := Unit) (Name := ℕ) (U := UU) (Lvl := ℕ)
    (Finset.univ : Finset (Unit ⊕ (Bool × Fin 32))) (piece c) (fun t _ t' _ hne => piece_disjoint c t t' hne)
  rw [piece_cover c] at h
  rw [h, bigSep_univ_sum, bigSep_univ_of_subsingleton (i := ()), bigSep_univ_prod, bigSep_univ_eq_bigSepL [false, true] (by decide) (by decide)]
  simp only [bigSepL_cons_cons, bigSepL_singleton]
  rfl

/-! ## The staged block of x -/

/-- The 32 chunks sent along y, out of the left half share of `x`; the rest of that share stays. -/
theorem x_pieces (c : Dev nD) :
    ∃ Rst : Finset (Idx ((c : Thread nD τ).loc cc0_stg0_0)),
      (((c : Thread nD τ).loc cc0_stg0_0) ↦{qL} xstg m c : sProp 𝕄)
        = iprop((bigSep Finset.univ fun k : Fin 32 => sendPay1 m c k) ∗ (((c : Thread nD τ).loc cc0_stg0_0) ↦[Rst]{qL} xstg m c)) := by
  refine ⟨Finset.univ \ (Finset.univ : Finset (Fin 32)).biUnion (fun k => (xS c k).view.set), ?_⟩
  have h1 := pointsTo_split_subset (Val := Elt F) (ℓ := (c : Thread nD τ).loc cc0_stg0_0) (q := qL) (f := xstg m c)
    (Ix := Unit) (Name := ℕ) (U := UU) (Lvl := ℕ)
    (Finset.subset_univ ((Finset.univ : Finset (Fin 32)).biUnion (fun k => (xS c k).view.set)))
  rw [BI.equiv_iff.mp ⟨h1.1, h1.2⟩,
    pointsTo_biUnion (Val := Elt F) (ℓ := (c : Thread nD τ).loc cc0_stg0_0) (q := qL) (f := xstg m c) (Ix := Unit) (Name := ℕ) (U := UU) (Lvl := ℕ)
      (Finset.univ : Finset (Fin 32)) (fun k => (xS c k).view.set) (fun t _ t' _ hne => xS_disjoint c t t' hne)]
  rfl

/-! ## The landing places handed over at entry -/

/-- The places on `c` where the chunks of `d = yn c` land are what `c`'s entry signal hands `d`. -/
theorem barPayY_of (c d : Dev nD) (h : yn d = c) :
    (bigSep Finset.univ fun k : Fin 32 => iprop(∃ f, ((c : Thread nD τ).loc cc0_stg1_0) ↦[(oS4 c k).view.set]{fullShare} f) : sProp 𝕄)
      ⊢ barPayY (F := F) d := by
  subst h
  unfold barPayY
  refine Entails.of_eq (bigSep_congr fun k _ => ?_)
  rw [oS1_set d k]

/-- The places on `c` where the chunks forwarded by `d = xn c` land are what `c`'s entry signal hands `d`. -/
theorem barPayX_of (c d : Dev nD) (h : xn d = c) :
    (bigSep Finset.univ fun k : Fin 32 => iprop(∃ f, ((c : Thread nD τ).loc cc0_stg1_0) ↦[(oS5 c k).view.set]{fullShare} f) : sProp 𝕄)
      ⊢ barPayX (F := F) d := by
  subst h
  unfold barPayX
  refine Entails.of_eq (bigSep_congr fun k _ => ?_)
  rw [oS4_set d k]

/-! ## The cells one by one -/

/-- A product over the device's cells: the barrier's, the local copy's, and the four arrays' chunk by chunk. -/
theorem bigSep_cells (Φ : CK → sProp 𝕄) :
    bigSep Finset.univ Φ = iprop((Φ (.inl 0) ∗ Φ (.inl 1))
      ∗ (bigSep Finset.univ fun k : Fin 32 => Φ (.inr (0, k))) ∗ (bigSep Finset.univ fun k : Fin 32 => Φ (.inr (1, k)))
      ∗ (bigSep Finset.univ fun k : Fin 32 => Φ (.inr (2, k))) ∗ (bigSep Finset.univ fun k : Fin 32 => Φ (.inr (3, k)))) := by
  rw [bigSep_univ_sum, bigSep_univ_two, bigSep_univ_prod, bigSep_univ_eq_bigSepL [(0 : Fin 4), 1, 2, 3] (by decide) (by decide)]
  simp only [bigSepL_cons_cons, bigSepL_singleton]
  rfl

/-- The same over the device's own (scoped) cells. -/
theorem bigSep_OK (Φ : OK → sProp 𝕄) :
    bigSep Finset.univ Φ = iprop(Φ (.inl ())
      ∗ (bigSep Finset.univ fun k : Fin 32 => Φ (.inr (0, k))) ∗ (bigSep Finset.univ fun k : Fin 32 => Φ (.inr (1, k)))
      ∗ (bigSep Finset.univ fun k : Fin 32 => Φ (.inr (2, k))) ∗ (bigSep Finset.univ fun k : Fin 32 => Φ (.inr (3, k)))) := by
  rw [bigSep_univ_sum, bigSep_univ_of_subsingleton (i := ()), bigSep_univ_prod, bigSep_univ_eq_bigSepL [(0 : Fin 4), 1, 2, 3] (by decide) (by decide)]
  simp only [bigSepL_cons_cons, bigSepL_singleton]
  rfl

/-- Every own cell, its one round over, closes: its counter at zero is the device's again. -/
theorem close_own (K : Dev nD × CK → ℕ) (c : Dev nD) :
    iprop(records m K ∗ bigSep Finset.univ fun x : OK => atPos ER ((c : Thread nD τ), osem x) 1 ∅ 0)
      ⊢ (|={Set.univ}=> Pipeline.ownSems0 osem c : sProp 𝕄) := by
  unfold Pipeline.ownSems0
  refine (bigSep_with_persistent (R := records m K) (Ψ := fun x : OK => iprop(|={Set.univ}=> semVal ((c : Thread nD τ), osem x) 0)) fun x _ => ?_).trans (bigSep_fupd _ _)
  cases x with
  | inl u =>
    iintro ⟨#Hr, Hat⟩
    iapply (Rounds.cell_close ER (sched m) (Set.mem_univ (K (c, .inl 1))) (fun h => h) (R := 0 + 1) (duties_later m (kcell (c, .inl 1))))
    isplitr
    · iapply (inv_at m K (c, .inl 1)); iexact Hr
    · iexact Hat
  | inr bk =>
    iintro ⟨#Hr, Hat⟩
    iapply (Rounds.cell_close ER (sched m) (Set.mem_univ (K (c, .inr bk))) (fun h => h) (R := 0 + 1) (duties_later m (kcell (c, .inr bk))))
    isplitr
    · iapply (inv_at m K (c, .inr bk)); iexact Hr
    · iexact Hat

end Cert.KernelIdeal.AG

end
-- ==== Proof.AGSteps1.lean ====
/-
  The body's phases, stepped: the entry handshake, phase 1 and the local copy's enqueue. Each phase is a recursion over the chunks (AGFold), so each is proved by
  induction over the list of chunks left: one transfer or wait under its rule of the rounds discipline, then
  the phase on the rest. What a phase consumes and what it leaves is kept per chunk, in the list's order.
-/
import proofs.«900097_g7700000000000098_dist_ag_v7x_xy2x2_y_m2048_n512_f32_1_alg».proof.Proof.AGSched
import proofs.«900097_g7700000000000098_dist_ag_v7x_xy2x2_y_m2048_n512_f32_1_alg».proof.Proof.AGValue

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "𝒱₀" => (Variants.none : Variants)

/-- The entry handshake: the two signals hand over the landing places on `c` (those of `yn c`'s chunks to
    `yn c`, those of `xn c`'s forwarded chunks to `xn c`); the wait for 2 brings the landing places on the two
    neighbours. -/
theorem wp_barrier (K : Dev nD × CK → ℕ) (c : Dev nD) (W : Waits sig Unit) (k : P (F := F)) (Q : PUnit → sProp 𝕄) :
    iprop(records m K ∗ levAts L lv
        ∗ owes (c : Thread nD τ) (O₀ c) W
        ∗ dutyTok ER (barCell (yn c)) 0 false ∗ dutyTok ER (barCell (xn c)) 0 true
        ∗ barPayY (F := F) (yn c) ∗ barPayX (F := F) (xn c)
        ∗ cred (tallyAt (barCell c) () 2) ∗ atPos ER (barCell c) 0 ∅ 0
        ∗ ((barPayY (F := F) c ∗ barPayX (F := F) c ∗ atPos ER (barCell c) 1 ∅ 0
              ∗ owes (c : Thread nD τ) (owe2 c chunks + owe1 c chunks) (insert (SemLoc.reg barS, ()) W))
            -∗ wp frame (wpE (defs₀ (F := F)) 𝒱₀ (c : Thread nD τ) none) Set.univ k Q))
      ⊢ wp frame (wpE (defs₀ (F := F)) 𝒱₀ (c : Thread nD τ) none) Set.univ
          (do semSignalWord (⟨k0_dev1 c, k0_dev1_lt c⟩ : Dev nD) barS 1#32 hamt_1
              semSignalWord (⟨k0_dev2 c, k0_dev2_lt c⟩ : Dev nD) barS 1#32 hamt_1
              semWaitWord barS 2#32 hamt_2
              k) Q := by
  simp only [semSignalWord, semWaitWord, Prog.lift, Prog.bind_op, Prog.bind_ret, Prog.pure_eq_ret]
  simp only [devY1_eq c, devX2_eq c]
  iintro ⟨#Hrec, #Hlev, HO, HtY, HtX, HpY, HpX, Hc, Hat, Hk⟩
  unfold O₀
  -- the signal to `yn c`: its barrier cell's duty `false`, with the landing places on `c` of `yn c`'s chunks
  iapply (Rounds.wp_signal 𝒱₀ ER (sched m) (c : Thread nD τ) none (dst := (yn c : Thread nD τ)) (κ := K (yn c, .inl 0))
      (d := false) (by rw [duties_bar]; exact Finset.mem_univ _) ((amount_bar m (yn c) false).trans (by decide)) ()
      ((owe2 c chunks + owe1 c chunks) + tallyAt (barCell (xn c)) () 1) rfl) $$ [HO HtY HpY]
  · isplitr; · iapply (inv_at m K (yn c, .inl 0)); iexact Hrec
    isplitl [HO]; · iexact HO
    isplitl [HtY]; · iexact HtY
    isplitl [HpY]; · rw [payload_bar_false]; iexact HpY
    iapply (reached_at m K (yn c, .inl 0)); iexact Hrec
  iintro HO
  -- the signal to `xn c`: its barrier cell's duty `true`, with the landing places on `c` of the chunks `xn c` forwards
  iapply (Rounds.wp_signal 𝒱₀ ER (sched m) (c : Thread nD τ) none (dst := (xn c : Thread nD τ)) (κ := K (xn c, .inl 0))
      (d := true) (by rw [duties_bar]; exact Finset.mem_univ _) ((amount_bar m (xn c) true).trans (by decide)) ()
      (owe2 c chunks + owe1 c chunks) rfl) $$ [HO HtX HpX]
  · isplitr; · iapply (inv_at m K (xn c, .inl 0)); iexact Hrec
    isplitl [HO]; · iexact HO
    isplitl [HtX]; · iexact HtX
    isplitl [HpX]; · rw [payload_bar_true]; iexact HpX
    iapply (reached_at m K (xn c, .inl 0)); iexact Hrec
  iintro HO
  -- the wait for 2 on the own barrier cell, only arrivals owed: the landing places on the two neighbours come with it
  iapply (Rounds.wp_wait_rest_token 𝒱₀ ER (sched m) (c : Thread nD τ) none (κ := K (c, .inl 0))
      (wpE_semWait_eq 𝒱₀ (c : Thread nD τ) none Set.univ) (Set.mem_univ _) () (O := owe2 c chunks + owe1 c chunks) (W := W) (R := 0) (m := 0) (T := ∅)
      (by rw [expect_bar]; decide)) $$ [Hc HO Hat]
  · isplitr; · iapply (inv_at m K (c, .inl 0)); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  icases Hp with ⟨HpY, HpX⟩
  iapply Hk
  isplitl [HpY]; · iexact HpY
  isplitl [HpX]; · iexact HpX
  isplitl [Hat]; · iexact Hat
  iexact HO

/-- The head of a listed chain, split off. -/
theorem bigSepL_cons_sep1 {I : Type} (i : I) (l : List I) (Φ : I → sProp 𝕄) :
    bigSepL (i :: l) Φ = iprop(Φ i ∗ bigSepL l Φ) := bigSepL_cons i l Φ

/-- The addressed transfer of chunk `j` at the protocol's cells, the target device `n` equal to `yn c`
    (substituted): it pays the send cell of `c` with the chunk's share of `x`, and the receive cell of `yn c`
    with the chunk landed, which is the gathered array's rows there. -/
theorem wp_send1 (K : Dev nD × CK → ℕ) (c n : Dev nD) (hn : n = yn c) (j : Fin 32)
    {hsc : (oS1 c j : Memref sig (Dev.tc n : Thread nD τ).2.kind .vmem S32x512 .f32).view.ref.isScScratch = false}
    {hsrc : (xS c j).view.WordExact} {hdst : (oS1 c j).view.WordExact}
    {hsem : DmaTarget.Typed .vmem (.dma (semAt cc0_scratch1 j)) (.remote (Dev.tc n : Thread nD τ) (oS1 c j) (.dma (semAt cc0_scratch0 j)) hsc)}
    {α : Type} {Q : α → sProp 𝕄} {k : PUnit → Prog (TpuEff nD τ sig (Elt F) Λ₀ .tc) α}
    (f : Buf (Elt F) ((oS1 c j).view.loc (yn c : Thread nD τ))) (O : CellTallies nD τ sig Unit) (W : Waits sig Unit) :
    iprop(cellInv ER (sched m) (K (c, .inr (0, j))) (p1s c j) ∗ cellInv ER (sched m) (K (yn c, .inr (1, j))) (p1r (yn c) j)
        ∗ sendPay1 m c j ∗ ((oS1 c j).view.loc (yn c : Thread nD τ) ↦[(oS1 c j).view.set]{fullShare} f)
        ∗ owes (c : Thread nD τ) (O + tallyAt (p1r (yn c) j) () N) W
        ∗ dutyTok ER (p1s c j) 0 false ∗ reached ER (p1s c j) 0
        ∗ dutyTok ER (p1r (yn c) j) 0 false ∗ reached ER (p1r (yn c) j) 0)
      ⊢ iprop(((cred (tallyAt (p1s c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xS c j) (.remote (Dev.tc n : Thread nD τ) (oS1 c j) (.dma (semAt cc0_scratch0 j)) hsc) (.dma (semAt cc0_scratch1 j)) hsrc hdst hsem) k) Q) := by
  subst hn
  unfold sendPay1
  exact Rounds.wp_send_pointsTo 𝒱₀ ER (sched m) (c : Thread nD τ) none (c' := (yn c : Thread nD τ)) (src := xS c j) (dst := oS1 c j)
    (q := qL) (fs := xstg m c) (fd := f) (κ₁ := K (c, .inr (0, j))) (κ₂ := K (yn c, .inr (1, j)))
    (r₁ := 0) (r₂ := 0) (d₁ := false) (d₂ := false)
    (by rw [duties_p1s]; exact Finset.mem_singleton_self _) (by rw [duties_p1r]; exact Finset.mem_singleton_self _)
    () () N rfl (amount_p1s m c j false) (amount_p1r m (yn c) j false) O rfl (W := W)
    (by rw [payload_p1s]; unfold sendPay1; exact BI.Entails.refl _)
    (by rw [payload_p1r]; unfold recvPay1
        rw [pointsTo_congr (land1 m c j f), oS1_set])

/-- Phase 1 over the chunks `l`: each transfer takes the chunk's share of `x`, its landing place on `yn c` and the
    two duty tokens, pays the arrival off what `c` owes, and leaves credit on the send cell. -/
theorem wp_ph1 (K : Dev nD × CK → ℕ) (c : Dev nD) (l : List (Fin 32)) (O : CellTallies nD τ sig Unit) (W : Waits sig Unit)
    (k : P (F := F)) (Q : PUnit → sProp 𝕄) :
    iprop(records m K
        ∗ bigSepL l (fun j => iprop(sendPay1 m c j
            ∗ (∃ f, (oS1 c j).view.loc (yn c : Thread nD τ) ↦[(oS1 c j).view.set]{fullShare} f)
            ∗ dutyTok ER (p1s c j) 0 false ∗ dutyTok ER (p1r (yn c) j) 0 false))
        ∗ owes (c : Thread nD τ) (O + owe1 c l) W
        ∗ ((bigSepL l (fun j => cred (tallyAt (p1s c j) () N)) ∗ owes (c : Thread nD τ) O W)
            -∗ wp frame (wpE (defs₀ (F := F)) 𝒱₀ (c : Thread nD τ) none) Set.univ k Q))
      ⊢ wp frame (wpE (defs₀ (F := F)) 𝒱₀ (c : Thread nD τ) none) Set.univ (ph1 c l k) Q := by
  induction l generalizing O W with
  | nil =>
    rw [bigSepL_nil, bigSepL_nil, owe1_nil, add_zero]
    show _ ⊢ wp frame (wpE (defs₀ (F := F)) 𝒱₀ (c : Thread nD τ) none) Set.univ k Q
    iintro ⟨-, -, HO, Hk⟩
    iapply Hk
    isplitr
    · iempintro
    · iexact HO
  | cons j l ih =>
    rw [bigSepL_cons_sep1, bigSepL_cons_sep1, owe1_cons, ← add_assoc]
    show _ ⊢ wp frame (wpE (defs₀ (F := F)) 𝒱₀ (c : Thread nD τ) none) Set.univ
      (do Prog.lift (.enqueueDma (xS c j) (.remote (Dev.tc (⟨k0_dev3 c, k0_dev3_lt c⟩ : Dev nD)) (oS1 c j) (.dma (semAt cc0_scratch0 j))) (.dma (semAt cc0_scratch1 j)) (View.wordExact_bits rfl) (View.wordExact_bits rfl) ⟨⟨rfl, Or.inl rfl⟩, trivial⟩)
          ph1 c l k) Q
    simp only [Prog.lift, Prog.bind_op, Prog.bind_ret, Prog.pure_eq_ret]
    iintro ⟨#Hrec, ⟨⟨Hsend, ⟨%f, Hdst⟩, Ht1, Ht2⟩, Hrest⟩, HO, Hk⟩
    iapply (wp_send1 m K c _ (devY3_eq c) j f (O + owe1 c l) W) $$ [Hsend Hdst HO Ht1 Ht2]
    · isplitr; · iapply (inv_at m K (c, .inr (0, j))); iexact Hrec
      isplitr; · iapply (inv_at m K (yn c, .inr (1, j))); iexact Hrec
      isplitl [Hsend]; · iexact Hsend
      isplitl [Hdst]; · iexact Hdst
      isplitl [HO]; · iexact HO
      isplitl [Ht1]; · iexact Ht1
      isplitr; · iapply (reached_at m K (c, .inr (0, j))); iexact Hrec
      isplitl [Ht2]; · iexact Ht2
      iapply (reached_at m K (yn c, .inr (1, j))); iexact Hrec
    iintro ⟨Hc, HO⟩
    iapply (ih (O := O) (W := W))
    isplitr; · iexact Hrec
    isplitl [Hrest]; · iexact Hrest
    isplitl [HO]; · iexact HO
    iintro ⟨Hcs, HO⟩
    iapply Hk
    isplitl [Hc Hcs]
    · isplitl [Hc]; · iexact Hc
      iexact Hcs
    · iexact HO

/-- The local copy's enqueue: the copy's share of `x`, the own block's place, the cell's duty token. -/
theorem wp_locEnq (K : Dev nD × CK → ℕ) (c : Dev nD) (fd : Buf (Elt F) ((oL c).view.loc (c : Thread nD τ)))
    (k : P (F := F)) (Q : PUnit → sProp 𝕄) :
    iprop(records m K
        ∗ (xM.view.loc (c : Thread nD τ) ↦[xM.view.set]{qR} xstg m c)
        ∗ ((oL c).view.loc (c : Thread nD τ) ↦[(oL c).view.set]{fullShare} fd)
        ∗ dutyTok ER (locCell c) 0 false
        ∗ (cred (tallyAt (locCell c) () NL) -∗ wp frame (wpE (defs₀ (F := F)) 𝒱₀ (c : Thread nD τ) none) Set.univ k Q))
      ⊢ wp frame (wpE (defs₀ (F := F)) 𝒱₀ (c : Thread nD τ) none) Set.univ
          (do Prog.lift (.enqueueDma xM (.here (oL c)) (.dma cc0_scratch4.sem) (Memref.isWhole_whole _).wordExact (View.wordExact_bits rfl) ⟨Or.inl rfl, trivial⟩)
              k) Q := by
  simp only [Prog.lift, Prog.bind_op, Prog.bind_ret, Prog.pure_eq_ret]
  iintro ⟨#Hrec, Hx, Hd, Ht, Hk⟩
  iapply (Rounds.wp_copy_pointsTo 𝒱₀ ER (sched m) (c : Thread nD τ) none (src := xM) (dst := oL c) (sem := .dma cc0_scratch4.sem)
      (q := qR) (fs := xstg m c) (fd := fd) (κ := K (c, .inl 1)) (r := 0) (d := false)
      (by rw [duties_loc]; exact Finset.mem_singleton_self _) () NL rfl (amount_loc m c false)
      (by rw [payload_loc]; unfold locPay
          rw [pointsTo_congr (landL m c fd)])) $$ [Hx Hd Ht]
  · isplitr; · iapply (inv_at m K (c, .inl 1)); iexact Hrec
    isplitl [Hx]; · iexact Hx
    isplitl [Hd]; · iexact Hd
    isplitl [Ht]; · iexact Ht
    iapply (reached_at m K (c, .inl 1)); iexact Hrec
  iexact Hk

end Cert.KernelIdeal.AG

end
-- ==== Proof.AGSteps2.lean ====
/-
  The body's phases, stepped: phases 2, 3 and 4 and the local copy's wait. Each phase is a recursion over the chunks (AGFold), so each is proved by
  induction over the list of chunks left: one transfer or wait under its rule of the rounds discipline, then
  the phase on the rest. What a phase consumes and what it leaves is kept per chunk, in the list's order.
-/
import proofs.«900097_g7700000000000098_dist_ag_v7x_xy2x2_y_m2048_n512_f32_1_alg».proof.Proof.AGSched
import proofs.«900097_g7700000000000098_dist_ag_v7x_xy2x2_y_m2048_n512_f32_1_alg».proof.Proof.AGValue

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "𝒱₀" => (Variants.none : Variants)

/-- The chain over a list with a head, as the head's assertion and the chain over the rest. -/
theorem bigSepL_cons_sep {I : Type} (i : I) (l : List I) (Φ : I → sProp 𝕄) :
    bigSepL (i :: l) Φ = iprop(Φ i ∗ bigSepL l Φ) := bigSepL_cons i l Φ

/-- The forwarding of chunk `j` at the protocol's cells, addressed to a device `n` that is `xn c`: the chunk as it
    landed on `c` is the source and goes to its send cell; the same rows on `xn c`, rewritten by the copy, are the
    gathered array's there and go to the receive cell of `xn c`; the arrival owed for the chunk is paid. -/
theorem wp_send_fwd (K : Dev nD × CK → ℕ) (c n : Dev nD) (hn : n = xn c) (j : Fin 32) (l : List (Fin 32))
    {hsc : (oS4 c j : Memref sig (Dev.tc n : Thread nD τ).2.kind .vmem S32x512 .f32).view.ref.isScScratch = false}
    {hsrc : (oS4 c j : Memref sig .tc .vmem S32x512 .f32).view.WordExact} {hdst : (oS4 c j : Memref sig .tc .vmem S32x512 .f32).view.WordExact}
    {hsem : DmaTarget.Typed .vmem (.dma (semAt cc0_scratch3 j)) (.remote (Dev.tc n : Thread nD τ) (oS4 c j : Memref sig .tc .vmem S32x512 .f32) (.dma (semAt cc0_scratch2 j)) hsc)}
    {α : Type} {Q : α → sProp 𝕄} {k : PUnit → Prog (TpuEff nD τ sig (Elt F) Λ₀ .tc) α}
    (f : Buf (Elt F) ((oS4 c j).view.loc (xn c : Thread nD τ))) (W : Waits sig Unit) :
    iprop(cellInv ER (sched m) (K (c, .inr (2, j))) (p2s c j) ∗ cellInv ER (sched m) (K (xn c, .inr (3, j))) (p2r (xn c) j)
        ∗ recvPay1 m c j ∗ ((oS4 c j).view.loc (xn c : Thread nD τ) ↦[(oS4 c j).view.set]{fullShare} f)
        ∗ owes (c : Thread nD τ) (owe2 c (j :: l)) W
        ∗ dutyTok ER (p2s c j) 0 false ∗ reached ER (p2s c j) 0
        ∗ dutyTok ER (p2r (xn c) j) 0 false ∗ reached ER (p2r (xn c) j) 0)
      ⊢ iprop(((cred (tallyAt (p2s c j) () N) ∗ owes (c : Thread nD τ) (owe2 c l) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS4 c j) (.remote (Dev.tc n : Thread nD τ) (oS4 c j) (.dma (semAt cc0_scratch2 j)) hsc)
                (.dma (semAt cc0_scratch3 j)) hsrc hdst hsem) k) Q) := by
  subst hn
  unfold recvPay1
  exact Rounds.wp_send_pointsTo 𝒱₀ ER (sched m) (c : Thread nD τ) none (c' := (xn c : Thread nD τ))
    (src := oS4 c j) (dst := oS4 c j) (q := fullShare) (fs := outFinal m c) (fd := f)
    (κ₁ := K (c, .inr (2, j))) (κ₂ := K (xn c, .inr (3, j))) (r₁ := 0) (r₂ := 0) (d₁ := false) (d₂ := false)
    (by rw [duties_p2s]; exact Finset.mem_singleton_self _) (by rw [duties_p2r]; exact Finset.mem_singleton_self _)
    () () N rfl (amount_p2s m c j false) (amount_p2r m (xn c) j false) (owe2 c l) (owe2_cons c j l) (W := W)
    (by rw [payload_p2s]; unfold recvPay1; exact BI.Entails.refl _)
    (by
      rw [payload_p2r]; unfold recvPay2
      rw [← oS4_set c j]
      exact Entails.of_eq (pointsTo_congr (ℓ := (xn c : Thread nD τ).loc cc0_stg1_0) (land2 m c j f)))

/-- Phase 2 over the chunks `l`: the wait for chunk `j` from `yn c` (owing only the phase-2 arrivals left), then its
    forwarding to `xn c` from where it landed. -/
theorem wp_ph2 (K : Dev nD × CK → ℕ) (c : Dev nD) (l : List (Fin 32)) (W : Waits sig Unit)
    (k : P (F := F)) (Q : PUnit → sProp 𝕄) :
    iprop(records m K ∗ levAts L lv
        ∗ bigSepL l (fun j => iprop(cred (tallyAt (p1r c j) () N) ∗ atPos ER (p1r c j) 0 ∅ 0
            ∗ (∃ f, (oS4 c j).view.loc (xn c : Thread nD τ) ↦[(oS4 c j).view.set]{fullShare} f)
            ∗ dutyTok ER (p2s c j) 0 false ∗ dutyTok ER (p2r (xn c) j) 0 false))
        ∗ owes (c : Thread nD τ) (owe2 c l) W
        ∗ ((bigSepL l (fun j => iprop(cred (tallyAt (p2s c j) () N) ∗ atPos ER (p1r c j) 1 ∅ 0))
              ∗ (∃ W', owes (c : Thread nD τ) 0 W'))
            -∗ wp frame (wpE (defs₀ (F := F)) 𝒱₀ (c : Thread nD τ) none) Set.univ k Q))
      ⊢ wp frame (wpE (defs₀ (F := F)) 𝒱₀ (c : Thread nD τ) none) Set.univ (ph2 c l k) Q := by
  induction l generalizing W with
  | nil =>
    simp only [ph2, bigSepL_nil, owe2_nil]
    iintro ⟨-, -, -, HO, Hk⟩
    iapply Hk
    isplitr
    · iempintro
    · iexists W; iexact HO
  | cons j l ih =>
    simp only [ph2, bigSepL_cons_sep, Prog.bind_lift]
    iintro ⟨#Hrec, #Hlev, ⟨⟨Hc, Hat, ⟨%f, Hdst⟩, Ht2s, Ht2r⟩, Hl⟩, HO, Hk⟩
    -- the wait for the chunk from the neighbour along y; still owed: the forwarding of this chunk and of the chunks left,
    -- all at the level of the phase-2 receive cells, above this cell's
    iapply (Rounds.wp_wait_rest_token 𝒱₀ ER (sched m) (c : Thread nD τ) none (κ := K (c, .inr (1, j)))
        (wpE_waitDma2_eq 𝒱₀ (c : Thread nD τ) none Set.univ) (Set.mem_univ _) () (O := owe2 c (j :: l)) (W := W) (R := 0) (m := 0) (T := ∅)
        (by rw [Nat.zero_add, expect_p1r])) $$ [Hc HO Hat]
    · isplitr; · iapply (inv_at m K (c, .inr (1, j))); iexact Hrec
      isplitl [Hc]; · iexact Hc
      isplitl [HO]; · iexact HO
      isplitr; · iapply (mayWait_p1r c j (j :: l)); iexact Hlev
      iexact Hat
    iintro ⟨HO, Hat, -, Hpay⟩
    ihave Hp := (Entails.of_eq (rest_p1r m c j)) $$ Hpay
    -- the forwarding along x: the chunk as it landed is the source; its send cell gets it back, the neighbour's
    -- receive cell gets the same rows of the gathered array there
    iapply (wp_send_fwd m K c _ (devX35_eq c) j l f (insert (SemLoc.dma (semAt cc0_scratch1 j), ()) W)) $$ [Hp Hdst HO Ht2s Ht2r]
    · isplitr; · iapply (inv_at m K (c, .inr (2, j))); iexact Hrec
      isplitr; · iapply (inv_at m K (xn c, .inr (3, j))); iexact Hrec
      isplitl [Hp]; · iexact Hp
      isplitl [Hdst]; · iexact Hdst
      isplitl [HO]; · iexact HO
      isplitl [Ht2s]; · iexact Ht2s
      isplitr; · iapply (reached_at m K (c, .inr (2, j))); iexact Hrec
      isplitl [Ht2r]; · iexact Ht2r
      iapply (reached_at m K (xn c, .inr (3, j))); iexact Hrec
    iintro ⟨Hcs, HO⟩
    iapply (ih (insert (SemLoc.dma (semAt cc0_scratch1 j), ()) W))
    isplitr; · iexact Hrec
    isplitr; · iexact Hlev
    isplitl [Hl]; · iexact Hl
    isplitl [HO]; · iexact HO
    iintro ⟨Hl', HW⟩
    iapply Hk
    isplitl [Hcs Hat Hl']
    · isplitl [Hcs Hat]
      · isplitl [Hcs]; · iexact Hcs
        iexact Hat
      · iexact Hl'
    · iexact HW

/-- Phase 3 over the chunks `l`: the waits for the chunks `xn c` forwards; nothing is owed any more. -/
theorem wp_ph3 (K : Dev nD × CK → ℕ) (c : Dev nD) (l : List (Fin 32)) (W : Waits sig Unit)
    (k : P (F := F)) (Q : PUnit → sProp 𝕄) :
    iprop(records m K
        ∗ bigSepL l (fun j => iprop(cred (tallyAt (p2r c j) () N) ∗ atPos ER (p2r c j) 0 ∅ 0))
        ∗ owes (c : Thread nD τ) 0 W
        ∗ ((bigSepL l (fun j => iprop(recvPay2 m c j ∗ atPos ER (p2r c j) 1 ∅ 0))
              ∗ (∃ W', owes (c : Thread nD τ) 0 W'))
            -∗ wp frame (wpE (defs₀ (F := F)) 𝒱₀ (c : Thread nD τ) none) Set.univ k Q))
      ⊢ wp frame (wpE (defs₀ (F := F)) 𝒱₀ (c : Thread nD τ) none) Set.univ (ph3 c l k) Q := by
  induction l generalizing W with
  | nil =>
    simp only [ph3, bigSepL_nil]
    iintro ⟨-, -, HO, Hk⟩
    iapply Hk
    isplitr
    · iempintro
    · iexists W; iexact HO
  | cons j l ih =>
    simp only [ph3, bigSepL_cons_sep, Prog.bind_lift]
    iintro ⟨#Hrec, ⟨⟨Hc, Hat⟩, Hl⟩, HO, Hk⟩
    iapply (Rounds.wp_wait_rest_token 𝒱₀ ER (sched m) (c : Thread nD τ) none (κ := K (c, .inr (3, j)))
        (wpE_waitDma2_eq 𝒱₀ (c : Thread nD τ) none Set.univ) (Set.mem_univ _) () (O := 0) (W := W) (R := 0) (m := 0) (T := ∅)
        (by rw [Nat.zero_add, expect_p2r])) $$ [Hc HO Hat]
    · isplitr; · iapply (inv_at m K (c, .inr (3, j))); iexact Hrec
      isplitl [Hc]; · iexact Hc
      isplitl [HO]; · iexact HO
      isplitr; · rw [MayWait_zero]; iempintro
      iexact Hat
    iintro ⟨HO, Hat, -, Hpay⟩
    ihave Hp := (Entails.of_eq (rest_p2r m c j)) $$ Hpay
    iapply (ih (insert (SemLoc.dma (semAt cc0_scratch3 j), ()) W))
    isplitr; · iexact Hrec
    isplitl [Hl]; · iexact Hl
    isplitl [HO]; · iexact HO
    iintro ⟨Hl', HW⟩
    iapply Hk
    isplitl [Hp Hat Hl']
    · isplitl [Hp Hat]
      · isplitl [Hp]; · iexact Hp
        iexact Hat
      · iexact Hl'
    · iexact HW

/-- Phase 4 over the chunks `l`: the two send-side waits of each chunk: the chunk's share of `x` and the forwarded
    chunk's place come back. -/
theorem wp_ph4 (K : Dev nD × CK → ℕ) (c : Dev nD) (l : List (Fin 32)) (W : Waits sig Unit)
    (k : P (F := F)) (Q : PUnit → sProp 𝕄) :
    iprop(records m K
        ∗ bigSepL l (fun j => iprop(cred (tallyAt (p1s c j) () N) ∗ atPos ER (p1s c j) 0 ∅ 0
            ∗ cred (tallyAt (p2s c j) () N) ∗ atPos ER (p2s c j) 0 ∅ 0))
        ∗ owes (c : Thread nD τ) 0 W
        ∗ ((bigSepL l (fun j => iprop(sendPay1 m c j ∗ atPos ER (p1s c j) 1 ∅ 0 ∗ recvPay1 m c j ∗ atPos ER (p2s c j) 1 ∅ 0))
              ∗ (∃ W', owes (c : Thread nD τ) 0 W'))
            -∗ wp frame (wpE (defs₀ (F := F)) 𝒱₀ (c : Thread nD τ) none) Set.univ k Q))
      ⊢ wp frame (wpE (defs₀ (F := F)) 𝒱₀ (c : Thread nD τ) none) Set.univ (ph4 c l k) Q := by
  induction l generalizing W with
  | nil =>
    simp only [ph4, bigSepL_nil]
    iintro ⟨-, -, HO, Hk⟩
    iapply Hk
    isplitr
    · iempintro
    · iexists W; iexact HO
  | cons j l ih =>
    simp only [ph4, bigSepL_cons_sep, Prog.bind_lift]
    iintro ⟨#Hrec, ⟨⟨Hc1, Hat1, Hc2, Hat2⟩, Hl⟩, HO, Hk⟩
    -- the send side of the chunk's transfer to the neighbour along y: the chunk's share of the staged block back
    iapply (Rounds.wp_wait_rest_token 𝒱₀ ER (sched m) (c : Thread nD τ) none (κ := K (c, .inr (0, j)))
        (wpE_waitDma2_eq 𝒱₀ (c : Thread nD τ) none Set.univ) (Set.mem_univ _) () (O := 0) (W := W) (R := 0) (m := 0) (T := ∅)
        (by rw [Nat.zero_add, expect_p1s])) $$ [Hc1 HO Hat1]
    · isplitr; · iapply (inv_at m K (c, .inr (0, j))); iexact Hrec
      isplitl [Hc1]; · iexact Hc1
      isplitl [HO]; · iexact HO
      isplitr; · rw [MayWait_zero]; iempintro
      iexact Hat1
    iintro ⟨HO, Hat1, -, Hpay1⟩
    ihave Hp1 := (Entails.of_eq (rest_p1s m c j)) $$ Hpay1
    -- the send side of the forwarding along x: the forwarded chunk's place back
    iapply (Rounds.wp_wait_rest_token 𝒱₀ ER (sched m) (c : Thread nD τ) none (κ := K (c, .inr (2, j)))
        (wpE_waitDma2_eq 𝒱₀ (c : Thread nD τ) none Set.univ) (Set.mem_univ _) () (O := 0)
        (W := insert (SemLoc.dma (semAt cc0_scratch0 j), ()) W) (R := 0) (m := 0) (T := ∅)
        (by rw [Nat.zero_add, expect_p2s])) $$ [Hc2 HO Hat2]
    · isplitr; · iapply (inv_at m K (c, .inr (2, j))); iexact Hrec
      isplitl [Hc2]; · iexact Hc2
      isplitl [HO]; · iexact HO
      isplitr; · rw [MayWait_zero]; iempintro
      iexact Hat2
    iintro ⟨HO, Hat2, -, Hpay2⟩
    ihave Hp2 := (Entails.of_eq (rest_p2s m c j)) $$ Hpay2
    iapply (ih (insert (SemLoc.dma (semAt cc0_scratch2 j), ()) (insert (SemLoc.dma (semAt cc0_scratch0 j), ()) W)))
    isplitr; · iexact Hrec
    isplitl [Hl]; · iexact Hl
    isplitl [HO]; · iexact HO
    iintro ⟨Hl', HW⟩
    iapply Hk
    isplitl [Hp1 Hat1 Hp2 Hat2 Hl']
    · isplitl [Hp1 Hat1 Hp2 Hat2]
      · isplitl [Hp1]; · iexact Hp1
        isplitl [Hat1]; · iexact Hat1
        isplitl [Hp2]; · iexact Hp2
        iexact Hat2
      · iexact Hl'
    · iexact HW

/-- The local copy's wait: the own block in place and the copy's share of `x` back. -/
theorem wp_locWait (K : Dev nD × CK → ℕ) (c : Dev nD) (W : Waits sig Unit) (k : P (F := F)) (Q : PUnit → sProp 𝕄) :
    iprop(records m K
        ∗ cred (tallyAt (locCell c) () NL) ∗ atPos ER (locCell c) 0 ∅ 0
        ∗ owes (c : Thread nD τ) 0 W
        ∗ ((locPay m c ∗ atPos ER (locCell c) 1 ∅ 0 ∗ (∃ W', owes (c : Thread nD τ) 0 W'))
            -∗ wp frame (wpE (defs₀ (F := F)) 𝒱₀ (c : Thread nD τ) none) Set.univ k Q))
      ⊢ wp frame (wpE (defs₀ (F := F)) 𝒱₀ (c : Thread nD τ) none) Set.univ
          (do Prog.lift (.waitDma2 cc0_scratch4.sem xM (oL c) (Memref.isWhole_whole _).wordExact (View.wordExact_bits rfl))
              k) Q := by
  simp only [Prog.bind_lift]
  iintro ⟨#Hrec, Hc, Hat, HO, Hk⟩
  iapply (Rounds.wp_wait_rest_token 𝒱₀ ER (sched m) (c : Thread nD τ) none (κ := K (c, .inl 1))
      (wpE_waitDma2_eq 𝒱₀ (c : Thread nD τ) none Set.univ) (Set.mem_univ _) () (O := 0) (W := W) (R := 0) (m := 0) (T := ∅)
      (by rw [Nat.zero_add, expect_loc])) $$ [Hc HO Hat]
  · isplitr; · iapply (inv_at m K (c, .inl 1)); iexact Hrec
    isplitl [Hc]; · iexact Hc
    isplitl [HO]; · iexact HO
    isplitr; · rw [MayWait_zero]; iempintro
    iexact Hat
  iintro ⟨HO, Hat, -, Hpay⟩
  ihave Hp := (Entails.of_eq (rest_loc m c)) $$ Hpay
  iapply Hk
  isplitl [Hp]; · iexact Hp
  isplitl [Hat]; · iexact Hat
  iexists _; iexact HO

end Cert.KernelIdeal.AG

end
-- ==== Proof.AGBody.lean ====
/-
  One device's body: from what it starts with to what it ends with, through the handshake and the phases.
-/
import proofs.«900097_g7700000000000098_dist_ag_v7x_xy2x2_y_m2048_n512_f32_1_alg».proof.Proof.AGGlue
import proofs.«900097_g7700000000000098_dist_ag_v7x_xy2x2_y_m2048_n512_f32_1_alg».proof.Proof.AGSteps1
import proofs.«900097_g7700000000000098_dist_ag_v7x_xy2x2_y_m2048_n512_f32_1_alg».proof.Proof.AGSteps2

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => (Variants.none : Variants)

variable (m : (ℓ : Loc nD τ sig) → Buf (Elt F) ℓ)

/-- Over all 32 chunks a product of pairs is the pair of products. -/
theorem sepL (A B : Fin 32 → sProp 𝕄) : bigSepL chunks (fun j => iprop(A j ∗ B j)) = iprop(bigSepL chunks A ∗ bigSepL chunks B) := by
  rw [← toL, ← toL, ← toL, bigSep_sep']

/-! ## The phases over all 32 chunks, what each takes and leaves listed family by family -/

theorem ph1_all (K : Dev nD × CK → ℕ) (c : Dev nD) (O : CellTallies nD τ sig Unit) (W : Waits sig Unit) (k : P (F := F)) (Q : PUnit → sProp 𝕄) :
    iprop(records m K
        ∗ (bigSep Finset.univ fun j : Fin 32 => sendPay1 m c j)
        ∗ barPayY (F := F) c
        ∗ (bigSep Finset.univ fun j : Fin 32 => dutyTok ER (p1s c j) 0 false)
        ∗ (bigSep Finset.univ fun j : Fin 32 => dutyTok ER (p1r (yn c) j) 0 false)
        ∗ owes (c : Thread nD τ) (O + owe1 c chunks) W)
      ⊢ iprop((((bigSep Finset.univ fun j : Fin 32 => cred (tallyAt (p1s c j) () N)) ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ (ph1 c chunks k) Q) := by
  refine BIClass.wand_intro ?_
  have h := wp_ph1 m K c chunks O W k Q
  simp only [sepL] at h
  simp only [← toL] at h
  unfold barPayY
  refine BIBase.Entails.trans ?_ h
  iintro ⟨⟨#H0, H1, H2, H3, H4, H5⟩, H6⟩
  isplitr; · iexact H0
  isplitl [H1 H2 H3 H4]
  · isplitl [H1]; · iexact H1
    isplitl [H2]; · iexact H2
    isplitl [H3]; · iexact H3
    iexact H4
  isplitl [H5]; · iexact H5
  iexact H6

theorem ph2_all (K : Dev nD × CK → ℕ) (c : Dev nD) (W : Waits sig Unit) (k : P (F := F)) (Q : PUnit → sProp 𝕄) :
    iprop(records m K ∗ levAts L lv
        ∗ (bigSep Finset.univ fun j : Fin 32 => cred (tallyAt (p1r c j) () N))
        ∗ (bigSep Finset.univ fun j : Fin 32 => atPos ER (p1r c j) 0 ∅ 0)
        ∗ barPayX (F := F) c
        ∗ (bigSep Finset.univ fun j : Fin 32 => dutyTok ER (p2s c j) 0 false)
        ∗ (bigSep Finset.univ fun j : Fin 32 => dutyTok ER (p2r (xn c) j) 0 false)
        ∗ owes (c : Thread nD τ) (owe2 c chunks) W)
      ⊢ iprop((((bigSep Finset.univ fun j : Fin 32 => cred (tallyAt (p2s c j) () N))
              ∗ (bigSep Finset.univ fun j : Fin 32 => atPos ER (p1r c j) 1 ∅ 0)
              ∗ (∃ W', owes (c : Thread nD τ) 0 W')) -∗ wp frame (wpE (defs₀ (F := F)) 𝒱₀ (c : Thread nD τ) none) Set.univ k Q)
          -∗ wp frame (wpE (defs₀ (F := F)) 𝒱₀ (c : Thread nD τ) none) Set.univ (ph2 c chunks k) Q) := by
  refine BIClass.wand_intro ?_
  have h := wp_ph2 m K c chunks W k Q
  simp only [sepL] at h
  simp only [← toL] at h
  unfold barPayX
  refine BIBase.Entails.trans ?_ h
  iintro ⟨⟨#H0, #Hl, H1, H2, H3, H4, H5, H6⟩, H7⟩
  isplitr; · iexact H0
  isplitr; · iexact Hl
  isplitl [H1 H2 H3 H4 H5]
  · isplitl [H1]; · iexact H1
    isplitl [H2]; · iexact H2
    isplitl [H3]; · iexact H3
    isplitl [H4]; · iexact H4
    iexact H5
  isplitl [H6]; · iexact H6
  iintro ⟨⟨Ha, Hb⟩, Hc⟩
  iapply H7
  isplitl [Ha]; · iexact Ha
  isplitl [Hb]; · iexact Hb
  iexact Hc

theorem ph3_all (K : Dev nD × CK → ℕ) (c : Dev nD) (W : Waits sig Unit) (k : P (F := F)) (Q : PUnit → sProp 𝕄) :
    iprop(records m K
        ∗ (bigSep Finset.univ fun j : Fin 32 => cred (tallyAt (p2r c j) () N))
        ∗ (bigSep Finset.univ fun j : Fin 32 => atPos ER (p2r c j) 0 ∅ 0)
        ∗ owes (c : Thread nD τ) 0 W)
      ⊢ iprop((((bigSep Finset.univ fun j : Fin 32 => recvPay2 m c j)
              ∗ (bigSep Finset.univ fun j : Fin 32 => atPos ER (p2r c j) 1 ∅ 0)
              ∗ (∃ W', owes (c : Thread nD τ) 0 W')) -∗ wp frame (wpE (defs₀ (F := F)) 𝒱₀ (c : Thread nD τ) none) Set.univ k Q)
          -∗ wp frame (wpE (defs₀ (F := F)) 𝒱₀ (c : Thread nD τ) none) Set.univ (ph3 c chunks k) Q) := by
  refine BIClass.wand_intro ?_
  have h := wp_ph3 m K c chunks W k Q
  simp only [sepL] at h
  simp only [← toL] at h
  refine BIBase.Entails.trans ?_ h
  iintro ⟨⟨#H0, H1, H2, H6⟩, H7⟩
  isplitr; · iexact H0
  isplitl [H1 H2]
  · isplitl [H1]; · iexact H1
    iexact H2
  isplitl [H6]; · iexact H6
  iintro ⟨⟨Ha, Hb⟩, Hc⟩
  iapply H7
  isplitl [Ha]; · iexact Ha
  isplitl [Hb]; · iexact Hb
  iexact Hc

theorem ph4_all (K : Dev nD × CK → ℕ) (c : Dev nD) (W : Waits sig Unit) (k : P (F := F)) (Q : PUnit → sProp 𝕄) :
    iprop(records m K
        ∗ (bigSep Finset.univ fun j : Fin 32 => cred (tallyAt (p1s c j) () N))
        ∗ (bigSep Finset.univ fun j : Fin 32 => atPos ER (p1s c j) 0 ∅ 0)
        ∗ (bigSep Finset.univ fun j : Fin 32 => cred (tallyAt (p2s c j) () N))
        ∗ (bigSep Finset.univ fun j : Fin 32 => atPos ER (p2s c j) 0 ∅ 0)
        ∗ owes (c : Thread nD τ) 0 W)
      ⊢ iprop((((bigSep Finset.univ fun j : Fin 32 => sendPay1 m c j)
              ∗ (bigSep Finset.univ fun j : Fin 32 => atPos ER (p1s c j) 1 ∅ 0)
              ∗ (bigSep Finset.univ fun j : Fin 32 => recvPay1 m c j)
              ∗ (bigSep Finset.univ fun j : Fin 32 => atPos ER (p2s c j) 1 ∅ 0)
              ∗ (∃ W', owes (c : Thread nD τ) 0 W')) -∗ wp frame (wpE (defs₀ (F := F)) 𝒱₀ (c : Thread nD τ) none) Set.univ k Q)
          -∗ wp frame (wpE (defs₀ (F := F)) 𝒱₀ (c : Thread nD τ) none) Set.univ (ph4 c chunks k) Q) := by
  refine BIClass.wand_intro ?_
  have h := wp_ph4 m K c chunks W k Q
  simp only [sepL] at h
  simp only [← toL] at h
  refine BIBase.Entails.trans ?_ h
  iintro ⟨⟨#H0, H1, H2, H3, H4, H6⟩, H7⟩
  isplitr; · iexact H0
  isplitl [H1 H2 H3 H4]
  · isplitl [H1]; · iexact H1
    isplitl [H2]; · iexact H2
    isplitl [H3]; · iexact H3
    iexact H4
  isplitl [H6]; · iexact H6
  iintro ⟨⟨Ha, Hb, Hc, Hd⟩, He⟩
  iapply H7
  isplitl [Ha]; · iexact Ha
  isplitl [Hb]; · iexact Hb
  isplitl [Hc]; · iexact Hc
  isplitl [Hd]; · iexact Hd
  iexact He

/-! ## The body -/

/-- A staging buffer held whole, as the pipeline hands it over. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (K : Dev nD × CK → ℕ) (c : Dev nD) : sProp 𝕄 :=
  iprop((ghost m K c ∗ creds (F := F) c ∗ levAts L lv)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- After the handshake: phase 1, the local copy's enqueue, phases 2 to 4, the local copy's wait; then the own
    cells close and the buffers are whole again. -/
theorem sound_rest (K : Dev nD × CK → ℕ) (c : Dev nD) (W : Waits sig Unit) (g1 : Buf (Elt F) ((c : Thread nD τ).loc cc0_stg1_0))
    (Rst : Finset (Idx ((c : Thread nD τ).loc cc0_stg0_0))) (Kt : PUnit → sProp 𝕄) :
    iprop(records m K ∗ levAts L lv
        ∗ (bigSep Finset.univ fun j : Fin 32 => sendPay1 m c j) ∗ barPayY (F := F) c
        ∗ (bigSep Finset.univ fun j : Fin 32 => dutyTok ER (p1s c j) 0 false)
        ∗ (bigSep Finset.univ fun j : Fin 32 => dutyTok ER (p1r (yn c) j) 0 false)
        ∗ owes (c : Thread nD τ) (owe2 c chunks + owe1 c chunks) W
        ∗ (xM.view.loc (c : Thread nD τ) ↦[xM.view.set]{qR} xstg m c)
        ∗ ((oL c).view.loc (c : Thread nD τ) ↦[(oL c).view.set]{fullShare} g1)
        ∗ dutyTok ER (locCell c) 0 false ∗ atPos ER (locCell c) 0 ∅ 0
        ∗ (bigSep Finset.univ fun j : Fin 32 => cred (tallyAt (p1r c j) () N))
        ∗ (bigSep Finset.univ fun j : Fin 32 => atPos ER (p1r c j) 0 ∅ 0)
        ∗ barPayX (F := F) c
        ∗ (bigSep Finset.univ fun j : Fin 32 => dutyTok ER (p2s c j) 0 false)
        ∗ (bigSep Finset.univ fun j : Fin 32 => dutyTok ER (p2r (xn c) j) 0 false)
        ∗ (bigSep Finset.univ fun j : Fin 32 => cred (tallyAt (p2r c j) () N))
        ∗ (bigSep Finset.univ fun j : Fin 32 => atPos ER (p2r c j) 0 ∅ 0)
        ∗ (bigSep Finset.univ fun j : Fin 32 => atPos ER (p1s c j) 0 ∅ 0)
        ∗ (bigSep Finset.univ fun j : Fin 32 => atPos ER (p2s c j) 0 ∅ 0)
        ∗ (((c : Thread nD τ).loc cc0_stg0_0) ↦[Rst]{qL} xstg m c)
        ∗ (((bigSep Finset.univ fun j : Fin 32 => sendPay1 m c j) ∗ (((c : Thread nD τ).loc cc0_stg0_0) ↦[Rst]{qL} xstg m c)
              ∗ locPay m c
              ∗ (bigSep Finset.univ fun j : Fin 32 => recvPay1 m c j) ∗ (bigSep Finset.univ fun j : Fin 32 => recvPay2 m c j)
              ∗ Pipeline.ownSems0 osem c ∗ (∃ W', owes (c : Thread nD τ) 0 W')) -∗ Kt ⟨⟩))
      ⊢ wp frame (wpE (defs₀ (F := F)) 𝒱₀ (c : Thread nD τ) none) Set.univ (afterBarrier (F := F) c) Kt := by
  iintro ⟨#Hrec, #Hlev, HxS, HpY, Ht0, Ht1, HO, HxR, HoL, HtL, HaL, Hc1, Ha1, HpX, Ht2, Ht3, Hc3, Ha3, Ha0, Ha2, HxRest, Hk⟩
  unfold afterBarrier
  iapply (ph1_all m K c (owe2 c chunks) W _ Kt) $$ [HxS HpY Ht0 Ht1 HO]
  · isplitr; · iexact Hrec
    isplitl [HxS]; · iexact HxS
    isplitl [HpY]; · iexact HpY
    isplitl [Ht0]; · iexact Ht0
    isplitl [Ht1]; · iexact Ht1
    iexact HO
  iintro ⟨Hcs1, HO⟩
  iapply (wp_locEnq m K c g1 _ Kt)
  isplitr; · iexact Hrec
  isplitl [HxR]; · iexact HxR
  isplitl [HoL]; · iexact HoL
  isplitl [HtL]; · iexact HtL
  iintro HcL
  iapply (ph2_all m K c W _ Kt) $$ [Hc1 Ha1 HpX Ht2 Ht3 HO]
  · isplitr; · iexact Hrec
    isplitr; · iexact Hlev
    isplitl [Hc1]; · iexact Hc1
    isplitl [Ha1]; · iexact Ha1
    isplitl [HpX]; · iexact HpX
    isplitl [Ht2]; · iexact Ht2
    isplitl [Ht3]; · iexact Ht3
    iexact HO
  iintro ⟨Hcs2, Ha1', ⟨%W2, HO⟩⟩
  iapply (ph3_all m K c W2 _ Kt) $$ [Hc3 Ha3 HO]
  · isplitr; · iexact Hrec
    isplitl [Hc3]; · iexact Hc3
    isplitl [Ha3]; · iexact Ha3
    iexact HO
  iintro ⟨Hr2, Ha3', ⟨%W3, HO⟩⟩
  iapply (ph4_all m K c W3 _ Kt) $$ [Hcs1 Ha0 Hcs2 Ha2 HO]
  · isplitr; · iexact Hrec
    isplitl [Hcs1]; · iexact Hcs1
    isplitl [Ha0]; · iexact Ha0
    isplitl [Hcs2]; · iexact Hcs2
    isplitl [Ha2]; · iexact Ha2
    iexact HO
  iintro ⟨HxS, Ha0', Hr1, Ha2', ⟨%W4, HO⟩⟩
  iapply (wp_locWait m K c W4 _ Kt)
  isplitr; · iexact Hrec
  isplitl [HcL]; · iexact HcL
  isplitl [HaL]; · iexact HaL
  isplitl [HO]; · iexact HO
  iintro ⟨HlP, HaL', HO⟩
  imod (close_own m K c) $$ [HaL' Ha0' Ha1' Ha2' Ha3'] with Hsem
  · isplitr; · iexact Hrec
    rw [bigSep_OK]
    isplitl [HaL']; · iexact HaL'
    isplitl [Ha0']; · iexact Ha0'
    isplitl [Ha1']; · iexact Ha1'
    isplitl [Ha2']; · iexact Ha2'
    iexact Ha3'
  simp only [Prog.pure_eq_ret]
  rw [wp_ret]; imodintro
  iapply Hk
  isplitl [HxS]; · iexact HxS
  isplitl [HxRest]; · iexact HxRest
  isplitl [HlP]; · iexact HlP
  isplitl [Hr1]; · iexact Hr1
  isplitl [Hr2]; · iexact Hr2
  isplitl [Hsem]; · iexact Hsem
  iexact HO

/-- A place held at some contents is held at SOME contents. -/
theorem ex_pieces {ι : Type} [DecidableEq ι] (S : Finset ι) (c : Dev nD) (g : Buf (Elt F) ((c : Thread nD τ).loc cc0_stg1_0))
    (A : ι → Finset (Idx ((c : Thread nD τ).loc cc0_stg1_0))) :
    (bigSep S fun k => (((c : Thread nD τ).loc cc0_stg1_0) ↦[A k]{fullShare} g) : sProp 𝕄)
      ⊢ bigSep S fun k => iprop(∃ f, ((c : Thread nD τ).loc cc0_stg1_0) ↦[A k]{fullShare} f) :=
  bigSep_mono fun k _ =>
    (by iintro H; iexists g; iexact H :
      ((((c : Thread nD τ).loc cc0_stg1_0) ↦[A k]{fullShare} g) : sProp 𝕄) ⊢ iprop(∃ f, ((c : Thread nD τ).loc cc0_stg1_0) ↦[A k]{fullShare} f))

omit [FloatOps F] in
theorem xwhole_eq (c : Dev nD) (q : PosShare TreeShare) (f : Buf (Elt F) ((c : Thread nD τ).loc cc0_stg0_0)) :
    (xM.view.loc (c : Thread nD τ) ↦[xM.view.set]{q} f : sProp 𝕄) = (((c : Thread nD τ).loc cc0_stg0_0) ↦{q} f) := by
  rw [View.set_whole]

theorem fetch_0 (t : Fin cfg0.N) : (cfg0.win (0 : Fin 2)).fetch t = true := by rw [fin_N t]; rfl

set_option maxHeartbeats 1600000 in
/-- The body, from what the device starts with to what it ends with. -/
theorem sound_body (K : Dev nD × CK → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (F := F) xM (Memref.isWhole_whole _) oM (Memref.isWhole_whole _) cc0_scratch0 cc0_scratch1 cc0_scratch2 cc0_scratch3 cc0_scratch4) Kt := by
  rw [body_eq_folded]
  unfold folded
  simp only [Prog.lift, Prog.bind_op, Prog.bind_ret, wp_deviceId]
  unfold bodyPre ghost linear payToks creds
  simp only [bigSep_sep', bigSep_cells]
  iintro ⟨⟨⟨⟨#Hrec, ⟨⟨HaB, HaL⟩, Ha0, Ha1, Ha2, Ha3⟩, HtBY, HtBX, HtL, Ht0, Ht1, Ht2, Ht3⟩, ⟨HcB, Hc1, Hc3⟩, #Hlev⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave Hout' := (Entails.of_eq (out_pieces c g1)) $$ Hout
  icases Hout' with ⟨HoL, HoA, HoB⟩
  ihave Hx' := (pointsTo_share (PosShare.mem_left_op_right fullShare)).1 $$ Hx
  icases Hx' with ⟨HxL, HxR⟩
  obtain ⟨Rst, hR⟩ := x_pieces m c
  ihave HxL' := (Entails.of_eq hR) $$ HxL
  icases HxL' with ⟨HxS, HxRest⟩
  ihave HgY := ((ex_pieces Finset.univ c g1 fun k : Fin 32 => (oS4 c k).view.set).trans (barPayY_of (F := F) c (yn c) (yn_yn c))) $$ HoA
  ihave HgX := ((ex_pieces Finset.univ c g1 fun k : Fin 32 => (oS5 c k).view.set).trans (barPayX_of (F := F) c (xn c) (xn_xn c))) $$ HoB
  iapply (wp_barrier m K c W (afterBarrier c) Kt)
  isplitr; · iexact Hrec
  isplitr; · iexact Hlev
  isplitl [HO]; · iexact HO
  isplitl [HtBY]; · iexact HtBY
  isplitl [HtBX]; · iexact HtBX
  isplitl [HgY]; · iexact HgY
  isplitl [HgX]; · iexact HgX
  isplitl [HcB]; · iexact HcB
  isplitl [HaB]; · iexact HaB
  iintro ⟨HpY, HpX, HaB', HO⟩
  iapply (sound_rest m K c _ g1 Rst Kt)
  isplitr; · iexact Hrec
  isplitr; · iexact Hlev
  isplitl [HxS]; · iexact HxS
  isplitl [HpY]; · iexact HpY
  isplitl [Ht0]; · iexact Ht0
  isplitl [Ht1]; · iexact Ht1
  isplitl [HO]; · iexact HO
  isplitl [HxR]; · rw [xwhole_eq]; iexact HxR
  isplitl [HoL]; · iexact HoL
  isplitl [HtL]; · iexact HtL
  isplitl [HaL]; · iexact HaL
  isplitl [Hc1]; · iexact Hc1
  isplitl [Ha1]; · iexact Ha1
  isplitl [HpX]; · iexact HpX
  isplitl [Ht2]; · iexact Ht2
  isplitl [Ht3]; · iexact Ht3
  isplitl [Hc3]; · iexact Hc3
  isplitl [Ha3]; · iexact Ha3
  isplitl [Ha0]; · iexact Ha0
  isplitl [Ha2]; · iexact Ha2
  isplitl [HxRest]; · iexact HxRest
  iintro ⟨HxS, HxRest, HlP, Hr1, Hr2, Hsem, ⟨%W', HO⟩⟩
  iapply Hk
  unfold bodyPost Φ₁ Dat.owesAt Pipeline.owesWithin locPay recvPay1 recvPay2
  rw [show (dats m 0 c).owed t₀.succ = 0 from rfl]
  icases HlP with ⟨HoL, HxR⟩
  isplitl [Hsem]; · iexact Hsem
  isplitl [HO]
  · iexists W'
    isplitr; · ipureintro; exact fun _ _ => Or.inl trivial
    iexact HO
  isplitl [HxS HxRest HxR]
  · iexists _
    isplitr; · (ipureintro; rfl)
    ihave HxL := (Entails.of_eq hR.symm) $$ [HxS HxRest]
    · isplitl [HxS] <;> iassumption
    iapply (pointsTo_share (PosShare.mem_left_op_right fullShare)).2
    isplitl [HxL]; · iexact HxL
    rw [← xwhole_eq]; iexact HxR
  iexists _
  isplitr; · (ipureintro; rfl)
  iapply (Entails.of_eq (out_pieces c (outFinal m c)).symm)
  isplitl [HoL]; · iexact HoL
  isplitl [Hr1]; · iexact Hr1
  iexact Hr2

set_option maxRecDepth 100000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ (c : Thread nD τ) none) Set.univ
    (cc0_body (F := F) xM (Memref.isWhole_whole _) oM (Memref.isWhole_whole _) cc0_scratch0 cc0_scratch1 cc0_scratch2 cc0_scratch3 cc0_scratch4)
    (fun _ => bodyPost m c)
  unfold bodyPre' Φ₀ start
  iintro ⟨⟨⟨%K, Hg⟩, Hcr, Hlev⟩, Ho, Hx, Hout⟩
  iapply (sound_body m K c fun _ => bodyPost m c)
  unfold bodyPre
  isplitr []
  · isplitl [Hg Hcr Hlev]
    · isplitl [Hg]; · iexact Hg
      isplitl [Hcr]; · iexact Hcr
      iexact Hlev
    isplitl [Ho]; · iexact Ho
    isplitl [Hx] <;> iassumption
  · iintro H; iexact H

end Cert.KernelIdeal.AG

end
-- ==== Proof.AGFund.lean ====
/-
  Funding the protocol: the launch element of the protocol's copy of the rounds algebra makes, for every device,
  the round state of its 130 cells, its positions, and the duty tokens of its own cells' duties; the global step
  allocates every cell's invariant (for all four devices under one update: a barrier cell's invariant is shared
  by the three devices that touch it) and deals the tokens to the devices that pay the duties — a barrier's
  `false` token and a phase-1 receive token to the y-neighbour, a barrier's `true` token and a phase-2 receive
  token to the x-neighbour.
-/
import proofs.«900097_g7700000000000098_dist_ag_v7x_xy2x2_y_m2048_n512_f32_1_alg».proof.Proof.AGData

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def ringCells : Finset (GSem nD τ sig) := Finset.univ.map ⟨kcell, kcell_injective⟩

/-- A device's own cells' duty tokens as minted: the barrier's `true` duty, and the `false` duty of every cell. -/
abbrev tokOf (ct : Dev nD × Option CK) : GSem nD τ sig × ℕ × Bool := match ct.2 with
  | none => (barCell ct.1, 0, true)
  | some x => (kcell (ct.1, x), 0, false)
theorem tokOf_injective : Function.Injective (tokOf : Dev nD × Option CK → GSem nD τ sig × ℕ × Bool) := by
  rintro ⟨c, t⟩ ⟨c', t'⟩ h
  cases t with
  | none =>
    cases t' with
    | none =>
      have h1 : c = c' := congrArg (fun x : GSem nD τ sig × ℕ × Bool => x.1.1.1) h
      rw [h1]
    | some y => exact Bool.noConfusion (show true = false from congrArg (fun x : GSem nD τ sig × ℕ × Bool => x.2.2) h)
  | some x =>
    cases t' with
    | none => exact Bool.noConfusion (show false = true from congrArg (fun x : GSem nD τ sig × ℕ × Bool => x.2.2) h)
    | some y =>
      have hk : kcell (c, x) = kcell (c', y) := congrArg (fun x : GSem nD τ sig × ℕ × Bool => x.1) h
      have he := kcell_injective hk
      rw [Prod.mk.injEq] at he
      rw [he.1, he.2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun t : Option CK => dutyTok ER (tokOf (c, t)).1 (tokOf (c, t)).2.1 (tokOf (c, t)).2.2

/-- What the launch element deals device `c`. -/
def G (c : Dev nD) : sProp 𝕄 :=
  iprop((bigSep Finset.univ fun x : CK => roundState ER (sched m) (kcell (c, x)) 0)
    ∗ (bigSep Finset.univ fun x : CK => iprop(atPos ER (kcell (c, x)) 0 ∅ 0 ∗ reached ER (kcell (c, x)) 0)) ∗ toks (F := F) c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : CK => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### Index arithmetic of the iterated conjunctions -/

/-- Over an optional index: the members at an index, and the one at none. -/
theorem bigSep_univ_option {M : Type} [URA M] {α : Type} [Fintype α] (Φ : Option α → sProp M) :
    bigSep Finset.univ Φ = iprop((bigSep Finset.univ fun a : α => Φ (some a)) ∗ Φ none) := by
  rw [bigSep_univ_equiv (Equiv.optionEquivSumPUnit.{0, 0} α).symm Φ, bigSep_univ_sum, bigSep_univ_of_subsingleton PUnit.unit]
  rfl

/-- Over a sum of index types: the members at the left indices and those at the right ones. -/
theorem bigSep_univ_sum' {M : Type} [URA M] {α β : Type} [Fintype α] [Fintype β] (Φ : α ⊕ β → sProp M) :
    bigSep Finset.univ Φ = iprop((bigSep Finset.univ fun a : α => Φ (.inl a)) ∗ bigSep Finset.univ fun b : β => Φ (.inr b)) :=
  bigSep_univ_sum Φ

theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- A family over a device's indexed cells, by kind of cell: the barrier's and the local copy's, then per array the 32 chunks'. -/
theorem bigSep_CK (c : Dev nD) (Φ : GSem nD τ sig → sProp 𝕄) :
    (bigSep Finset.univ fun x : CK => Φ (kcell (c, x)))
      = iprop((Φ (barCell c) ∗ Φ (locCell c))
          ∗ (bigSep Finset.univ fun k : Fin 32 => Φ (p1s c k)) ∗ (bigSep Finset.univ fun k : Fin 32 => Φ (p1r c k))
          ∗ (bigSep Finset.univ fun k : Fin 32 => Φ (p2s c k)) ∗ (bigSep Finset.univ fun k : Fin 32 => Φ (p2r c k))) := by
  rw [bigSep_univ_sum, bigSep_univ_two, bigSep_univ_prod, bigSep_fin4]
  rfl

/-! ### The semaphores at zero -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier's are the device's indexed cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [unscopedSems0_eq, bigSep_univ_sum' (fun x : CK => (semVal (kcell (c, x)) 0 : sProp 𝕄)), bigSep_univ_two]
  unfold Pipeline.ownSems0
  rw [bigSep_univ_sum' (fun k : OK => (semVal (((c : Dev nD).tc : Thread nD τ), osem k) 0 : sProp 𝕄)), bigSep_univ_of_subsingleton ()]
  iintro ⟨⟨HL, HK⟩, HB⟩
  isplitl [HB HL]
  · isplitl [HB]; · iexact HB
    iexact HL
  · iexact HK

/-! ### The global step, device by device, and the regrouping -/

/-- One device's cells allocated: each of its indexed cells' invariant at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (sched m) (kcell (c, x)) 0)
      ⊢ (|={Set.univ}=> bigSep Finset.univ fun x : CK => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ linear (F := F) c) ⊢ G' m c := by
  unfold G' ghost
  iintro H
  iexists K
  iexact H

/-- The two reflections of the mesh. -/
def yE : Dev nD ≃ Dev nD := ⟨yn, yn, yn_yn, yn_yn⟩
def xE : Dev nD ≃ Dev nD := ⟨xn, xn, xn_xn, xn_xn⟩

/-- A device's minted tokens, by kind of cell. -/
theorem toks_eq (c : Dev nD) : toks (F := F) c = iprop(
    ((dutyTok ER (barCell c) 0 false ∗ dutyTok ER (locCell c) 0 false)
      ∗ (bigSep Finset.univ fun k : Fin 32 => dutyTok ER (p1s c k) 0 false) ∗ (bigSep Finset.univ fun k : Fin 32 => dutyTok ER (p1r c k) 0 false)
      ∗ (bigSep Finset.univ fun k : Fin 32 => dutyTok ER (p2s c k) 0 false) ∗ (bigSep Finset.univ fun k : Fin 32 => dutyTok ER (p2r c k) 0 false))
    ∗ dutyTok ER (barCell c) 0 true) := by
  unfold toks
  rw [bigSep_univ_option]
  exact congrArg (fun P : sProp 𝕄 => iprop(P ∗ dutyTok ER (barCell c) 0 true)) (bigSep_CK c (fun g => dutyTok ER g 0 false))

/-- The tokens dealt over the mesh: a barrier's `false` token and the phase-1 receive tokens go to the y-neighbour, a
    barrier's `true` token and the phase-2 receive tokens to the x-neighbour (both reflections are involutions, so "to" and
    "from" the neighbour are the same reindexing); the send tokens and the local copy's stay. -/
theorem toks_around : (bigSep Finset.univ fun c : Dev nD => (toks (F := F) c : sProp 𝕄)) ⊢ bigSep Finset.univ fun c : Dev nD => payToks (F := F) c := by
  rw [bigSep_congr (s := Finset.univ) (fun (c : Dev nD) _ => toks_eq (F := F) c)]
  unfold payToks
  simp only [bigSep_sep']
  rw [bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => (bigSep Finset.univ fun k : Fin 32 => dutyTok ER (p1r c k) 0 false : sProp 𝕄)),
    bigSep_univ_equiv xE (fun c : Dev nD => (bigSep Finset.univ fun k : Fin 32 => dutyTok ER (p2r c k) 0 false : sProp 𝕄))]
  iintro ⟨⟨⟨HbF, HL⟩, H1s, H1r, H2s, H2r⟩, HbT⟩
  isplitl [HbF]; · iexact HbF
  isplitl [HbT]; · iexact HbT
  isplitl [HL]; · iexact HL
  isplitl [H1s]; · iexact H1s
  isplitl [H1r]; · iexact H1r
  isplitl [H2s]; · iexact H2s
  iexact H2r

/-- All devices' allocations regrouped: the names chosen into one function, the invariants and reached-marks shared
    by every device, each device's positions kept, the tokens dealt. -/
theorem regroup :
    (bigSep Finset.univ fun c : Dev nD => iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0)) ∗ toks (F := F) c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun x : CK => (atPos ER (kcell (c, x)) 0 ∅ 0 : sProp 𝕄)) (payToks (F := F))).symm).trans
      (bigSep_mono fun c _ => show _ ⊢ linear (F := F) c from Entails.of_eq (by unfold linear; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.AG

end
-- ==== Proof.AGLaunch.lean ====
/-
  The launch: the protocol's cells funded and allocated for all four devices at once, every device dealt what
  its body starts from, and the run of @main: every fair execution of the four kernels terminates, the argument
  arrays unchanged and every device's result array holding the gathered array.
-/
import proofs.«900097_g7700000000000098_dist_ag_v7x_xy2x2_y_m2048_n512_f32_1_alg».proof.Proof.AGFund

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => (Variants.none : Variants)

variable (m : (ℓ : Loc nD τ sig) → Buf (Elt F) ℓ) (ρ : Dev nD → PrngReg)

/-! ## The kernel's own semaphores -/

/-- An own semaphore as an indexed cell's. -/
def okCk : OK → CK
  | .inl _ => .inl 1
  | .inr bk => .inr bk
theorem okCk_injective : Function.Injective okCk := by
  rintro (a | a) (b | b) h
  · rfl
  · cases h
  · cases h
  · exact congrArg Sum.inr (Sum.inr.inj h)
theorem osem_eq (k : OK) : osem k = csem (okCk k) := by
  rcases k with a | bk <;> rfl

/-- An own semaphore is a DMA semaphore past the two staging ones. -/
theorem osem_dma (k : OK) : ∃ q : DmaSem sig, osem k = .dma q ∧ 2 ≤ q.val := by
  rcases k with a | ⟨i, j⟩
  · exact ⟨cc0_scratch4.sem, rfl, by rw [locS_val]; omega⟩
  · fin_cases i
    · exact ⟨semAt cc0_scratch0 j, rfl, by rw [semAt0_val]; omega⟩
    · exact ⟨semAt cc0_scratch1 j, rfl, by rw [semAt1_val]; omega⟩
    · exact ⟨semAt cc0_scratch2 j, rfl, by rw [semAt2_val]; omega⟩
    · exact ⟨semAt cc0_scratch3 j, rfl, by rw [semAt3_val]; omega⟩

/-- Every DMA semaphore of the pool is scoped. -/
theorem dma_scoped : ∀ q : DmaSem sig, (SemLoc.dma q : SemLoc sig).isScoped .tc = true := by decide +kernel

/-- The staging semaphores are the pool's first two. -/
theorem stage_sem_lt (w : Fin cfg0.W) (s : Fin (cfg0.win w).nbuf) : ((cfg0.win w).sem s).val < 2 := by
  fin_cases w <;> fin_cases s <;> decide

theorem ownSemFacts : Pipeline.OwnSemFacts cfg0.spec osem where
  isScoped k := by obtain ⟨q, hq, _⟩ := osem_dma k; rw [hq]; exact dma_scoped q
  inj a b h := okCk_injective (csem_injective (by rw [← osem_eq, ← osem_eq, h]))
  disj k w s h := by
    obtain ⟨q, hq, h2⟩ := osem_dma k
    rw [hq] at h
    have hq' : q = (cfg0.spec w).sem s := SemLoc.dma.inj h
    have h3 : ((cfg0.spec w).sem s).val < 2 := stage_sem_lt w s
    rw [hq'] at h2
    exact absurd h3 (by omega)

theorem share_eq (c : Dev nD) (w : Fin cfg0.W) : (dats m 0 c).share w = fullShare := by unfold Dat.share; split <;> rfl

/-! ## The launch credit -/

/-- What the others owe device `c`'s cells at launch: two units on its barrier cell, a chunk on each receive cell. -/
def T₀ (c : Dev nD) : CellTallies nD τ sig Unit :=
  tallyAt (barCell c) () 2 + ∑ k : Fin 32, (tallyAt (p1r c k) () N + tallyAt (p2r c k) () N)

/-- The list sums over the 32 chunks as sums over `Fin 32`. -/
theorem owe1_eq (d : Dev nD) : owe1 d chunks = ∑ k : Fin 32, (tallyAt (p1r (yn d) k) () N : CellTallies nD τ sig Unit) := by
  unfold owe1; exact (Fin.sum_univ_def _).symm
theorem owe2_eq (d : Dev nD) : owe2 d chunks = ∑ k : Fin 32, (tallyAt (p2r (xn d) k) () N : CellTallies nD τ sig Unit) := by
  unfold owe2; exact (Fin.sum_univ_def _).symm

/-- The two neighbour maps are involutions of the mesh. -/
def ynE : Dev nD ≃ Dev nD := ⟨yn, yn, yn_yn, yn_yn⟩
def xnE : Dev nD ≃ Dev nD := ⟨xn, xn, xn_xn, xn_xn⟩

/-- Summed over the devices, what is owed is what each device is owed: the sums over the payers are
    reindexed along the neighbour maps. -/
theorem owed_sum : (∑ d, O₀ d) = ∑ d, T₀ d := by
  have h1 : (∑ d : Dev nD, owe1 d chunks) = ∑ d : Dev nD, ∑ k : Fin 32, (tallyAt (p1r d k) () N : CellTallies nD τ sig Unit) := by
    rw [← Equiv.sum_comp ynE (fun d => ∑ k : Fin 32, (tallyAt (p1r d k) () N : CellTallies nD τ sig Unit))]
    exact Finset.sum_congr rfl fun d _ => owe1_eq d
  have h2 : (∑ d : Dev nD, owe2 d chunks) = ∑ d : Dev nD, ∑ k : Fin 32, (tallyAt (p2r d k) () N : CellTallies nD τ sig Unit) := by
    rw [← Equiv.sum_comp xnE (fun d => ∑ k : Fin 32, (tallyAt (p2r d k) () N : CellTallies nD τ sig Unit))]
    exact Finset.sum_congr rfl fun d _ => owe2_eq d
  have h3 : (∑ d : Dev nD, (tallyAt (barCell (xn d)) () 1 : CellTallies nD τ sig Unit)) = ∑ d : Dev nD, tallyAt (barCell d) () 1 :=
    Equiv.sum_comp xnE (fun d => (tallyAt (barCell d) () 1 : CellTallies nD τ sig Unit))
  have h4 : (∑ d : Dev nD, (tallyAt (barCell (yn d)) () 1 : CellTallies nD τ sig Unit)) = ∑ d : Dev nD, tallyAt (barCell d) () 1 :=
    Equiv.sum_comp ynE (fun d => (tallyAt (barCell d) () 1 : CellTallies nD τ sig Unit))
  have hl : (∑ d, O₀ d) = (((∑ d : Dev nD, ∑ k : Fin 32, (tallyAt (p2r d k) () N : CellTallies nD τ sig Unit))
      + ∑ d : Dev nD, ∑ k : Fin 32, (tallyAt (p1r d k) () N : CellTallies nD τ sig Unit))
      + ∑ d : Dev nD, tallyAt (barCell d) () 1) + ∑ d : Dev nD, tallyAt (barCell d) () 1 := by
    unfold O₀
    rw [Finset.sum_add_distrib, Finset.sum_add_distrib, Finset.sum_add_distrib, h1, h2, h3, h4]
  have hr : (∑ d, T₀ d) = ((∑ d : Dev nD, (tallyAt (barCell d) () 1 : CellTallies nD τ sig Unit)) + ∑ d : Dev nD, tallyAt (barCell d) () 1)
      + ((∑ d : Dev nD, ∑ k : Fin 32, (tallyAt (p1r d k) () N : CellTallies nD τ sig Unit))
        + ∑ d : Dev nD, ∑ k : Fin 32, (tallyAt (p2r d k) () N : CellTallies nD τ sig Unit)) := by
    unfold T₀
    rw [Finset.sum_add_distrib, ← Finset.sum_add_distrib (f := fun d : Dev nD => ∑ k : Fin 32, (tallyAt (p1r d k) () N : CellTallies nD τ sig Unit)),
      ← Finset.sum_add_distrib (f := fun d : Dev nD => (tallyAt (barCell d) () 1 : CellTallies nD τ sig Unit))]
    refine congrArg₂ (· + ·) (Finset.sum_congr rfl fun d _ => (tallyAt_add (barCell d) () 1 1).symm) (Finset.sum_congr rfl fun d _ => Finset.sum_add_distrib)
  rw [hl, hr, add_assoc, add_comm (∑ d : Dev nD, ∑ k : Fin 32, (tallyAt (p2r d k) () N : CellTallies nD τ sig Unit)), add_comm]

/-- What a device is owed sits on its own cells. -/
theorem T₀_own (d : Dev nD) (g : GSem nD τ sig) (h : T₀ d g ≠ 0) : g.1 = (d.tc : Thread nD τ) := by
  by_contra hne
  have hcell (sm : SemLoc sig) : g ≠ ((d : Thread nD τ), sm) := fun hg => hne (congrArg Prod.fst hg)
  apply h
  unfold T₀
  rw [Pi.add_apply, Finset.sum_apply, tallyAt_ne_cell (hcell _), zero_add]
  exact Finset.sum_eq_zero fun k _ => by rw [Pi.add_apply, tallyAt_ne_cell (hcell _), tallyAt_ne_cell (hcell _), add_zero]

/-- The launch credit of device `c`: its barrier's two units and the 64 arrivals. -/
theorem launch_creds (c : Dev nD) : (Pipeline.launchCred O₀ c : sProp 𝕄) ⊢ creds (F := F) c := by
  rw [Pipeline.launchCred_of_sum O₀ T₀ owed_sum T₀_own c]
  unfold T₀ creds
  refine (cred_add _ _).1.trans (sep_mono_right ?_)
  rw [Pipeline.cred_finsetSum]
  exact bigSep_mono fun k _ => (cred_add _ _).1

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

/-- The body's start is what the launch made; there is no scoped buffer besides the staging ones. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

/-- The body's end is the own semaphores at zero. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq]
  unfold Φ₁
  iintro H
  isplitr; · iempintro
  isplitl [H]; · iexact H
  iempintro

/-- The pipeline's own waits are on the staging semaphores, at level 0. -/
theorem waits (c : Dev nD) : (levAts L lv : sProp 𝕄) ⊢ Pipeline.cellsWaits cfgs (dats m) () 0 c :=
  Pipeline.cellsWaits_intro cfgs (dats m) () 0 c fun w s t =>
    mayWait_stage c _ (stage_sem_lt w s) _ (by
      rcases t with ⟨_ | _, ht⟩
      · exact Or.inl rfl
      · exact Or.inr rfl)

/-! ## The run -/

/-- Each window's array after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- At the compiled mesh, for any float instance, from any memory with zero counters: every weakly fair execution of
    @main terminates, and every final state has each window's array at `finalA`. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m c (0 : Fin 2) = m (win0_0.arr.view.loc (c : Thread nD τ)) :=
  (dats (F := F) m 0 c).arrAt_in (0 : Fin 2) rfl _

/-- The result array after the run is the gathered array. -/
theorem finalA_out (c : Dev nD) : finalA m c (1 : Fin 2) = outFinal m c := by
  show (dats m 0 c).arrAt (1 : Fin 2) ((t₀ : Fin cfg0.N).val + 1) = _
  rw [Dat.arrAt_succ, flush0_1 t₀, if_pos rfl]
  exact ((Memref.read_access_unit_zero (Elt F) main_v1 (funext fun a => Nat.zero_mul _) _ _).symm).trans (View.read_write_univ _ _)

end Cert.KernelIdeal.AG

end
-- ==== Proof.KAGFold.lean ====
/-
  The all-gather kernel's body read as four counted phases.

  Device `c` of the 2 × 2 mesh sits at coordinates (x, y) = (c / 2, c % 2); `yn c` flips y, `xn c` flips x.
  After the entry handshake the body is: 32 row-chunks of the device's half x of its block sent to `yn c`
  (phase 1), the whole block copied into its own place of the result, then per chunk the wait for the
  chunk `yn c` sends and its forwarding to `xn c` (phase 2), the waits for the chunks `xn c` forwards
  (phase 3), and the waits for the two send sides of every chunk (phase 4) and for the local copy.
  The printed body unrolls the chunks; here each phase is a recursion over the list of chunks, and the
  printed body is that program by unfolding.
-/
import proofs.«900097_g7700000000000098_dist_ag_v7x_xy2x2_y_m2048_n512_f32_1_alg».proof.Proof.Gen.Kernel
import proofs.«900097_g7700000000000098_dist_ag_v7x_xy2x2_y_m2048_n512_f32_1_alg».proof.Proof.Gen.Kernel.Skeleton

noncomputable section

namespace Cert.Kernel.AG

open Cert.Kernel Cert.Kernel.Gen
open Idealize.ShloMosaic Idealize.ShloMosaic.TcCoe Idealize.SL.Sem

variable {F : FTy → Type} [FloatOps F]

/-! ## The mesh -/

/-- The neighbour along y: same x, the other y. -/
def yn (c : Dev nD) : Dev nD := ⟨(2 * (c.val / 2) + 1) - c.val % 2, by have : c.val < 4 := c.isLt; show _ < 4; omega⟩
/-- The neighbour along x: same y, the other x. -/
def xn (c : Dev nD) : Dev nD := ⟨(c.val % 2 + 2) - 2 * (c.val / 2), by have : c.val < 4 := c.isLt; show _ < 4; omega⟩

theorem yn_yn (c : Dev nD) : yn (yn c) = c := by revert c; decide
theorem xn_xn (c : Dev nD) : xn (xn c) = c := by revert c; decide
theorem yn_xn (c : Dev nD) : yn (xn c) = xn (yn c) := by revert c; decide
theorem yn_ne (c : Dev nD) : yn c ≠ c := by revert c; decide
theorem xn_ne (c : Dev nD) : xn c ≠ c := by revert c; decide
theorem xn_ne_yn (c : Dev nD) : xn c ≠ yn c := by revert c; decide

theorem devY1_eq (c : Dev nD) : (⟨k0_dev1 c, k0_dev1_lt c⟩ : Dev nD) = yn c := Fin.ext (k0_dev1_eq c)
theorem devX2_eq (c : Dev nD) : (⟨k0_dev2 c, k0_dev2_lt c⟩ : Dev nD) = xn c := Fin.ext (k0_dev2_eq c)
theorem devY3_eq (c : Dev nD) : (⟨k0_dev3 c, k0_dev3_lt c⟩ : Dev nD) = yn c := Fin.ext (k0_dev3_eq c)
theorem devX35_eq (c : Dev nD) : (⟨k0_dev35 c, k0_dev35_lt c⟩ : Dev nD) = xn c := Fin.ext (k0_dev35_eq c)

/-! ## The buffers' views -/

/-- The staged block of `x` and the staged result. -/
abbrev xM : Memref sig .tc .vmem S2048x512 .f32 := Memref.whole cc0_stg0_0
abbrev oM : Memref sig .tc .vmem S4096x512 .f32 := Memref.whole cc0_stg1_0

theorem inbSem (k : Fin 32) : ∀ a, (![k.val] : Fin 1 → Nat) a + S1.size a ≤ S32.size a := by
  intro a; have := k.isLt; fin_cases a; show k.val + 1 ≤ 32; omega
theorem inbRow (k : Fin 32) : ∀ a, (![32 * k.val, 0] : Fin 2 → Nat) a + S32x512.size a ≤ S2048x512.size a := by
  intro a; have := k.isLt; fin_cases a
  · show 32 * k.val + 32 ≤ 2048; omega
  · show 0 + 512 ≤ 512; omega

/-- Semaphore `k` of a 32-semaphore scratch array. -/
abbrev semAt (a : DmaSems sig S32) (k : Fin 32) : DmaSem sig :=
  ((a.slice (Rect.unit (s := S32) ![k.val] S1.size (inbSem k))).squeeze S_ squeezes_S1_S_).sem

/-- Chunk `k` of the half of `x` the device sends along y. -/
abbrev xS (c : Dev nD) (k : Fin 32) : Memref sig .tc .vmem S32x512 .f32 :=
  xM.slice (Rect.unit (s := S2048x512) (k0_off2 c (BitVec.ofNat 32 (32 * k.val))) S32x512.size (k0_off2_inb c k)) (fun _ => rfl)
/-- Rows `32 k …` of `x`: the source a receive wait names (only its size matters). -/
abbrev xR (k : Fin 32) : Memref sig .tc .vmem S32x512 .f32 :=
  xM.slice (Rect.unit (s := S2048x512) ![32 * k.val, 0] S32x512.size (inbRow k)) (fun _ => rfl)
/-- Where chunk `k` of device `c`'s half lands in the result (on `yn c`). -/
abbrev oS1 (c : Dev nD) (k : Fin 32) : Memref sig .tc .vmem S32x512 .f32 :=
  oM.slice (Rect.unit (s := S4096x512) (k0_off1 c (BitVec.ofNat 32 (32 * k.val))) S32x512.size (k0_off1_inb c k)) (fun _ => rfl)
/-- Where chunk `k` from `yn c` lands on `c`; `c` forwards it to the same rows on `xn c`. -/
abbrev oS4 (c : Dev nD) (k : Fin 32) : Memref sig .tc .vmem S32x512 .f32 :=
  oM.slice (Rect.unit (s := S4096x512) (k0_off4 c (BitVec.ofNat 32 (32 * k.val))) S32x512.size (k0_off4_inb c k)) (fun _ => rfl)
/-- Where chunk `k` forwarded by `xn c` lands on `c`. -/
abbrev oS5 (c : Dev nD) (k : Fin 32) : Memref sig .tc .vmem S32x512 .f32 :=
  oM.slice (Rect.unit (s := S4096x512) (k0_off5 c (BitVec.ofNat 32 (32 * k.val))) S32x512.size (k0_off5_inb c k)) (fun _ => rfl)
/-- The device's own block's place in the result. -/
abbrev oL (c : Dev nD) : Memref sig .tc .vmem S2048x512 .f32 :=
  oM.slice (Rect.unit (s := S4096x512) (k0_off3 c) S2048x512.size (k0_off3_inb c)) (fun _ => rfl)

/-- The runtime's barrier semaphore of collective id 0. -/
abbrev barS : Sem sig := (SemArray.scalar (sig.barrier 0 rfl) : Sems sig S_).sem

/-! ## The phases -/

abbrev P : Type 1 := Prog (TpuEff nD τ sig (Elt F) Λ₀ .tc) PUnit

/-- Phase 1: chunk `j` of the half sent to `yn c`. -/
def ph1 (c : Dev nD) : List (Fin 32) → P (F := F) → P (F := F)
  | [], k => k
  | j :: l, k => do
      Prog.lift (.enqueueDma (xS c j) (.remote (Dev.tc (⟨k0_dev3 c, k0_dev3_lt c⟩ : Dev nD)) (oS1 c j) (.dma (semAt cc0_scratch0 j))) (.dma (semAt cc0_scratch1 j)) (View.wordExact_bits rfl) (View.wordExact_bits rfl) ⟨⟨rfl, Or.inl rfl⟩, trivial⟩)
      ph1 c l k

/-- Phase 2: wait for chunk `j` from `yn c`, forward it to `xn c`. -/
def ph2 (c : Dev nD) : List (Fin 32) → P (F := F) → P (F := F)
  | [], k => k
  | j :: l, k => do
      Prog.lift (.waitDma2 (semAt cc0_scratch1 j) (xR j) (oS4 c j) (View.wordExact_bits rfl) (View.wordExact_bits rfl))
      Prog.lift (.enqueueDma (oS4 c j) (.remote (Dev.tc (⟨k0_dev35 c, k0_dev35_lt c⟩ : Dev nD)) (oS4 c j) (.dma (semAt cc0_scratch2 j))) (.dma (semAt cc0_scratch3 j)) (View.wordExact_bits rfl) (View.wordExact_bits rfl) ⟨⟨rfl, Or.inl rfl⟩, trivial⟩)
      ph2 c l k

/-- Phase 3: wait for chunk `j` forwarded by `xn c`. -/
def ph3 (c : Dev nD) : List (Fin 32) → P (F := F) → P (F := F)
  | [], k => k
  | j :: l, k => do
      Prog.lift (.waitDma2 (semAt cc0_scratch3 j) (xR j) (oS5 c j) (View.wordExact_bits rfl) (View.wordExact_bits rfl))
      ph3 c l k

/-- Phase 4: the two send sides of chunk `j`. -/
def ph4 (c : Dev nD) : List (Fin 32) → P (F := F) → P (F := F)
  | [], k => k
  | j :: l, k => do
      Prog.lift (.waitDma2 (semAt cc0_scratch0 j) (oS1 c j) (xS c j) (View.wordExact_bits rfl) (View.wordExact_bits rfl))
      Prog.lift (.waitDma2 (semAt cc0_scratch2 j) (oS4 c j) (oS4 c j) (View.wordExact_bits rfl) (View.wordExact_bits rfl))
      ph4 c l k

/-- The 32 chunks in order. -/
abbrev chunks : List (Fin 32) := List.finRange 32

/-- What follows the entry handshake on device `c`. -/
def afterBarrier (c : Dev nD) : P (F := F) :=
  ph1 c chunks (do
    Prog.lift (.enqueueDma xM (.here (oL c)) (.dma cc0_scratch4.sem) (Memref.isWhole_whole _).wordExact (View.wordExact_bits rfl) ⟨Or.inl rfl, trivial⟩)
    ph2 c chunks (ph3 c chunks (ph4 c chunks (do
      Prog.lift (.waitDma2 cc0_scratch4.sem xM (oL c) (Memref.isWhole_whole _).wordExact (View.wordExact_bits rfl))
      pure ⟨⟩))))

/-- The body: the device id, the handshake, the phases. -/
def folded : P (F := F) := do
  let d0 : Dev nD ← Prog.lift .deviceId
  semSignalWord (⟨k0_dev1 d0, k0_dev1_lt d0⟩ : Dev nD) barS 1#32 hamt_1
  semSignalWord (⟨k0_dev2 d0, k0_dev2_lt d0⟩ : Dev nD) barS 1#32 hamt_1
  semWaitWord barS 2#32 hamt_2
  afterBarrier d0

set_option maxRecDepth 200000 in
set_option maxHeartbeats 4000000 in
/-- The printed body, called on the staging buffers, is the folded program. -/
theorem body_eq_folded :
    cc0_body (F := F) xM (Memref.isWhole_whole _) oM (Memref.isWhole_whole _) cc0_scratch0 cc0_scratch1 cc0_scratch2 cc0_scratch3 cc0_scratch4
      = folded (F := F) := by
  rfl

end Cert.Kernel.AG

end
-- ==== Proof.KAGContents.lean ====
/-
  What the buffers hold. Device `c` = (x, y) stages its block `xstg c` of the argument (2048 rows); the
  all-gather must leave in its result buffer (4096 rows) block 0 then block 1 of the whole argument. Written
  through the devices' own blocks: the rows of the device's own y come from its own block; of the other y,
  the half of its own x comes from `yn c` (phase 1) and the other half from `yn (xn c)` through `xn c`
  (phase 2).
-/
import proofs.«900097_g7700000000000098_dist_ag_v7x_xy2x2_y_m2048_n512_f32_1_alg».proof.Proof.KAGFold
import Idealize.ShloMosaic.Lib.ValueIdx

noncomputable section

namespace Cert.Kernel.AG

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The staged block of the argument on device `c`: its argument array, read through the (whole) block. -/
def xstg (c : Dev nD) : (cc0_stg0_0 : Ref sig .tc).ty.Contents (Elt F) :=
  (win0_0.blk (0 : Fin 1)).view.read (Elt F) (m ((c : Thread nD τ).loc main_arg0))

/-- The gathered result on device `c`, row by row. -/
def outFinal (c : Dev nD) : (cc0_stg1_0 : Ref sig .tc).ty.Contents (Elt F) := fun (i : S4096x512.Idx) =>
  let r : ℕ := (i 0).val
  let row : Fin 2048 := ⟨r % 2048, Nat.mod_lt _ (by decide)⟩
  if r / 2048 = c.val % 2 then xstg m c (ValueIdx.ix2 row (i 1))
  else if (r % 2048) / 1024 = c.val / 2 then xstg m (yn c) (ValueIdx.ix2 row (i 1))
  else xstg m (yn (xn c)) (ValueIdx.ix2 row (i 1))

end Cert.Kernel.AG

end
-- ==== Proof.KAGSched.lean ====
/-
  The protocol of the all-gather under the rounds discipline.

  Cells of device `c`: its barrier cell (two duties of one unit: `false` paid by `yn c`, `true` by `xn c`),
  and one-duty cells, all of round 0: per chunk `k` the phase-1 send cell (paid by `c`'s own transfer `k`,
  handing back the chunk's share of `x`), the phase-1 receive cell (paid by `yn c`'s transfer `k`: the chunk
  landed, holding the gathered array's rows there), the phase-2 send and receive cells likewise with `xn c`,
  and the local copy's cell. The entry signals carry the landing places: `c`'s signal to `yn c` hands over
  the 32 places on `c` where `yn c`'s chunks land, its signal to `xn c` the 32 places where `xn c`'s
  forwarded chunks land. A wait is allowed below what the waiter still owes: barrier cells at level 1,
  phase-1 receive cells at 2, phase-2 receive cells at 3.
-/
import proofs.«900097_g7700000000000098_dist_ag_v7x_xy2x2_y_m2048_n512_f32_1_alg».proof.Proof.KAGContents
import proofs.«900097_g7700000000000098_dist_ag_v7x_xy2x2_y_m2048_n512_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barCell (c : Dev nD) : GSem nD τ sig := ((c : Thread nD τ), .reg barS)
abbrev locCell (c : Dev nD) : GSem nD τ sig := ((c : Thread nD τ), .dma cc0_scratch4.sem)
abbrev p1s (c : Dev nD) (k : Fin 32) : GSem nD τ sig := ((c : Thread nD τ), .dma (semAt cc0_scratch0 k))
abbrev p1r (c : Dev nD) (k : Fin 32) : GSem nD τ sig := ((c : Thread nD τ), .dma (semAt cc0_scratch1 k))
abbrev p2s (c : Dev nD) (k : Fin 32) : GSem nD τ sig := ((c : Thread nD τ), .dma (semAt cc0_scratch2 k))
abbrev p2r (c : Dev nD) (k : Fin 32) : GSem nD τ sig := ((c : Thread nD τ), .dma (semAt cc0_scratch3 k))

/-- The protocol's cells of one device, indexed: the barrier, the local copy, and (array, chunk). -/
abbrev CK : Type := Fin 2 ⊕ (Fin 4 × Fin 32)
def csem : CK → SemLoc sig
  | .inl 0 => .reg barS
  | .inl 1 => .dma cc0_scratch4.sem
  | .inr (0, k) => .dma (semAt cc0_scratch0 k)
  | .inr (1, k) => .dma (semAt cc0_scratch1 k)
  | .inr (2, k) => .dma (semAt cc0_scratch2 k)
  | .inr (3, k) => .dma (semAt cc0_scratch3 k)
abbrev kcell (ck : Dev nD × CK) : GSem nD τ sig := ((ck.1 : Thread nD τ), csem ck.2)

/-- The semaphores' places in the pool of 131 DMA semaphores. -/
theorem semAt0_val (k : Fin 32) : (semAt cc0_scratch0 k).val = 2 + k.val := by
  revert k; decide
theorem semAt1_val (k : Fin 32) : (semAt cc0_scratch1 k).val = 34 + k.val := by
  revert k; decide
theorem semAt2_val (k : Fin 32) : (semAt cc0_scratch2 k).val = 66 + k.val := by
  revert k; decide
theorem semAt3_val (k : Fin 32) : (semAt cc0_scratch3 k).val = 98 + k.val := by
  revert k; decide
theorem locS_val : (cc0_scratch4.sem : DmaSem sig).val = 130 := by
  decide

/-- A semaphore's number: 0 for a regular one, one more than its place in the pool for a DMA one. -/
private def semNum : SemLoc sig → ℕ
  | .reg _ => 0
  | .dma q => q.val + 1
/-- The number of an indexed cell's semaphore: 0 and 131 for the barrier and the local copy,
    3 + 32 i + k for chunk k of array i. -/
private def ckNum : CK → ℕ
  | .inl a => 131 * a.val
  | .inr (i, k) => 3 + 32 * i.val + k.val

private theorem semNum_csem (ck : CK) : semNum (csem ck) = ckNum ck := by
  rcases ck with a | ⟨i, k⟩
  · fin_cases a
    · rfl
    · show (cc0_scratch4.sem : DmaSem sig).val + 1 = 131 * 1
      rw [locS_val]
  · fin_cases i
    · show (semAt cc0_scratch0 k).val + 1 = 3 + 32 * 0 + k.val
      rw [semAt0_val]; omega
    · show (semAt cc0_scratch1 k).val + 1 = 3 + 32 * 1 + k.val
      rw [semAt1_val]; omega
    · show (semAt cc0_scratch2 k).val + 1 = 3 + 32 * 2 + k.val
      rw [semAt2_val]; omega
    · show (semAt cc0_scratch3 k).val + 1 = 3 + 32 * 3 + k.val
      rw [semAt3_val]; omega

/-- The numbers tell the indexed cells apart: 3 + 32 i + k is at most 130 for i below 4 and k below 32. -/
theorem csem_injective : Function.Injective csem := by
  intro a b h
  have h' : ckNum a = ckNum b := by rw [← semNum_csem, ← semNum_csem, h]
  rcases a with a | ⟨i, k⟩ <;> rcases b with b | ⟨j, l⟩ <;> dsimp only [ckNum] at h'
  · exact congrArg Sum.inl (Fin.ext (by omega))
  · exfalso; have := j.isLt; have := l.isLt
    rcases (by omega : a.val = 0 ∨ a.val = 1) with h0 | h0 <;> rw [h0] at h' <;> omega
  · exfalso; have := i.isLt; have := k.isLt
    rcases (by omega : b.val = 0 ∨ b.val = 1) with h0 | h0 <;> rw [h0] at h' <;> omega
  · have hi : i = j := Fin.ext (by have := k.isLt; have := l.isLt; omega)
    have hk : k = l := Fin.ext (by have := k.isLt; have := l.isLt; omega)
    rw [hi, hk]
/-- A cell names its device and, on it, its semaphore. -/
theorem kcell_injective : Function.Injective (kcell : Dev nD × CK → GSem nD τ sig) := by
  rintro ⟨c, a⟩ ⟨c', b⟩ h
  have h1 : c = c' := congrArg (fun g : GSem nD τ sig => g.1.1) h
  have h2 : csem a = csem b := congrArg (fun g : GSem nD τ sig => g.2) h
  rw [h1, csem_injective h2]

/-! ## Amounts and shares -/

/-- A chunk's credit (32 × 512 words) and the block's (2048 × 512). -/
abbrev N : ℕ := (xR 0).view.dmaCredit
abbrev NL : ℕ := xM.view.dmaCredit
theorem N_pos : 0 < N := View.dmaCredit_pos _ (by decide)
theorem NL_pos : 0 < NL := View.dmaCredit_pos _ (by decide)

/-- `x` is read by the chunk transfers at one half share and by the local copy at the other. -/
abbrev qL : PosShare TreeShare := fullShare.left
abbrev qR : PosShare TreeShare := fullShare.right

/-! ## Payloads -/

/-- Phase-1 send cell `k`: the chunk's share of `x` back. -/
def sendPay1 (c : Dev nD) (k : Fin 32) : sProp 𝕄 :=
  (xS c k).view.loc (c : Thread nD τ) ↦[(xS c k).view.set]{qL} xstg m c
/-- Phase-1 receive cell `k` (and, after forwarding, phase-2 send cell `k`): the chunk from `yn c` in place. -/
def recvPay1 (c : Dev nD) (k : Fin 32) : sProp 𝕄 :=
  (oS4 c k).view.loc (c : Thread nD τ) ↦[(oS4 c k).view.set]{fullShare} outFinal m c
/-- Phase-2 receive cell `k`: the chunk forwarded by `xn c` in place. -/
def recvPay2 (c : Dev nD) (k : Fin 32) : sProp 𝕄 :=
  (oS5 c k).view.loc (c : Thread nD τ) ↦[(oS5 c k).view.set]{fullShare} outFinal m c
/-- The local copy's cell: the device's own block in place, and the copy's share of `x` back. -/
def locPay (c : Dev nD) : sProp 𝕄 :=
  iprop(((oL c).view.loc (c : Thread nD τ) ↦[(oL c).view.set]{fullShare} outFinal m c)
    ∗ (xM.view.loc (c : Thread nD τ) ↦[xM.view.set]{qR} xstg m c))
/-- What `yn c`'s entry signal hands `c`: the 32 places on `yn c` where `c`'s chunks land. -/
def barPayY (c : Dev nD) : sProp 𝕄 :=
  bigSep Finset.univ fun k : Fin 32 => iprop(∃ f, (oS1 c k).view.loc (yn c : Thread nD τ) ↦[(oS1 c k).view.set]{fullShare} f)
/-- What `xn c`'s entry signal hands `c`: the 32 places on `xn c` where the chunks `c` forwards land. -/
def barPayX (c : Dev nD) : sProp 𝕄 :=
  bigSep Finset.univ fun k : Fin 32 => iprop(∃ f, (oS4 c k).view.loc (xn c : Thread nD τ) ↦[(oS4 c k).view.set]{fullShare} f)

/-- The chunk a pool index belongs to. -/
def idxOf (q : DmaSem sig) : Fin 32 := ⟨(q.val - 2) % 32, Nat.mod_lt _ (by decide)⟩

/-- The payload of the one duty of a DMA cell, by the semaphore's place in the pool. -/
def dmaPay (c : Dev nD) (q : DmaSem sig) : sProp 𝕄 :=
  if q.val < 2 then iprop(emp)
  else if q.val < 34 then sendPay1 m c (idxOf q)
  else if q.val < 66 then recvPay1 m c (idxOf q)
  else if q.val < 98 then recvPay1 m c (idxOf q)
  else if q.val < 130 then recvPay2 m c (idxOf q)
  else locPay m c

/-! ## The schedule -/

/-- One round, round 0. -/
def sched : Rounds.Schedule (GSem nD τ sig) Bool 𝕄 where
  duties g r :=
    if r = 0 ∧ g.1.2 = .tc then
      (match g.2 with
        | .reg s => if s = barS then Finset.univ else ∅
        | .dma q => if 2 ≤ q.val then {false} else ∅)
    else ∅
  unitless _ := False
  amount g _ _ := match g.2 with
    | .reg _ => 1
    | .dma q => if q.val = 130 then NL else N
  payload g _ d := match g.2 with
    | .reg _ => if d then barPayX (F := F) g.1.1 else barPayY (F := F) g.1.1
    | .dma q => dmaPay m g.1.1 q
  amount_pos g _ _ _ := by
    rcases g with ⟨t, sm⟩
    cases sm with
    | reg s => exact Nat.one_pos
    | dma q => show 0 < (if q.val = 130 then NL else N); split
               · exact NL_pos
               · exact N_pos

instance sched_payload_storable (g : GSem nD τ sig) (r : ℕ) (d : Bool) :
    BI.Storable (upEmb : UEmb _ 𝕄) ((sched (F := F) m).payload g r d) := by
  rcases g with ⟨⟨c, κ⟩, sm⟩
  cases sm with
  | reg s =>
    show BI.Storable upEmb (if d then barPayX (F := F) c else barPayY (F := F) c)
    unfold barPayX barPayY
    split <;> infer_instance
  | dma q =>
    show BI.Storable upEmb (dmaPay m c q)
    unfold dmaPay sendPay1 recvPay1 recvPay2 locPay
    (repeat' split) <;> infer_instance

/-- A round of one duty expects that duty's amount, and its rest is that duty's payload: over any schedule. -/
theorem expect_single {G D M : Type} [DecidableEq D] [URA M] (Rd : Rounds.Schedule G D M) (g : G) (r : ℕ) (d : D) (n : ℕ)
    (hd : Rd.duties g r = {d}) (ha : Rd.amount g r d = n) : Rd.expect g r = n := by
  unfold Schedule.expect Schedule.amountOf; rw [hd, Finset.sum_singleton, ha]
theorem rest_single {G D M : Type} [DecidableEq D] [URA M] (Rd : Rounds.Schedule G D M) (g : G) (r : ℕ) (d : D) (P : sProp M)
    (hd : Rd.duties g r = {d}) (hp : Rd.payload g r d = P) : bigSep (Rd.duties g r \ ∅) (fun d => Rd.payload g r d) = P := by
  rw [Finset.sdiff_empty, hd, bigSep_singleton, hp]

/-- Past every chunk's semaphore the pool index is the local copy's. -/
theorem dmaPay_loc (c : Dev nD) (q : DmaSem sig) (h1 : 130 ≤ q.val) : dmaPay m c q = locPay m c := by
  unfold dmaPay; rw [if_neg (by omega), if_neg (by omega), if_neg (by omega), if_neg (by omega), if_neg (by omega)]

section Tables
variable (c : Dev nD) (k : Fin 32)

/-- The chunk of a pool index in one of the four arrays. -/
theorem idxOf_semAt0 : idxOf (semAt cc0_scratch0 k) = k :=
  Fin.ext (by show ((semAt cc0_scratch0 k).val - 2) % 32 = k.val; have := semAt0_val k; have := k.isLt; omega)
theorem idxOf_semAt1 : idxOf (semAt cc0_scratch1 k) = k :=
  Fin.ext (by show ((semAt cc0_scratch1 k).val - 2) % 32 = k.val; have := semAt1_val k; have := k.isLt; omega)
theorem idxOf_semAt2 : idxOf (semAt cc0_scratch2 k) = k :=
  Fin.ext (by show ((semAt cc0_scratch2 k).val - 2) % 32 = k.val; have := semAt2_val k; have := k.isLt; omega)
theorem idxOf_semAt3 : idxOf (semAt cc0_scratch3 k) = k :=
  Fin.ext (by show ((semAt cc0_scratch3 k).val - 2) % 32 = k.val; have := semAt3_val k; have := k.isLt; omega)

theorem duties_bar : (sched (F := F) m).duties (barCell c) 0 = Finset.univ := by
  dsimp only [sched]; rw [if_pos ⟨rfl, rfl⟩]; exact if_pos rfl
theorem duties_p1s : (sched (F := F) m).duties (p1s c k) 0 = {false} := by
  dsimp only [sched]; rw [if_pos ⟨rfl, rfl⟩]; exact if_pos (by have := semAt0_val k; omega)
theorem duties_p1r : (sched (F := F) m).duties (p1r c k) 0 = {false} := by
  dsimp only [sched]; rw [if_pos ⟨rfl, rfl⟩]; exact if_pos (by have := semAt1_val k; omega)
theorem duties_p2s : (sched (F := F) m).duties (p2s c k) 0 = {false} := by
  dsimp only [sched]; rw [if_pos ⟨rfl, rfl⟩]; exact if_pos (by have := semAt2_val k; omega)
theorem duties_p2r : (sched (F := F) m).duties (p2r c k) 0 = {false} := by
  dsimp only [sched]; rw [if_pos ⟨rfl, rfl⟩]; exact if_pos (by have := semAt3_val k; omega)
theorem duties_loc : (sched (F := F) m).duties (locCell c) 0 = {false} := by
  dsimp only [sched]; rw [if_pos ⟨rfl, rfl⟩]; exact if_pos (by have := locS_val; omega)
theorem duties_later (g : GSem nD τ sig) : ∀ r, 1 ≤ r → (sched (F := F) m).duties g r = ∅ :=
  fun r hr => by dsimp only [sched]; exact if_neg fun h => absurd h.1 (by omega)

theorem amount_bar (d : Bool) : (sched (F := F) m).amount (barCell c) 0 d = 1 := rfl
theorem amount_p1s (d : Bool) : (sched (F := F) m).amount (p1s c k) 0 d = N := by
  dsimp only [sched]; exact if_neg (by have := semAt0_val k; have := k.isLt; omega)
theorem amount_p1r (d : Bool) : (sched (F := F) m).amount (p1r c k) 0 d = N := by
  dsimp only [sched]; exact if_neg (by have := semAt1_val k; have := k.isLt; omega)
theorem amount_p2s (d : Bool) : (sched (F := F) m).amount (p2s c k) 0 d = N := by
  dsimp only [sched]; exact if_neg (by have := semAt2_val k; have := k.isLt; omega)
theorem amount_p2r (d : Bool) : (sched (F := F) m).amount (p2r c k) 0 d = N := by
  dsimp only [sched]; exact if_neg (by have := semAt3_val k; have := k.isLt; omega)
theorem amount_loc (d : Bool) : (sched (F := F) m).amount (locCell c) 0 d = NL := by
  dsimp only [sched]; exact if_pos locS_val

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_p1s : (sched (F := F) m).expect (p1s c k) 0 = N := by
  unfold Schedule.expect Schedule.amountOf; rw [duties_p1s, Finset.sum_singleton, amount_p1s]
theorem expect_p1r : (sched (F := F) m).expect (p1r c k) 0 = N := by
  unfold Schedule.expect Schedule.amountOf; rw [duties_p1r, Finset.sum_singleton, amount_p1r]
theorem expect_p2s : (sched (F := F) m).expect (p2s c k) 0 = N := by
  unfold Schedule.expect Schedule.amountOf; rw [duties_p2s, Finset.sum_singleton, amount_p2s]
theorem expect_p2r : (sched (F := F) m).expect (p2r c k) 0 = N := by
  unfold Schedule.expect Schedule.amountOf; rw [duties_p2r, Finset.sum_singleton, amount_p2r]
theorem expect_loc : (sched (F := F) m).expect (locCell c) 0 = NL :=
  expect_single (sched m) (locCell c) 0 false NL (duties_loc m c) (amount_loc m c false)

theorem payload_bar_true : (sched (F := F) m).payload (barCell c) 0 true = barPayX (F := F) c := by
  dsimp only [sched]; exact if_pos rfl
theorem payload_bar_false : (sched (F := F) m).payload (barCell c) 0 false = barPayY (F := F) c := by
  dsimp only [sched]; exact if_neg Bool.false_ne_true
theorem payload_p1s (d : Bool) : (sched (F := F) m).payload (p1s c k) 0 d = sendPay1 m c k := by
  show dmaPay m c (semAt cc0_scratch0 k) = _
  have hv := semAt0_val k; have hk := k.isLt
  unfold dmaPay
  rw [if_neg (by omega), if_pos (by omega), idxOf_semAt0]
theorem payload_p1r (d : Bool) : (sched (F := F) m).payload (p1r c k) 0 d = recvPay1 m c k := by
  show dmaPay m c (semAt cc0_scratch1 k) = _
  have hv := semAt1_val k; have hk := k.isLt
  unfold dmaPay
  rw [if_neg (by omega), if_neg (by omega), if_pos (by omega), idxOf_semAt1]
theorem payload_p2s (d : Bool) : (sched (F := F) m).payload (p2s c k) 0 d = recvPay1 m c k := by
  show dmaPay m c (semAt cc0_scratch2 k) = _
  have hv := semAt2_val k; have hk := k.isLt
  unfold dmaPay
  rw [if_neg (by omega), if_neg (by omega), if_neg (by omega), if_pos (by omega), idxOf_semAt2]
theorem payload_p2r (d : Bool) : (sched (F := F) m).payload (p2r c k) 0 d = recvPay2 m c k := by
  show dmaPay m c (semAt cc0_scratch3 k) = _
  have hv := semAt3_val k; have hk := k.isLt
  unfold dmaPay
  rw [if_neg (by omega), if_neg (by omega), if_neg (by omega), if_neg (by omega), if_pos (by omega), idxOf_semAt3]
theorem payload_loc (d : Bool) : (sched (F := F) m).payload (locCell c) 0 d = locPay m c := by
  show dmaPay m c cc0_scratch4.sem = locPay m c
  exact dmaPay_loc m c _ (Nat.le_of_eq locS_val.symm)

/-- The rest of a round no duty of which is taken yet: its payloads. -/
theorem rest_bar : bigSep ((sched (F := F) m).duties (barCell c) 0 \ ∅) (fun d => (sched (F := F) m).payload (barCell c) 0 d)
    = iprop(barPayY (F := F) c ∗ barPayX (F := F) c) := by
  rw [Finset.sdiff_empty, duties_bar, bigSep_univ_eq_bigSepL [false, true] (by decide) (by decide), bigSepL_cons_cons, bigSepL_singleton,
    payload_bar_false, payload_bar_true]
  rfl
theorem rest_p1s : bigSep ((sched (F := F) m).duties (p1s c k) 0 \ ∅) (fun d => (sched (F := F) m).payload (p1s c k) 0 d) = sendPay1 m c k := by
  rw [Finset.sdiff_empty, duties_p1s, bigSep_singleton, payload_p1s]
theorem rest_p1r : bigSep ((sched (F := F) m).duties (p1r c k) 0 \ ∅) (fun d => (sched (F := F) m).payload (p1r c k) 0 d) = recvPay1 m c k := by
  rw [Finset.sdiff_empty, duties_p1r, bigSep_singleton, payload_p1r]
theorem rest_p2s : bigSep ((sched (F := F) m).duties (p2s c k) 0 \ ∅) (fun d => (sched (F := F) m).payload (p2s c k) 0 d) = recvPay1 m c k := by
  rw [Finset.sdiff_empty, duties_p2s, bigSep_singleton, payload_p2s]
theorem rest_p2r : bigSep ((sched (F := F) m).duties (p2r c k) 0 \ ∅) (fun d => (sched (F := F) m).payload (p2r c k) 0 d) = recvPay2 m c k := by
  rw [Finset.sdiff_empty, duties_p2r, bigSep_singleton, payload_p2r]
theorem rest_loc : bigSep ((sched (F := F) m).duties (locCell c) 0 \ ∅) (fun d => (sched (F := F) m).payload (locCell c) 0 d) = locPay m c :=
  rest_single (sched m) (locCell c) 0 false (locPay m c) (duties_loc m c) (payload_loc m c false)

end Tables

/-! ## What each device owes at launch; the levels -/

/-- The phase-1 arrivals device `c` still owes `yn c` for the chunks of `l`; the phase-2 arrivals it owes `xn c`. -/
def owe1 (c : Dev nD) (l : List (Fin 32)) : CellTallies nD τ sig Unit := (l.map fun k => tallyAt (p1r (yn c) k) () N).sum
def owe2 (c : Dev nD) (l : List (Fin 32)) : CellTallies nD τ sig Unit := (l.map fun k => tallyAt (p2r (xn c) k) () N).sum
/-- At launch: every arrival and the two entry signals, the first signal (to `yn c`) the last summand. -/
def O₀ (c : Dev nD) : CellTallies nD τ sig Unit :=
  ((owe2 c chunks + owe1 c chunks) + tallyAt (barCell (xn c)) () 1) + tallyAt (barCell (yn c)) () 1

theorem owe1_cons (c : Dev nD) (j : Fin 32) (l : List (Fin 32)) : owe1 c (j :: l) = owe1 c l + tallyAt (p1r (yn c) j) () N := by
  unfold owe1; rw [List.map_cons, List.sum_cons, add_comm]
theorem owe2_cons (c : Dev nD) (j : Fin 32) (l : List (Fin 32)) : owe2 c (j :: l) = owe2 c l + tallyAt (p2r (xn c) j) () N := by
  unfold owe2; rw [List.map_cons, List.sum_cons, add_comm]
theorem owe1_nil (c : Dev nD) : owe1 c [] = 0 := rfl
theorem owe2_nil (c : Dev nD) : owe2 c [] = 0 := rfl

def L (g : GSem nD τ sig) : Finset Unit := if g.1.2 = .tc then {()} else ∅
/-- Barrier cells at 1, phase-1 receive cells at 2, phase-2 receive cells at 3, every other cell at 0. -/
def lv (g : GSem nD τ sig) (_ : Unit) : ℕ := match g.2 with
  | .reg _ => 1
  | .dma q => if 34 ≤ q.val ∧ q.val < 66 then 2 else if 98 ≤ q.val ∧ q.val < 130 then 3 else 0

theorem L_of_ne (g : GSem nD τ sig) (h : g.1.2 ≠ .tc) : L g = ∅ := if_neg h
theorem L_tc (c : Dev nD) (sm : SemLoc sig) : L ((c : Thread nD τ), sm) = {()} := if_pos rfl

/-- A one-cell tally is positive at that cell only. -/
theorem tallyAt_pos {g₀ g : GSem nD τ sig} {n : ℕ} {u : Unit} (h : 0 < tallyAt g₀ () n g u) : g = g₀ := by
  rw [tallyAt_apply] at h
  by_contra hn
  rw [if_neg (fun h' => hn h'.1)] at h
  exact Nat.lt_irrefl 0 h

/-- The phase-1 arrivals owed for a list of chunks are owed to phase-1 receive cells of the y-neighbour: by induction on
    the list, the head's tally being positive at its own cell only. -/
theorem owe1_pos {c : Dev nD} {l : List (Fin 32)} {g : GSem nD τ sig} {u : Unit} (h : 0 < owe1 c l g u) : ∃ k, g = p1r (yn c) k := by
  induction l with
  | nil => rw [owe1_nil] at h; exact absurd h (Nat.lt_irrefl 0)
  | cons j l ih =>
    rw [owe1_cons] at h
    rcases Pipeline.add_pos_cases h with h | h
    · exact ih h
    · exact ⟨j, tallyAt_pos h⟩
/-- Likewise the phase-2 arrivals, to phase-2 receive cells of the x-neighbour. -/
theorem owe2_pos {c : Dev nD} {l : List (Fin 32)} {g : GSem nD τ sig} {u : Unit} (h : 0 < owe2 c l g u) : ∃ k, g = p2r (xn c) k := by
  induction l with
  | nil => rw [owe2_nil] at h; exact absurd h (Nat.lt_irrefl 0)
  | cons j l ih =>
    rw [owe2_cons] at h
    rcases Pipeline.add_pos_cases h with h | h
    · exact ih h
    · exact ⟨j, tallyAt_pos h⟩

/-- The levels of the cells that are waited on or owed to. -/
theorem lv_p1r (c : Dev nD) (k : Fin 32) : lv (p1r c k) () = 2 := by
  have hv := semAt1_val k; have hk := k.isLt
  show (if 34 ≤ (semAt cc0_scratch1 k).val ∧ (semAt cc0_scratch1 k).val < 66 then 2
    else if 98 ≤ (semAt cc0_scratch1 k).val ∧ (semAt cc0_scratch1 k).val < 130 then 3 else 0) = 2
  rw [if_pos ⟨by omega, by omega⟩]
theorem lv_p2r (c : Dev nD) (k : Fin 32) : lv (p2r c k) () = 3 := by
  have hv := semAt3_val k; have hk := k.isLt
  show (if 34 ≤ (semAt cc0_scratch3 k).val ∧ (semAt cc0_scratch3 k).val < 66 then 2
    else if 98 ≤ (semAt cc0_scratch3 k).val ∧ (semAt cc0_scratch3 k).val < 130 then 3 else 0) = 3
  rw [if_neg (by omega), if_pos ⟨by omega, by omega⟩]
theorem lv_stage (c : Dev nD) (q : DmaSem sig) (hq : q.val < 2) : lv ((c : Thread nD τ), .dma q) () = 0 := by
  show (if 34 ≤ q.val ∧ q.val < 66 then 2 else if 98 ≤ q.val ∧ q.val < 130 then 3 else 0) = 0
  rw [if_neg (by omega), if_neg (by omega)]

theorem owe1_lv {c : Dev nD} {l : List (Fin 32)} {g : GSem nD τ sig} {u : Unit} (h : 0 < owe1 c l g u) : u ∈ L g ∧ lv g u = 2 := by
  obtain ⟨k, rfl⟩ := owe1_pos h
  exact ⟨by rw [L_tc]; exact Finset.mem_singleton_self _, lv_p1r (yn c) k⟩
theorem owe2_lv {c : Dev nD} {l : List (Fin 32)} {g : GSem nD τ sig} {u : Unit} (h : 0 < owe2 c l g u) : u ∈ L g ∧ lv g u = 3 := by
  obtain ⟨k, rfl⟩ := owe2_pos h
  exact ⟨by rw [L_tc]; exact Finset.mem_singleton_self _, lv_p2r (xn c) k⟩

/-- Everything owed at launch is owed to a cell with levels, at a level above 0: arrivals at 3 and 2, the two entry signals at 1. -/
theorem O₀_lv {c : Dev nD} {g : GSem nD τ sig} {u : Unit} (h : 0 < O₀ c g u) : u ∈ L g ∧ 0 < lv g u := by
  unfold O₀ at h
  rcases Pipeline.add_pos_cases h with h | h
  · rcases Pipeline.add_pos_cases h with h | h
    · rcases Pipeline.add_pos_cases h with h | h
      · exact ⟨(owe2_lv h).1, by rw [(owe2_lv h).2]; decide⟩
      · exact ⟨(owe1_lv h).1, by rw [(owe1_lv h).2]; decide⟩
    · rw [tallyAt_pos h]; exact ⟨by rw [L_tc]; exact Finset.mem_singleton_self _, Nat.one_pos⟩
  · rw [tallyAt_pos h]; exact ⟨by rw [L_tc]; exact Finset.mem_singleton_self _, Nat.one_pos⟩

/-- A wait on a staging semaphore (level 0) under what is owed at launch, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_lv hg).1)
      (fun p hp => by rw [Finset.mem_singleton.mp hp]; exact Nat.le_of_eq (lv_stage c q hq))
      (fun g u hg => (O₀_lv hg).2)
  · rw [MayWait_zero]; iintro -; iempintro
/-- The barrier wait: only arrivals are owed, all above level 1. -/
theorem mayWait_bar (c : Dev nD) :
    (levAts L lv : sProp 𝕄) ⊢ MayWait (c : Thread nD τ) (.reg barS) () (owe2 c chunks + owe1 c chunks) := by
  exact MayOwe.of_cut (L := L) (lev := lv) 1 (fun p hp => by rw [Finset.mem_singleton.mp hp, L_tc]; exact Finset.mem_singleton_self _)
    (fun g u hg => by rcases Pipeline.add_pos_cases hg with h | h; exacts [(owe2_lv h).1, (owe1_lv h).1])
    (fun p hp => by rw [Finset.mem_singleton.mp hp]; exact Nat.le_refl 1)
    (fun g u hg => by
      rcases Pipeline.add_pos_cases hg with h | h
      · rw [(owe2_lv h).2]; decide
      · rw [(owe1_lv h).2]; decide)
/-- A phase-1 receive wait: only phase-2 arrivals are owed, at level 3. -/
theorem mayWait_p1r (c : Dev nD) (k : Fin 32) (l : List (Fin 32)) :
    (levAts L lv : sProp 𝕄) ⊢ MayWait (c : Thread nD τ) (.dma (semAt cc0_scratch1 k)) () (owe2 c l) := by
  exact MayOwe.of_cut (L := L) (lev := lv) 2 (fun p hp => by rw [Finset.mem_singleton.mp hp, L_tc]; exact Finset.mem_singleton_self _)
    (fun g u hg => (owe2_lv hg).1)
    (fun p hp => by rw [Finset.mem_singleton.mp hp]; exact Nat.le_of_eq (lv_p1r c k))
    (fun g u hg => by rw [(owe2_lv hg).2]; decide)

/-! ## The invariants every device shares -/

/-- Every cell's invariant at its name, and that round 0 of every cell is reached. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records (F := F) m K) := by unfold records; infer_instance

theorem inv_at (K : Dev nD × CK → ℕ) (ck : Dev nD × CK) : records (F := F) m K ⊢ cellInv ER (sched m) (K ck) (kcell ck) := by
  unfold records; exact sep_elim_left.trans (bigSep_elim (Finset.mem_univ ck))
theorem reached_at (K : Dev nD × CK → ℕ) (ck : Dev nD × CK) : records (F := F) m K ⊢ reached ER (kcell ck) 0 := by
  unfold records; exact sep_elim_right.trans (bigSep_elim (Finset.mem_univ ck))

end Cert.Kernel.AG

end
-- ==== Proof.KAGData.lean ====
/-
  The pipeline's proof data for the all-gather's one region, and what one device's body starts from and ends
  with. A device starts holding: every cell's invariant; its positions at round 0 of its own 130 cells; the duty
  tokens of the duties IT pays (the two neighbours' barrier duties, its own send cells' and local copy's, the
  receive cells' of the chunks it sends); the credit of what the others owe it (two barrier units, the 64
  arrivals); the levels. It ends with its 129 own semaphores closed at zero; the staged `x` is unchanged and
  the staged result holds the gathered array.
-/
import proofs.«900097_g7700000000000098_dist_ag_v7x_xy2x2_y_m2048_n512_f32_1_alg».proof.Proof.KAGSched
import proofs.«900097_g7700000000000098_dist_ag_v7x_xy2x2_y_m2048_n512_f32_1_alg».proof.Proof.Gen.Kernel.Points
import proofs.«900097_g7700000000000098_dist_ag_v7x_xy2x2_y_m2048_n512_f32_1_alg».proof.Proof.Gen.Kernel.Frame

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => (Variants.none : Variants)

variable (m : (ℓ : Loc nD τ sig) → Buf (Elt F) ℓ)

/-- The kernel's own (scoped) semaphores: the local copy's and the 4 × 32 of the chunks. -/
abbrev OK : Type := Unit ⊕ (Fin 4 × Fin 32)
def osem : OK → SemLoc sig
  | .inl _ => csem (.inl 1)
  | .inr bk => csem (.inr bk)

/-- The duty tokens device `c` pays with. -/
def payToks (c : Dev nD) : sProp 𝕄 :=
  iprop(dutyTok ER (barCell (yn c)) 0 false ∗ dutyTok ER (barCell (xn c)) 0 true ∗ dutyTok ER (locCell c) 0 false
    ∗ bigSep Finset.univ fun k : Fin 32 => iprop(dutyTok ER (p1s c k) 0 false ∗ dutyTok ER (p1r (yn c) k) 0 false
        ∗ dutyTok ER (p2s c k) 0 false ∗ dutyTok ER (p2r (xn c) k) 0 false))

/-- Its positions at round 0 of its own cells, and those tokens. -/
def linear (c : Dev nD) : sProp 𝕄 :=
  iprop((bigSep Finset.univ fun x : CK => atPos ER (kcell (c, x)) 0 ∅ 0) ∗ payToks c)

/-- The protocol's ghost state on device `c`, at the names `K`. -/
def ghost (K : Dev nD × CK → ℕ) (c : Dev nD) : sProp 𝕄 := iprop(records m K ∗ linear c)

/-- What the others owe `c` from launch, as credit: its barrier's two units, the 64 arrivals. -/
def creds (c : Dev nD) : sProp 𝕄 :=
  iprop(cred (tallyAt (barCell c) () 2)
    ∗ bigSep Finset.univ fun k : Fin 32 => iprop(cred (tallyAt (p1r c k) () N) ∗ cred (tallyAt (p2r c k) () N)))

/-- What device `c`'s body starts from. -/
def start (c : Dev nD) : sProp 𝕄 := iprop((∃ K, ghost m K c) ∗ creds (F := F) c ∗ levAts L lv)

def Φ₀ (c : Dev nD) : sProp 𝕄 := start m c
/-- After the point: the own semaphores at zero. -/
def Φ₁ (c : Dev nD) : sProp 𝕄 := Pipeline.ownSems0 osem c

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outFinal m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outFinal m c))

end Cert.Kernel.AG

end
-- ==== Proof.KAGValue.lean ====
/-
  The values the copies land. Every copy of the kernel moves rows of one staged block to the rows of the
  result that the gathered array assigns them: read at an index, the destination rewritten by the copy
  agrees with the gathered array `outFinal` on the copy's rows. Also here: which rows each view covers
  (the views of one chunk named from its two ends are one set of rows), that the views the result buffer is
  cut into are pairwise disjoint and cover it, and that the gathered array is the whole argument when every
  device's block is its block of it.
-/
import proofs.«900097_g7700000000000098_dist_ag_v7x_xy2x2_y_m2048_n512_f32_1_alg».proof.Proof.KAGContents
import Idealize.ShloMosaic.Lib.Pipeline.Value
import Idealize.ShloMosaic.Lib.Layout

noncomputable section

namespace Cert.Kernel.AG

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-! ## The rows of the views -/

/-- The row offset `c` sends chunk `k` to is the one `yn c` waits for it at. -/
theorem off1_eq_off4 (c : Dev nD) (k : Fin 32) :
    k0_off1 c (BitVec.ofNat 32 (32 * k.val)) = k0_off4 (yn c) (BitVec.ofNat 32 (32 * k.val)) := by
  rw [k0_off1_eq, k0_off4_eq]
  have hk := k.isLt
  fin_cases c <;> simp [yn] <;> omega

/-- The row offset `c` forwards chunk `k` to is the one `xn c` waits for it at. -/
theorem off4_eq_off5 (c : Dev nD) (k : Fin 32) :
    k0_off4 c (BitVec.ofNat 32 (32 * k.val)) = k0_off5 (xn c) (BitVec.ofNat 32 (32 * k.val)) := by
  rw [k0_off4_eq, k0_off5_eq]
  have hk := k.isLt
  fin_cases c <;> simp [xn] <;> omega
/-- The rows of a slice of the result buffer are its rectangle. -/
theorem oS1_rect (c : Dev nD) (k : Fin 32) : (oS1 c k).view.set
    = (Rect.unit (s := S4096x512) (k0_off1 c (BitVec.ofNat 32 (32 * k.val))) S32x512.size (k0_off1_inb c k)).set :=
  View.set_slice_whole cc0_stg1_0 _
theorem oS4_rect (c : Dev nD) (k : Fin 32) : (oS4 c k).view.set
    = (Rect.unit (s := S4096x512) (k0_off4 c (BitVec.ofNat 32 (32 * k.val))) S32x512.size (k0_off4_inb c k)).set :=
  View.set_slice_whole cc0_stg1_0 _
theorem oS5_rect (c : Dev nD) (k : Fin 32) : (oS5 c k).view.set
    = (Rect.unit (s := S4096x512) (k0_off5 c (BitVec.ofNat 32 (32 * k.val))) S32x512.size (k0_off5_inb c k)).set :=
  View.set_slice_whole cc0_stg1_0 _
theorem oL_rect (c : Dev nD) : (oL c).view.set
    = (Rect.unit (s := S4096x512) (k0_off3 c) S2048x512.size (k0_off3_inb c)).set :=
  View.set_slice_whole cc0_stg1_0 _
theorem xS_rect (c : Dev nD) (k : Fin 32) : (xS c k).view.set
    = (Rect.unit (s := S2048x512) (k0_off2 c (BitVec.ofNat 32 (32 * k.val))) S32x512.size (k0_off2_inb c k)).set :=
  View.set_slice_whole cc0_stg0_0 _

/-- Chunk `k` sent by `c` lands on the rows `yn c` waits for it at. -/
theorem oS1_set (c : Dev nD) (k : Fin 32) : (oS1 c k).view.set = (oS4 (yn c) k).view.set := by
  rw [oS1_rect, oS4_rect, Rect.unit_congr (off1_eq_off4 c k) (k0_off1_inb c k) (k0_off4_inb (yn c) k)]
/-- Chunk `k` forwarded by `c` lands on the rows `xn c` waits for it at. -/
theorem oS4_set (c : Dev nD) (k : Fin 32) : (oS4 c k).view.set = (oS5 (xn c) k).view.set := by
  rw [oS4_rect, oS5_rect, Rect.unit_congr (off4_eq_off5 c k) (k0_off4_inb c k) (k0_off5_inb (xn c) k)]

/-! ## Membership in a band of rows -/

/-- A full-width band of `n` rows from row `lo`: membership is the row's range. -/
theorem mem_rows {N n lo : Nat} {off : Fin 2 → Nat} (h0 : off = ![lo, 0])
    (inb : ∀ a, off a + (⟨2, ![n, 512]⟩ : Shape).size a ≤ (⟨2, ![N, 512]⟩ : Shape).size a)
    (i : (⟨2, ![N, 512]⟩ : Shape).Idx) :
    i ∈ (Rect.unit (s := ⟨2, ![N, 512]⟩) off (⟨2, ![n, 512]⟩ : Shape).size inb).set
      ↔ lo ≤ (i 0).val ∧ (i 0).val < lo + n := by
  subst h0
  have h1 : (i 1).val < 512 := (i 1).isLt
  rw [Rect.mem_set_unit, Fin.forall_fin_two]
  constructor
  · rintro ⟨⟨a, b⟩, -⟩; exact ⟨a, b⟩
  · rintro ⟨a, b⟩; exact ⟨⟨a, b⟩, Nat.zero_le _, by show (i 1).val < 0 + 512; omega⟩

theorem mem_oL (c : Dev nD) (i : S4096x512.Idx) :
    i ∈ (oL c).view.set ↔ 2048 * (c.val % 2) ≤ (i 0).val ∧ (i 0).val < 2048 * (c.val % 2) + 2048 := by
  rw [oL_rect]; exact mem_rows (k0_off3_eq c) _ i
theorem mem_oS4 (c : Dev nD) (k : Fin 32) (i : S4096x512.Idx) :
    i ∈ (oS4 c k).view.set ↔ (1024 * (c.val / 2) + 32 * k.val + 2048) - 2048 * (c.val % 2) ≤ (i 0).val
      ∧ (i 0).val < (1024 * (c.val / 2) + 32 * k.val + 2048) - 2048 * (c.val % 2) + 32 := by
  rw [oS4_rect]; exact mem_rows (k0_off4_eq c k) _ i
theorem mem_oS5 (c : Dev nD) (k : Fin 32) (i : S4096x512.Idx) :
    i ∈ (oS5 c k).view.set ↔ (32 * k.val + 3072) - (2048 * (c.val % 2) + 1024 * (c.val / 2)) ≤ (i 0).val
      ∧ (i 0).val < (32 * k.val + 3072) - (2048 * (c.val % 2) + 1024 * (c.val / 2)) + 32 := by
  rw [oS5_rect]; exact mem_rows (k0_off5_eq c k) _ i
theorem mem_xS (c : Dev nD) (k : Fin 32) (i : S2048x512.Idx) :
    i ∈ (xS c k).view.set ↔ 1024 * (c.val / 2) + 32 * k.val ≤ (i 0).val
      ∧ (i 0).val < 1024 * (c.val / 2) + 32 * k.val + 32 := by
  rw [xS_rect]; exact mem_rows (k0_off2_eq c k) _ i

/-- The pieces the result buffer of device `c` is cut into: its own block's place, the 32 chunks from
    `yn c`, the 32 chunks from `xn c`. -/
def piece (c : Dev nD) : Unit ⊕ (Bool × Fin 32) → Finset (oM.view.ty.Idx)
  | .inl _ => (oL c).view.set
  | .inr (false, k) => (oS4 c k).view.set
  | .inr (true, k) => (oS5 c k).view.set

theorem piece_disjoint (c : Dev nD) (t t' : Unit ⊕ (Bool × Fin 32)) (h : t ≠ t') : Disjoint (piece c t) (piece c t') := by
  rw [Finset.disjoint_left]
  intro i h1 h2
  have hc : c.val < 4 := c.isLt
  have hx : c.val / 2 = 0 ∨ c.val / 2 = 1 := by omega
  have hy : c.val % 2 = 0 ∨ c.val % 2 = 1 := by omega
  rcases t with u | ⟨b, k⟩ <;> rcases t' with u' | ⟨b', k'⟩
  · exact h rfl
  · have a1 := (mem_oL c i).mp h1
    have hk' := k'.isLt
    cases b'
    · have a2 := (mem_oS4 c k' i).mp h2
      rcases hx with hx | hx <;> rcases hy with hy | hy <;> simp only [hx, hy] at a1 a2 <;> omega
    · have a2 := (mem_oS5 c k' i).mp h2
      rcases hx with hx | hx <;> rcases hy with hy | hy <;> simp only [hx, hy] at a1 a2 <;> omega
  · have a2 := (mem_oL c i).mp h2
    have hk := k.isLt
    cases b
    · have a1 := (mem_oS4 c k i).mp h1
      rcases hx with hx | hx <;> rcases hy with hy | hy <;> simp only [hx, hy] at a1 a2 <;> omega
    · have a1 := (mem_oS5 c k i).mp h1
      rcases hx with hx | hx <;> rcases hy with hy | hy <;> simp only [hx, hy] at a1 a2 <;> omega
  · have hk := k.isLt
    have hk' := k'.isLt
    cases b <;> cases b'
    · have a1 := (mem_oS4 c k i).mp h1
      have a2 := (mem_oS4 c k' i).mp h2
      have : k.val ≠ k'.val := fun e => h (by rw [Fin.ext e])
      omega
    · have a1 := (mem_oS4 c k i).mp h1
      have a2 := (mem_oS5 c k' i).mp h2
      rcases hx with hx | hx <;> rcases hy with hy | hy <;> simp only [hx, hy] at a1 a2 <;> omega
    · have a1 := (mem_oS5 c k i).mp h1
      have a2 := (mem_oS4 c k' i).mp h2
      rcases hx with hx | hx <;> rcases hy with hy | hy <;> simp only [hx, hy] at a1 a2 <;> omega
    · have a1 := (mem_oS5 c k i).mp h1
      have a2 := (mem_oS5 c k' i).mp h2
      have : k.val ≠ k'.val := fun e => h (by rw [Fin.ext e])
      omega

/-- Every row of the result buffer lies in one of the pieces. -/
theorem exists_piece (c : Dev nD) (i : S4096x512.Idx) : ∃ t, i ∈ piece c t := by
  have hi : (i 0).val < 4096 := (i 0).isLt
  have hc : c.val < 4 := c.isLt
  have hx : c.val / 2 = 0 ∨ c.val / 2 = 1 := by omega
  have hy : c.val % 2 = 0 ∨ c.val % 2 = 1 := by omega
  have hk : (i 0).val % 1024 / 32 < 32 := by omega
  by_cases h1 : (i 0).val / 2048 = c.val % 2
  · exact ⟨.inl (), (mem_oL c i).mpr (by omega)⟩
  · by_cases h2 : ((i 0).val % 2048) / 1024 = c.val / 2
    · refine ⟨.inr (false, ⟨(i 0).val % 1024 / 32, hk⟩), (mem_oS4 c ⟨(i 0).val % 1024 / 32, hk⟩ i).mpr ?_⟩
      show _ ≤ (i 0).val ∧ (i 0).val < _
      rcases hx with hx | hx <;> rcases hy with hy | hy <;> simp only [hx, hy] at h1 h2 ⊢ <;> omega
    · refine ⟨.inr (true, ⟨(i 0).val % 1024 / 32, hk⟩), (mem_oS5 c ⟨(i 0).val % 1024 / 32, hk⟩ i).mpr ?_⟩
      show _ ≤ (i 0).val ∧ (i 0).val < _
      rcases hx with hx | hx <;> rcases hy with hy | hy <;> simp only [hx, hy] at h1 h2 ⊢ <;> omega

theorem piece_cover (c : Dev nD) : Finset.univ.biUnion (piece c) = (Finset.univ : Finset (oM.view.ty.Idx)) := by
  rw [Finset.eq_univ_iff_forall]
  intro i
  obtain ⟨t, ht⟩ := exists_piece c i
  exact Finset.mem_biUnion.mpr ⟨t, Finset.mem_univ _, ht⟩

/-- The chunks of the half of `x` sent along y are disjoint row ranges. -/
theorem xS_disjoint (c : Dev nD) (k k' : Fin 32) (h : k ≠ k') : Disjoint (xS c k).view.set (xS c k').view.set := by
  rw [Finset.disjoint_left]
  intro i h1 h2
  have a1 := (mem_xS c k i).mp h1
  have a2 := (mem_xS c k' i).mp h2
  have : k.val ≠ k'.val := fun e => h (Fin.ext e)
  omega

/-! ## The neighbours' coordinates -/

theorem yn_coords (c : Dev nD) : (yn c).val % 2 = 1 - c.val % 2 ∧ (yn c).val / 2 = c.val / 2 := by revert c; decide
theorem xn_coords (c : Dev nD) : (xn c).val % 2 = c.val % 2 ∧ (xn c).val / 2 = 1 - c.val / 2 := by revert c; decide

/-! ## The gathered array at a row of each kind -/

/-- A row of the device's own y is its own block's. -/
theorem outFinal_own (c : Dev nD) (i : S4096x512.Idx) (j : S2048x512.Idx)
    (h0 : (i 0).val = 2048 * (c.val % 2) + (j 0).val) (h1 : i 1 = j 1) : outFinal m c i = xstg m c j := by
  have hj0 := ValueIdx.idx2_lt0 j
  have hj : ValueIdx.ix2 (⟨(i 0).val % 2048, Nat.mod_lt _ (by decide)⟩ : Fin 2048) (i 1) = j := by
    funext a
    match a with
    | ⟨0, _⟩ => exact Fin.ext (by show (i 0).val % 2048 = (j 0).val; omega)
    | ⟨1, _⟩ => exact h1
  simp only [outFinal]
  rw [if_pos (by omega)]
  exact congrArg (xstg m c) hj

/-- A row of the other y in the half of the device's own x is the block of `yn c`'s. -/
theorem outFinal_y (c : Dev nD) (i : S4096x512.Idx) (j : S2048x512.Idx)
    (h0 : (i 0).val = 2048 * (1 - c.val % 2) + (j 0).val) (hx : (j 0).val / 1024 = c.val / 2) (h1 : i 1 = j 1) :
    outFinal m c i = xstg m (yn c) j := by
  have hj0 := ValueIdx.idx2_lt0 j
  have hj : ValueIdx.ix2 (⟨(i 0).val % 2048, Nat.mod_lt _ (by decide)⟩ : Fin 2048) (i 1) = j := by
    funext a
    match a with
    | ⟨0, _⟩ => exact Fin.ext (by show (i 0).val % 2048 = (j 0).val; omega)
    | ⟨1, _⟩ => exact h1
  simp only [outFinal]
  rw [if_neg (by omega), if_pos (by omega)]
  exact congrArg (xstg m (yn c)) hj

/-- A row of the other y in the other half is the block of `yn (xn c)`'s. -/
theorem outFinal_xy (c : Dev nD) (i : S4096x512.Idx) (j : S2048x512.Idx)
    (h0 : (i 0).val = 2048 * (1 - c.val % 2) + (j 0).val) (hx : (j 0).val / 1024 ≠ c.val / 2) (h1 : i 1 = j 1) :
    outFinal m c i = xstg m (yn (xn c)) j := by
  have hj0 := ValueIdx.idx2_lt0 j
  have hj : ValueIdx.ix2 (⟨(i 0).val % 2048, Nat.mod_lt _ (by decide)⟩ : Fin 2048) (i 1) = j := by
    funext a
    match a with
    | ⟨0, _⟩ => exact Fin.ext (by show (i 0).val % 2048 = (j 0).val; omega)
    | ⟨1, _⟩ => exact h1
  simp only [outFinal]
  rw [if_neg (by omega), if_neg (by omega)]
  exact congrArg (xstg m (yn (xn c))) hj

/-! ## Where a slice's index sits -/

theorem oS1_emb0 (c : Dev nD) (k : Fin 32) (y : S32x512.Idx) :
    (((oS1 c k).view.emb y) 0).val = 2048 * (c.val % 2) + 1024 * (c.val / 2) + 32 * k.val + (y 0).val := by
  have h : (((oS1 c k).view.emb y) 0).val = k0_off1 c (BitVec.ofNat 32 (32 * k.val)) 0 + 1 * (y 0).val := rfl
  rw [h, k0_off1_eq]; simp
theorem oS1_emb1 (c : Dev nD) (k : Fin 32) (y : S32x512.Idx) : (((oS1 c k).view.emb y) 1).val = (y 1).val := by
  have h : (((oS1 c k).view.emb y) 1).val = k0_off1 c (BitVec.ofNat 32 (32 * k.val)) 1 + 1 * (y 1).val := rfl
  rw [h, k0_off1_eq]; simp
theorem oS4_emb0 (c : Dev nD) (k : Fin 32) (y : S32x512.Idx) :
    (((oS4 c k).view.emb y) 0).val = (1024 * (c.val / 2) + 32 * k.val + 2048) - 2048 * (c.val % 2) + (y 0).val := by
  have h : (((oS4 c k).view.emb y) 0).val = k0_off4 c (BitVec.ofNat 32 (32 * k.val)) 0 + 1 * (y 0).val := rfl
  rw [h, k0_off4_eq]; simp
theorem oS4_emb1 (c : Dev nD) (k : Fin 32) (y : S32x512.Idx) : (((oS4 c k).view.emb y) 1).val = (y 1).val := by
  have h : (((oS4 c k).view.emb y) 1).val = k0_off4 c (BitVec.ofNat 32 (32 * k.val)) 1 + 1 * (y 1).val := rfl
  rw [h, k0_off4_eq]; simp
theorem xS_emb0 (c : Dev nD) (k : Fin 32) (y : S32x512.Idx) :
    (((xS c k).view.emb y) 0).val = 1024 * (c.val / 2) + 32 * k.val + (y 0).val := by
  have h : (((xS c k).view.emb y) 0).val = k0_off2 c (BitVec.ofNat 32 (32 * k.val)) 0 + 1 * (y 0).val := rfl
  rw [h, k0_off2_eq]; simp
theorem xS_emb1 (c : Dev nD) (k : Fin 32) (y : S32x512.Idx) : (((xS c k).view.emb y) 1).val = (y 1).val := by
  have h : (((xS c k).view.emb y) 1).val = k0_off2 c (BitVec.ofNat 32 (32 * k.val)) 1 + 1 * (y 1).val := rfl
  rw [h, k0_off2_eq]; simp
theorem oL_emb0 (c : Dev nD) (y : S2048x512.Idx) : (((oL c).view.emb y) 0).val = 2048 * (c.val % 2) + (y 0).val := by
  have h : (((oL c).view.emb y) 0).val = k0_off3 c 0 + 1 * (y 0).val := rfl
  rw [h, k0_off3_eq]; simp
theorem oL_emb1 (c : Dev nD) (y : S2048x512.Idx) : (((oL c).view.emb y) 1).val = (y 1).val := by
  have h : (((oL c).view.emb y) 1).val = k0_off3 c 1 + 1 * (y 1).val := rfl
  rw [h, k0_off3_eq]; simp

/-! ## What each copy lands -/

/-- Phase 1: chunk `k` of `c`'s block, landed on `yn c`, is the gathered array's there. -/
theorem land1 (c : Dev nD) (k : Fin 32) (fd : Buf (Elt F) ((oS1 c k).view.loc (Dev.tc (yn c) : Thread nD τ))) :
    ∀ i ∈ (oS1 c k).view.set,
      (oS1 c k).view.write (Elt F) fd ((xS c k).view.read (Elt F) (xstg m c)) Finset.univ i = outFinal m (yn c) i := by
  intro i hi
  obtain ⟨y, rfl⟩ := View.exists_emb_of_mem_set (oS1 c k).view hi
  rw [View.write_emb_of_mem _ _ (Finset.mem_univ y), View.read_apply, cast_cast, cast_eq]
  have hy := ValueIdx.idx2_lt0 y
  have hk := k.isLt
  have e0 := oS1_emb0 c k y
  have e1 := oS1_emb1 c k y
  have x0 := xS_emb0 c k y
  have x1 := xS_emb1 c k y
  have hc := yn_coords c
  have hcl : c.val < 4 := c.isLt
  rw [outFinal_y m (yn c) _ ((xS c k).view.emb y) (by rw [e0, x0, hc.1]; omega) (by rw [x0, hc.2]; omega)
    (Fin.ext (by rw [e1, x1])), yn_yn]

/-- Phase 2: chunk `k` of the gathered array on `c`, forwarded to `xn c`, is the gathered array's there. -/
theorem land2 (c : Dev nD) (k : Fin 32) (fd : Buf (Elt F) ((oS4 c k).view.loc (Dev.tc (xn c) : Thread nD τ))) :
    ∀ i ∈ (oS4 c k).view.set,
      (oS4 c k).view.write (Elt F) fd ((oS4 c k).view.read (Elt F) (outFinal m c)) Finset.univ i = outFinal m (xn c) i := by
  intro i hi
  obtain ⟨y, rfl⟩ := View.exists_emb_of_mem_set (oS4 c k).view hi
  rw [View.write_emb_of_mem _ _ (Finset.mem_univ y), View.read_apply, cast_cast, cast_eq]
  have hy := ValueIdx.idx2_lt0 y
  have hk := k.isLt
  have e0 := oS4_emb0 c k y
  have hc := xn_coords c
  have hcl : c.val < 4 := c.isLt
  -- the row of the block of `yn c` this element is
  let j : S2048x512.Idx := ValueIdx.ix2 (⟨1024 * (c.val / 2) + 32 * k.val + (y 0).val, by omega⟩ : Fin 2048) ((oS4 c k).view.emb y 1)
  have hj0 : (j 0).val = 1024 * (c.val / 2) + 32 * k.val + (y 0).val := rfl
  have hj1 : (oS4 c k).view.emb y 1 = j 1 := rfl
  rw [outFinal_y m c _ j (by rw [e0, hj0]; omega) (by rw [hj0]; omega) hj1,
    outFinal_xy m (xn c) _ j (by rw [e0, hj0, hc.1]; omega) (by rw [hj0, hc.2]; omega) hj1, xn_xn]

/-- The local copy: the device's own block at its own place is the gathered array's. -/
theorem landL (c : Dev nD) (fd : Buf (Elt F) ((oL c).view.loc (Dev.tc c : Thread nD τ))) :
    ∀ i ∈ (oL c).view.set,
      (oL c).view.write (Elt F) fd (xM.view.read (Elt F) (xstg m c)) Finset.univ i = outFinal m c i := by
  intro i hi
  obtain ⟨y, rfl⟩ := View.exists_emb_of_mem_set (oL c).view hi
  rw [View.write_emb_of_mem _ _ (Finset.mem_univ y), View.read_apply, cast_cast, cast_eq]
  have e0 := oL_emb0 c y
  have e1 := oL_emb1 c y
  exact (outFinal_own m c _ y e0 (Fin.ext e1)).symm

/-! ## The gathered array is the whole argument -/

/-- The staged block is the device's argument array: the block read is the whole array's. -/
theorem xstg_eq (c : Dev nD) : xstg m c = m ((c : Thread nD τ).loc main_arg0) :=
  Memref.read_access_unit_zero (Elt F) main_arg0 (funext fun a => Nat.zero_mul _) _ _

/-- Along the rows the device's block of the whole array is block `c % 2`; along the columns there is one block. -/
theorem meshRow (c : Dev nD) : ((Layout.meshBlock [2, 2] ![[1], []] c) 0).val = c.val % 2 := by revert c; decide
theorem meshCol (c : Dev nD) : ((Layout.meshBlock [2, 2] ![[1], []] c) 1).val = 0 := by revert c; decide

/-- If every device's argument array is its block (along y) of one whole array `X`, the gathered array on
    every device is `X`. -/
theorem outFinal_whole (X : (⟨2, ![4096, 512]⟩ : Shape).Idx → Elt F .f32)
    (h : ∀ c : Dev nD, m ((c.tc : Thread nD τ).loc main_arg0)
      = Layout.blockN ⟨2, ![2048, 512]⟩ ⟨2, ![4096, 512]⟩ (Layout.meshBlock [2, 2] ![[1], []] c) X)
    (c : Dev nD) : outFinal m c = X := by
  funext i
  have hi : (i 0).val < 4096 := (i 0).isLt
  have hc : c.val < 4 := c.isLt
  -- a row of device `d`'s block is the row of the whole array 2048 (d % 2) further down
  have key : ∀ (d : Dev nD) (j : S2048x512.Idx), (i 0).val = 2048 * (d.val % 2) + (j 0).val → i 1 = j 1 →
      xstg m d j = X i := by
    intro d j h0 h1
    rw [xstg_eq, h d, Layout.blockN_apply]
    congr 1
    funext b
    match b with
    | ⟨0, _⟩ =>
      apply Fin.ext
      rw [Layout.TilesN.idx_val]
      show ((Layout.meshBlock [2, 2] ![[1], []] d) 0).val * 2048 + (j 0).val = (i 0).val
      rw [meshRow]; omega
    | ⟨1, _⟩ =>
      apply Fin.ext
      rw [Layout.TilesN.idx_val]
      show ((Layout.meshBlock [2, 2] ![[1], []] d) 1).val * 512 + (j 1).val = (i 1).val
      rw [meshCol, h1]; omega
  let j : S2048x512.Idx := ValueIdx.ix2 (⟨(i 0).val % 2048, Nat.mod_lt _ (by decide)⟩ : Fin 2048) (i 1)
  have hj0 : (j 0).val = (i 0).val % 2048 := rfl
  have hj1 : i 1 = j 1 := rfl
  by_cases h1 : (i 0).val / 2048 = c.val % 2
  · have e0 : (i 0).val = 2048 * (c.val % 2) + (j 0).val := by rw [hj0]; omega
    rw [outFinal_own m c i j e0 hj1]
    exact key c j e0 hj1
  · by_cases h2 : ((i 0).val % 2048) / 1024 = c.val / 2
    · rw [outFinal_y m c i j (by rw [hj0]; omega) (by rw [hj0]; exact h2) hj1]
      exact key (yn c) j (by rw [(yn_coords c).1, hj0]; omega) hj1
    · rw [outFinal_xy m c i j (by rw [hj0]; omega) (by rw [hj0]; exact h2) hj1]
      exact key (yn (xn c)) j (by rw [(yn_coords (xn c)).1, (xn_coords c).1, hj0]; omega) hj1

end Cert.Kernel.AG

end
-- ==== Proof.KAGGlue.lean ====
/-
  Cutting and rejoining what one device holds: its result buffer into the own block's place and the 64
  chunk places (which the entry signals hand to the neighbours), its staged `x` into two half shares and the
  left one into the 32 chunks sent along y; its positions cell by cell; and, at the end, its own cells closed.
-/
import proofs.«900097_g7700000000000098_dist_ag_v7x_xy2x2_y_m2048_n512_f32_1_alg».proof.Proof.KAGData
import proofs.«900097_g7700000000000098_dist_ag_v7x_xy2x2_y_m2048_n512_f32_1_alg».proof.Proof.KAGValue

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem chunks_univ : (Finset.univ : Finset (Fin 32)) = chunks.toFinset := by
  ext x; simp [chunks]
theorem chunks_nodup : chunks.Nodup := List.nodup_finRange 32
/-- Over all 32 chunks, the set's product is the list's chain. -/
theorem toL (Φ : Fin 32 → sProp 𝕄) : bigSep Finset.univ Φ = bigSepL chunks Φ :=
  bigSep_univ_eq_bigSepL chunks chunks_univ chunks_nodup Φ

/-! ## The result buffer -/

/-- The result buffer of `c` at contents `f` is its own block's place, the 32 places of `yn c`'s chunks and the
    32 places of the chunks `xn c` forwards, each at `f`. -/
theorem out_pieces (c : Dev nD) (f : Buf (Elt F) ((c : Thread nD τ).loc cc0_stg1_0)) :
    (((c : Thread nD τ).loc cc0_stg1_0) ↦{fullShare} f : sProp 𝕄)
      = iprop((((c : Thread nD τ).loc cc0_stg1_0) ↦[(oL c).view.set]{fullShare} f)
          ∗ (bigSep Finset.univ fun k : Fin 32 => (((c : Thread nD τ).loc cc0_stg1_0) ↦[(oS4 c k).view.set]{fullShare} f))
          ∗ (bigSep Finset.univ fun k : Fin 32 => (((c : Thread nD τ).loc cc0_stg1_0) ↦[(oS5 c k).view.set]{fullShare} f))) := by
  have h := pointsTo_biUnion (Val := Elt F) (ℓ := (c : Thread nD τ).loc cc0_stg1_0) (q := fullShare) (f := f)
    (Ix := Unit) (Name := ℕ) (U := UU) (Lvl := ℕ)
    (Finset.univ : Finset (Unit ⊕ (Bool × Fin 32))) (piece c) (fun t _ t' _ hne => piece_disjoint c t t' hne)
  rw [piece_cover c] at h
  rw [h, bigSep_univ_sum, bigSep_univ_of_subsingleton (i := ()), bigSep_univ_prod, bigSep_univ_eq_bigSepL [false, true] (by decide) (by decide)]
  simp only [bigSepL_cons_cons, bigSepL_singleton]
  rfl

/-! ## The staged block of x -/

/-- The 32 chunks sent along y, out of the left half share of `x`; the rest of that share stays. -/
theorem x_pieces (c : Dev nD) :
    ∃ Rst : Finset (Idx ((c : Thread nD τ).loc cc0_stg0_0)),
      (((c : Thread nD τ).loc cc0_stg0_0) ↦{qL} xstg m c : sProp 𝕄)
        = iprop((bigSep Finset.univ fun k : Fin 32 => sendPay1 m c k) ∗ (((c : Thread nD τ).loc cc0_stg0_0) ↦[Rst]{qL} xstg m c)) := by
  refine ⟨Finset.univ \ (Finset.univ : Finset (Fin 32)).biUnion (fun k => (xS c k).view.set), ?_⟩
  have h1 := pointsTo_split_subset (Val := Elt F) (ℓ := (c : Thread nD τ).loc cc0_stg0_0) (q := qL) (f := xstg m c)
    (Ix := Unit) (Name := ℕ) (U := UU) (Lvl := ℕ)
    (Finset.subset_univ ((Finset.univ : Finset (Fin 32)).biUnion (fun k => (xS c k).view.set)))
  rw [BI.equiv_iff.mp ⟨h1.1, h1.2⟩,
    pointsTo_biUnion (Val := Elt F) (ℓ := (c : Thread nD τ).loc cc0_stg0_0) (q := qL) (f := xstg m c) (Ix := Unit) (Name := ℕ) (U := UU) (Lvl := ℕ)
      (Finset.univ : Finset (Fin 32)) (fun k => (xS c k).view.set) (fun t _ t' _ hne => xS_disjoint c t t' hne)]
  rfl

/-! ## The landing places handed over at entry -/

/-- The places on `c` where the chunks of `d = yn c` land are what `c`'s entry signal hands `d`. -/
theorem barPayY_of (c d : Dev nD) (h : yn d = c) :
    (bigSep Finset.univ fun k : Fin 32 => iprop(∃ f, ((c : Thread nD τ).loc cc0_stg1_0) ↦[(oS4 c k).view.set]{fullShare} f) : sProp 𝕄)
      ⊢ barPayY (F := F) d := by
  subst h
  unfold barPayY
  refine Entails.of_eq (bigSep_congr fun k _ => ?_)
  rw [oS1_set d k]

/-- The places on `c` where the chunks forwarded by `d = xn c` land are what `c`'s entry signal hands `d`. -/
theorem barPayX_of (c d : Dev nD) (h : xn d = c) :
    (bigSep Finset.univ fun k : Fin 32 => iprop(∃ f, ((c : Thread nD τ).loc cc0_stg1_0) ↦[(oS5 c k).view.set]{fullShare} f) : sProp 𝕄)
      ⊢ barPayX (F := F) d := by
  subst h
  unfold barPayX
  refine Entails.of_eq (bigSep_congr fun k _ => ?_)
  rw [oS4_set d k]

/-! ## The cells one by one -/

/-- A product over the device's cells: the barrier's, the local copy's, and the four arrays' chunk by chunk. -/
theorem bigSep_cells (Φ : CK → sProp 𝕄) :
    bigSep Finset.univ Φ = iprop((Φ (.inl 0) ∗ Φ (.inl 1))
      ∗ (bigSep Finset.univ fun k : Fin 32 => Φ (.inr (0, k))) ∗ (bigSep Finset.univ fun k : Fin 32 => Φ (.inr (1, k)))
      ∗ (bigSep Finset.univ fun k : Fin 32 => Φ (.inr (2, k))) ∗ (bigSep Finset.univ fun k : Fin 32 => Φ (.inr (3, k)))) := by
  rw [bigSep_univ_sum, bigSep_univ_two, bigSep_univ_prod, bigSep_univ_eq_bigSepL [(0 : Fin 4), 1, 2, 3] (by decide) (by decide)]
  simp only [bigSepL_cons_cons, bigSepL_singleton]
  rfl

/-- The same over the device's own (scoped) cells. -/
theorem bigSep_OK (Φ : OK → sProp 𝕄) :
    bigSep Finset.univ Φ = iprop(Φ (.inl ())
      ∗ (bigSep Finset.univ fun k : Fin 32 => Φ (.inr (0, k))) ∗ (bigSep Finset.univ fun k : Fin 32 => Φ (.inr (1, k)))
      ∗ (bigSep Finset.univ fun k : Fin 32 => Φ (.inr (2, k))) ∗ (bigSep Finset.univ fun k : Fin 32 => Φ (.inr (3, k)))) := by
  rw [bigSep_univ_sum, bigSep_univ_of_subsingleton (i := ()), bigSep_univ_prod, bigSep_univ_eq_bigSepL [(0 : Fin 4), 1, 2, 3] (by decide) (by decide)]
  simp only [bigSepL_cons_cons, bigSepL_singleton]
  rfl

/-- Every own cell, its one round over, closes: its counter at zero is the device's again. -/
theorem close_own (K : Dev nD × CK → ℕ) (c : Dev nD) :
    iprop(records m K ∗ bigSep Finset.univ fun x : OK => atPos ER ((c : Thread nD τ), osem x) 1 ∅ 0)
      ⊢ (|={Set.univ}=> Pipeline.ownSems0 osem c : sProp 𝕄) := by
  unfold Pipeline.ownSems0
  refine (bigSep_with_persistent (R := records m K) (Ψ := fun x : OK => iprop(|={Set.univ}=> semVal ((c : Thread nD τ), osem x) 0)) fun x _ => ?_).trans (bigSep_fupd _ _)
  cases x with
  | inl u =>
    iintro ⟨#Hr, Hat⟩
    iapply (Rounds.cell_close ER (sched m) (Set.mem_univ (K (c, .inl 1))) (fun h => h) (R := 0 + 1) (duties_later m (kcell (c, .inl 1))))
    isplitr
    · iapply (inv_at m K (c, .inl 1)); iexact Hr
    · iexact Hat
  | inr bk =>
    iintro ⟨#Hr, Hat⟩
    iapply (Rounds.cell_close ER (sched m) (Set.mem_univ (K (c, .inr bk))) (fun h => h) (R := 0 + 1) (duties_later m (kcell (c, .inr bk))))
    isplitr
    · iapply (inv_at m K (c, .inr bk)); iexact Hr
    · iexact Hat

end Cert.Kernel.AG

end
-- ==== Proof.KAGSteps1.lean ====
/-
  The body's phases, stepped: the entry handshake, phase 1 and the local copy's enqueue. Each phase is a recursion over the chunks (AGFold), so each is proved by
  induction over the list of chunks left: one transfer or wait under its rule of the rounds discipline, then
  the phase on the rest. What a phase consumes and what it leaves is kept per chunk, in the list's order.
-/
import proofs.«900097_g7700000000000098_dist_ag_v7x_xy2x2_y_m2048_n512_f32_1_alg».proof.Proof.KAGSched
import proofs.«900097_g7700000000000098_dist_ag_v7x_xy2x2_y_m2048_n512_f32_1_alg».proof.Proof.KAGValue

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "𝒱₀" => (Variants.none : Variants)

/-- The entry handshake: the two signals hand over the landing places on `c` (those of `yn c`'s chunks to
    `yn c`, those of `xn c`'s forwarded chunks to `xn c`); the wait for 2 brings the landing places on the two
    neighbours. -/
theorem wp_barrier (K : Dev nD × CK → ℕ) (c : Dev nD) (W : Waits sig Unit) (k : P (F := F)) (Q : PUnit → sProp 𝕄) :
    iprop(records m K ∗ levAts L lv
        ∗ owes (c : Thread nD τ) (O₀ c) W
        ∗ dutyTok ER (barCell (yn c)) 0 false ∗ dutyTok ER (barCell (xn c)) 0 true
        ∗ barPayY (F := F) (yn c) ∗ barPayX (F := F) (xn c)
        ∗ cred (tallyAt (barCell c) () 2) ∗ atPos ER (barCell c) 0 ∅ 0
        ∗ ((barPayY (F := F) c ∗ barPayX (F := F) c ∗ atPos ER (barCell c) 1 ∅ 0
              ∗ owes (c : Thread nD τ) (owe2 c chunks + owe1 c chunks) (insert (SemLoc.reg barS, ()) W))
            -∗ wp frame (wpE (defs₀ (F := F)) 𝒱₀ (c : Thread nD τ) none) Set.univ k Q))
      ⊢ wp frame (wpE (defs₀ (F := F)) 𝒱₀ (c : Thread nD τ) none) Set.univ
          (do semSignalWord (⟨k0_dev1 c, k0_dev1_lt c⟩ : Dev nD) barS 1#32 hamt_1
              semSignalWord (⟨k0_dev2 c, k0_dev2_lt c⟩ : Dev nD) barS 1#32 hamt_1
              semWaitWord barS 2#32 hamt_2
              k) Q := by
  simp only [semSignalWord, semWaitWord, Prog.lift, Prog.bind_op, Prog.bind_ret, Prog.pure_eq_ret]
  simp only [devY1_eq c, devX2_eq c]
  iintro ⟨#Hrec, #Hlev, HO, HtY, HtX, HpY, HpX, Hc, Hat, Hk⟩
  unfold O₀
  -- the signal to `yn c`: its barrier cell's duty `false`, with the landing places on `c` of `yn c`'s chunks
  iapply (Rounds.wp_signal 𝒱₀ ER (sched m) (c : Thread nD τ) none (dst := (yn c : Thread nD τ)) (κ := K (yn c, .inl 0))
      (d := false) (by rw [duties_bar]; exact Finset.mem_univ _) ((amount_bar m (yn c) false).trans (by decide)) ()
      ((owe2 c chunks + owe1 c chunks) + tallyAt (barCell (xn c)) () 1) rfl) $$ [HO HtY HpY]
  · isplitr; · iapply (inv_at m K (yn c, .inl 0)); iexact Hrec
    isplitl [HO]; · iexact HO
    isplitl [HtY]; · iexact HtY
    isplitl [HpY]; · rw [payload_bar_false]; iexact HpY
    iapply (reached_at m K (yn c, .inl 0)); iexact Hrec
  iintro HO
  -- the signal to `xn c`: its barrier cell's duty `true`, with the landing places on `c` of the chunks `xn c` forwards
  iapply (Rounds.wp_signal 𝒱₀ ER (sched m) (c : Thread nD τ) none (dst := (xn c : Thread nD τ)) (κ := K (xn c, .inl 0))
      (d := true) (by rw [duties_bar]; exact Finset.mem_univ _) ((amount_bar m (xn c) true).trans (by decide)) ()
      (owe2 c chunks + owe1 c chunks) rfl) $$ [HO HtX HpX]
  · isplitr; · iapply (inv_at m K (xn c, .inl 0)); iexact Hrec
    isplitl [HO]; · iexact HO
    isplitl [HtX]; · iexact HtX
    isplitl [HpX]; · rw [payload_bar_true]; iexact HpX
    iapply (reached_at m K (xn c, .inl 0)); iexact Hrec
  iintro HO
  -- the wait for 2 on the own barrier cell, only arrivals owed: the landing places on the two neighbours come with it
  iapply (Rounds.wp_wait_rest_token 𝒱₀ ER (sched m) (c : Thread nD τ) none (κ := K (c, .inl 0))
      (wpE_semWait_eq 𝒱₀ (c : Thread nD τ) none Set.univ) (Set.mem_univ _) () (O := owe2 c chunks + owe1 c chunks) (W := W) (R := 0) (m := 0) (T := ∅)
      (by rw [expect_bar]; decide)) $$ [Hc HO Hat]
  · isplitr; · iapply (inv_at m K (c, .inl 0)); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  icases Hp with ⟨HpY, HpX⟩
  iapply Hk
  isplitl [HpY]; · iexact HpY
  isplitl [HpX]; · iexact HpX
  isplitl [Hat]; · iexact Hat
  iexact HO

/-- The head of a listed chain, split off. -/
theorem bigSepL_cons_sep1 {I : Type} (i : I) (l : List I) (Φ : I → sProp 𝕄) :
    bigSepL (i :: l) Φ = iprop(Φ i ∗ bigSepL l Φ) := bigSepL_cons i l Φ

/-- The addressed transfer of chunk `j` at the protocol's cells, the target device `n` equal to `yn c`
    (substituted): it pays the send cell of `c` with the chunk's share of `x`, and the receive cell of `yn c`
    with the chunk landed, which is the gathered array's rows there. -/
theorem wp_send1 (K : Dev nD × CK → ℕ) (c n : Dev nD) (hn : n = yn c) (j : Fin 32)
    {hsc : (oS1 c j : Memref sig (Dev.tc n : Thread nD τ).2.kind .vmem S32x512 .f32).view.ref.isScScratch = false}
    {hsrc : (xS c j).view.WordExact} {hdst : (oS1 c j).view.WordExact}
    {hsem : DmaTarget.Typed .vmem (.dma (semAt cc0_scratch1 j)) (.remote (Dev.tc n : Thread nD τ) (oS1 c j) (.dma (semAt cc0_scratch0 j)) hsc)}
    {α : Type} {Q : α → sProp 𝕄} {k : PUnit → Prog (TpuEff nD τ sig (Elt F) Λ₀ .tc) α}
    (f : Buf (Elt F) ((oS1 c j).view.loc (yn c : Thread nD τ))) (O : CellTallies nD τ sig Unit) (W : Waits sig Unit) :
    iprop(cellInv ER (sched m) (K (c, .inr (0, j))) (p1s c j) ∗ cellInv ER (sched m) (K (yn c, .inr (1, j))) (p1r (yn c) j)
        ∗ sendPay1 m c j ∗ ((oS1 c j).view.loc (yn c : Thread nD τ) ↦[(oS1 c j).view.set]{fullShare} f)
        ∗ owes (c : Thread nD τ) (O + tallyAt (p1r (yn c) j) () N) W
        ∗ dutyTok ER (p1s c j) 0 false ∗ reached ER (p1s c j) 0
        ∗ dutyTok ER (p1r (yn c) j) 0 false ∗ reached ER (p1r (yn c) j) 0)
      ⊢ iprop(((cred (tallyAt (p1s c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xS c j) (.remote (Dev.tc n : Thread nD τ) (oS1 c j) (.dma (semAt cc0_scratch0 j)) hsc) (.dma (semAt cc0_scratch1 j)) hsrc hdst hsem) k) Q) := by
  subst hn
  unfold sendPay1
  exact Rounds.wp_send_pointsTo 𝒱₀ ER (sched m) (c : Thread nD τ) none (c' := (yn c : Thread nD τ)) (src := xS c j) (dst := oS1 c j)
    (q := qL) (fs := xstg m c) (fd := f) (κ₁ := K (c, .inr (0, j))) (κ₂ := K (yn c, .inr (1, j)))
    (r₁ := 0) (r₂ := 0) (d₁ := false) (d₂ := false)
    (by rw [duties_p1s]; exact Finset.mem_singleton_self _) (by rw [duties_p1r]; exact Finset.mem_singleton_self _)
    () () N rfl (amount_p1s m c j false) (amount_p1r m (yn c) j false) O rfl (W := W)
    (by rw [payload_p1s]; unfold sendPay1; exact BI.Entails.refl _)
    (by rw [payload_p1r]; unfold recvPay1
        rw [pointsTo_congr (land1 m c j f), oS1_set])

/-- Phase 1 over the chunks `l`: each transfer takes the chunk's share of `x`, its landing place on `yn c` and the
    two duty tokens, pays the arrival off what `c` owes, and leaves credit on the send cell. -/
theorem wp_ph1 (K : Dev nD × CK → ℕ) (c : Dev nD) (l : List (Fin 32)) (O : CellTallies nD τ sig Unit) (W : Waits sig Unit)
    (k : P (F := F)) (Q : PUnit → sProp 𝕄) :
    iprop(records m K
        ∗ bigSepL l (fun j => iprop(sendPay1 m c j
            ∗ (∃ f, (oS1 c j).view.loc (yn c : Thread nD τ) ↦[(oS1 c j).view.set]{fullShare} f)
            ∗ dutyTok ER (p1s c j) 0 false ∗ dutyTok ER (p1r (yn c) j) 0 false))
        ∗ owes (c : Thread nD τ) (O + owe1 c l) W
        ∗ ((bigSepL l (fun j => cred (tallyAt (p1s c j) () N)) ∗ owes (c : Thread nD τ) O W)
            -∗ wp frame (wpE (defs₀ (F := F)) 𝒱₀ (c : Thread nD τ) none) Set.univ k Q))
      ⊢ wp frame (wpE (defs₀ (F := F)) 𝒱₀ (c : Thread nD τ) none) Set.univ (ph1 c l k) Q := by
  induction l generalizing O W with
  | nil =>
    rw [bigSepL_nil, bigSepL_nil, owe1_nil, add_zero]
    show _ ⊢ wp frame (wpE (defs₀ (F := F)) 𝒱₀ (c : Thread nD τ) none) Set.univ k Q
    iintro ⟨-, -, HO, Hk⟩
    iapply Hk
    isplitr
    · iempintro
    · iexact HO
  | cons j l ih =>
    rw [bigSepL_cons_sep1, bigSepL_cons_sep1, owe1_cons, ← add_assoc]
    show _ ⊢ wp frame (wpE (defs₀ (F := F)) 𝒱₀ (c : Thread nD τ) none) Set.univ
      (do Prog.lift (.enqueueDma (xS c j) (.remote (Dev.tc (⟨k0_dev3 c, k0_dev3_lt c⟩ : Dev nD)) (oS1 c j) (.dma (semAt cc0_scratch0 j))) (.dma (semAt cc0_scratch1 j)) (View.wordExact_bits rfl) (View.wordExact_bits rfl) ⟨⟨rfl, Or.inl rfl⟩, trivial⟩)
          ph1 c l k) Q
    simp only [Prog.lift, Prog.bind_op, Prog.bind_ret, Prog.pure_eq_ret]
    iintro ⟨#Hrec, ⟨⟨Hsend, ⟨%f, Hdst⟩, Ht1, Ht2⟩, Hrest⟩, HO, Hk⟩
    iapply (wp_send1 m K c _ (devY3_eq c) j f (O + owe1 c l) W) $$ [Hsend Hdst HO Ht1 Ht2]
    · isplitr; · iapply (inv_at m K (c, .inr (0, j))); iexact Hrec
      isplitr; · iapply (inv_at m K (yn c, .inr (1, j))); iexact Hrec
      isplitl [Hsend]; · iexact Hsend
      isplitl [Hdst]; · iexact Hdst
      isplitl [HO]; · iexact HO
      isplitl [Ht1]; · iexact Ht1
      isplitr; · iapply (reached_at m K (c, .inr (0, j))); iexact Hrec
      isplitl [Ht2]; · iexact Ht2
      iapply (reached_at m K (yn c, .inr (1, j))); iexact Hrec
    iintro ⟨Hc, HO⟩
    iapply (ih (O := O) (W := W))
    isplitr; · iexact Hrec
    isplitl [Hrest]; · iexact Hrest
    isplitl [HO]; · iexact HO
    iintro ⟨Hcs, HO⟩
    iapply Hk
    isplitl [Hc Hcs]
    · isplitl [Hc]; · iexact Hc
      iexact Hcs
    · iexact HO

/-- The local copy's enqueue: the copy's share of `x`, the own block's place, the cell's duty token. -/
theorem wp_locEnq (K : Dev nD × CK → ℕ) (c : Dev nD) (fd : Buf (Elt F) ((oL c).view.loc (c : Thread nD τ)))
    (k : P (F := F)) (Q : PUnit → sProp 𝕄) :
    iprop(records m K
        ∗ (xM.view.loc (c : Thread nD τ) ↦[xM.view.set]{qR} xstg m c)
        ∗ ((oL c).view.loc (c : Thread nD τ) ↦[(oL c).view.set]{fullShare} fd)
        ∗ dutyTok ER (locCell c) 0 false
        ∗ (cred (tallyAt (locCell c) () NL) -∗ wp frame (wpE (defs₀ (F := F)) 𝒱₀ (c : Thread nD τ) none) Set.univ k Q))
      ⊢ wp frame (wpE (defs₀ (F := F)) 𝒱₀ (c : Thread nD τ) none) Set.univ
          (do Prog.lift (.enqueueDma xM (.here (oL c)) (.dma cc0_scratch4.sem) (Memref.isWhole_whole _).wordExact (View.wordExact_bits rfl) ⟨Or.inl rfl, trivial⟩)
              k) Q := by
  simp only [Prog.lift, Prog.bind_op, Prog.bind_ret, Prog.pure_eq_ret]
  iintro ⟨#Hrec, Hx, Hd, Ht, Hk⟩
  iapply (Rounds.wp_copy_pointsTo 𝒱₀ ER (sched m) (c : Thread nD τ) none (src := xM) (dst := oL c) (sem := .dma cc0_scratch4.sem)
      (q := qR) (fs := xstg m c) (fd := fd) (κ := K (c, .inl 1)) (r := 0) (d := false)
      (by rw [duties_loc]; exact Finset.mem_singleton_self _) () NL rfl (amount_loc m c false)
      (by rw [payload_loc]; unfold locPay
          rw [pointsTo_congr (landL m c fd)])) $$ [Hx Hd Ht]
  · isplitr; · iapply (inv_at m K (c, .inl 1)); iexact Hrec
    isplitl [Hx]; · iexact Hx
    isplitl [Hd]; · iexact Hd
    isplitl [Ht]; · iexact Ht
    iapply (reached_at m K (c, .inl 1)); iexact Hrec
  iexact Hk

end Cert.Kernel.AG

end
-- ==== Proof.KAGSteps2.lean ====
/-
  The body's phases, stepped: phases 2, 3 and 4 and the local copy's wait. Each phase is a recursion over the chunks (AGFold), so each is proved by
  induction over the list of chunks left: one transfer or wait under its rule of the rounds discipline, then
  the phase on the rest. What a phase consumes and what it leaves is kept per chunk, in the list's order.
-/
import proofs.«900097_g7700000000000098_dist_ag_v7x_xy2x2_y_m2048_n512_f32_1_alg».proof.Proof.KAGSched
import proofs.«900097_g7700000000000098_dist_ag_v7x_xy2x2_y_m2048_n512_f32_1_alg».proof.Proof.KAGValue

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "𝒱₀" => (Variants.none : Variants)

/-- The chain over a list with a head, as the head's assertion and the chain over the rest. -/
theorem bigSepL_cons_sep {I : Type} (i : I) (l : List I) (Φ : I → sProp 𝕄) :
    bigSepL (i :: l) Φ = iprop(Φ i ∗ bigSepL l Φ) := bigSepL_cons i l Φ

/-- The forwarding of chunk `j` at the protocol's cells, addressed to a device `n` that is `xn c`: the chunk as it
    landed on `c` is the source and goes to its send cell; the same rows on `xn c`, rewritten by the copy, are the
    gathered array's there and go to the receive cell of `xn c`; the arrival owed for the chunk is paid. -/
theorem wp_send_fwd (K : Dev nD × CK → ℕ) (c n : Dev nD) (hn : n = xn c) (j : Fin 32) (l : List (Fin 32))
    {hsc : (oS4 c j : Memref sig (Dev.tc n : Thread nD τ).2.kind .vmem S32x512 .f32).view.ref.isScScratch = false}
    {hsrc : (oS4 c j : Memref sig .tc .vmem S32x512 .f32).view.WordExact} {hdst : (oS4 c j : Memref sig .tc .vmem S32x512 .f32).view.WordExact}
    {hsem : DmaTarget.Typed .vmem (.dma (semAt cc0_scratch3 j)) (.remote (Dev.tc n : Thread nD τ) (oS4 c j : Memref sig .tc .vmem S32x512 .f32) (.dma (semAt cc0_scratch2 j)) hsc)}
    {α : Type} {Q : α → sProp 𝕄} {k : PUnit → Prog (TpuEff nD τ sig (Elt F) Λ₀ .tc) α}
    (f : Buf (Elt F) ((oS4 c j).view.loc (xn c : Thread nD τ))) (W : Waits sig Unit) :
    iprop(cellInv ER (sched m) (K (c, .inr (2, j))) (p2s c j) ∗ cellInv ER (sched m) (K (xn c, .inr (3, j))) (p2r (xn c) j)
        ∗ recvPay1 m c j ∗ ((oS4 c j).view.loc (xn c : Thread nD τ) ↦[(oS4 c j).view.set]{fullShare} f)
        ∗ owes (c : Thread nD τ) (owe2 c (j :: l)) W
        ∗ dutyTok ER (p2s c j) 0 false ∗ reached ER (p2s c j) 0
        ∗ dutyTok ER (p2r (xn c) j) 0 false ∗ reached ER (p2r (xn c) j) 0)
      ⊢ iprop(((cred (tallyAt (p2s c j) () N) ∗ owes (c : Thread nD τ) (owe2 c l) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS4 c j) (.remote (Dev.tc n : Thread nD τ) (oS4 c j) (.dma (semAt cc0_scratch2 j)) hsc)
                (.dma (semAt cc0_scratch3 j)) hsrc hdst hsem) k) Q) := by
  subst hn
  unfold recvPay1
  exact Rounds.wp_send_pointsTo 𝒱₀ ER (sched m) (c : Thread nD τ) none (c' := (xn c : Thread nD τ))
    (src := oS4 c j) (dst := oS4 c j) (q := fullShare) (fs := outFinal m c) (fd := f)
    (κ₁ := K (c, .inr (2, j))) (κ₂ := K (xn c, .inr (3, j))) (r₁ := 0) (r₂ := 0) (d₁ := false) (d₂ := false)
    (by rw [duties_p2s]; exact Finset.mem_singleton_self _) (by rw [duties_p2r]; exact Finset.mem_singleton_self _)
    () () N rfl (amount_p2s m c j false) (amount_p2r m (xn c) j false) (owe2 c l) (owe2_cons c j l) (W := W)
    (by rw [payload_p2s]; unfold recvPay1; exact BI.Entails.refl _)
    (by
      rw [payload_p2r]; unfold recvPay2
      rw [← oS4_set c j]
      exact Entails.of_eq (pointsTo_congr (ℓ := (xn c : Thread nD τ).loc cc0_stg1_0) (land2 m c j f)))

/-- Phase 2 over the chunks `l`: the wait for chunk `j` from `yn c` (owing only the phase-2 arrivals left), then its
    forwarding to `xn c` from where it landed. -/
theorem wp_ph2 (K : Dev nD × CK → ℕ) (c : Dev nD) (l : List (Fin 32)) (W : Waits sig Unit)
    (k : P (F := F)) (Q : PUnit → sProp 𝕄) :
    iprop(records m K ∗ levAts L lv
        ∗ bigSepL l (fun j => iprop(cred (tallyAt (p1r c j) () N) ∗ atPos ER (p1r c j) 0 ∅ 0
            ∗ (∃ f, (oS4 c j).view.loc (xn c : Thread nD τ) ↦[(oS4 c j).view.set]{fullShare} f)
            ∗ dutyTok ER (p2s c j) 0 false ∗ dutyTok ER (p2r (xn c) j) 0 false))
        ∗ owes (c : Thread nD τ) (owe2 c l) W
        ∗ ((bigSepL l (fun j => iprop(cred (tallyAt (p2s c j) () N) ∗ atPos ER (p1r c j) 1 ∅ 0))
              ∗ (∃ W', owes (c : Thread nD τ) 0 W'))
            -∗ wp frame (wpE (defs₀ (F := F)) 𝒱₀ (c : Thread nD τ) none) Set.univ k Q))
      ⊢ wp frame (wpE (defs₀ (F := F)) 𝒱₀ (c : Thread nD τ) none) Set.univ (ph2 c l k) Q := by
  induction l generalizing W with
  | nil =>
    simp only [ph2, bigSepL_nil, owe2_nil]
    iintro ⟨-, -, -, HO, Hk⟩
    iapply Hk
    isplitr
    · iempintro
    · iexists W; iexact HO
  | cons j l ih =>
    simp only [ph2, bigSepL_cons_sep, Prog.bind_lift]
    iintro ⟨#Hrec, #Hlev, ⟨⟨Hc, Hat, ⟨%f, Hdst⟩, Ht2s, Ht2r⟩, Hl⟩, HO, Hk⟩
    -- the wait for the chunk from the neighbour along y; still owed: the forwarding of this chunk and of the chunks left,
    -- all at the level of the phase-2 receive cells, above this cell's
    iapply (Rounds.wp_wait_rest_token 𝒱₀ ER (sched m) (c : Thread nD τ) none (κ := K (c, .inr (1, j)))
        (wpE_waitDma2_eq 𝒱₀ (c : Thread nD τ) none Set.univ) (Set.mem_univ _) () (O := owe2 c (j :: l)) (W := W) (R := 0) (m := 0) (T := ∅)
        (by rw [Nat.zero_add, expect_p1r])) $$ [Hc HO Hat]
    · isplitr; · iapply (inv_at m K (c, .inr (1, j))); iexact Hrec
      isplitl [Hc]; · iexact Hc
      isplitl [HO]; · iexact HO
      isplitr; · iapply (mayWait_p1r c j (j :: l)); iexact Hlev
      iexact Hat
    iintro ⟨HO, Hat, -, Hpay⟩
    ihave Hp := (Entails.of_eq (rest_p1r m c j)) $$ Hpay
    -- the forwarding along x: the chunk as it landed is the source; its send cell gets it back, the neighbour's
    -- receive cell gets the same rows of the gathered array there
    iapply (wp_send_fwd m K c _ (devX35_eq c) j l f (insert (SemLoc.dma (semAt cc0_scratch1 j), ()) W)) $$ [Hp Hdst HO Ht2s Ht2r]
    · isplitr; · iapply (inv_at m K (c, .inr (2, j))); iexact Hrec
      isplitr; · iapply (inv_at m K (xn c, .inr (3, j))); iexact Hrec
      isplitl [Hp]; · iexact Hp
      isplitl [Hdst]; · iexact Hdst
      isplitl [HO]; · iexact HO
      isplitl [Ht2s]; · iexact Ht2s
      isplitr; · iapply (reached_at m K (c, .inr (2, j))); iexact Hrec
      isplitl [Ht2r]; · iexact Ht2r
      iapply (reached_at m K (xn c, .inr (3, j))); iexact Hrec
    iintro ⟨Hcs, HO⟩
    iapply (ih (insert (SemLoc.dma (semAt cc0_scratch1 j), ()) W))
    isplitr; · iexact Hrec
    isplitr; · iexact Hlev
    isplitl [Hl]; · iexact Hl
    isplitl [HO]; · iexact HO
    iintro ⟨Hl', HW⟩
    iapply Hk
    isplitl [Hcs Hat Hl']
    · isplitl [Hcs Hat]
      · isplitl [Hcs]; · iexact Hcs
        iexact Hat
      · iexact Hl'
    · iexact HW

/-- Phase 3 over the chunks `l`: the waits for the chunks `xn c` forwards; nothing is owed any more. -/
theorem wp_ph3 (K : Dev nD × CK → ℕ) (c : Dev nD) (l : List (Fin 32)) (W : Waits sig Unit)
    (k : P (F := F)) (Q : PUnit → sProp 𝕄) :
    iprop(records m K
        ∗ bigSepL l (fun j => iprop(cred (tallyAt (p2r c j) () N) ∗ atPos ER (p2r c j) 0 ∅ 0))
        ∗ owes (c : Thread nD τ) 0 W
        ∗ ((bigSepL l (fun j => iprop(recvPay2 m c j ∗ atPos ER (p2r c j) 1 ∅ 0))
              ∗ (∃ W', owes (c : Thread nD τ) 0 W'))
            -∗ wp frame (wpE (defs₀ (F := F)) 𝒱₀ (c : Thread nD τ) none) Set.univ k Q))
      ⊢ wp frame (wpE (defs₀ (F := F)) 𝒱₀ (c : Thread nD τ) none) Set.univ (ph3 c l k) Q := by
  induction l generalizing W with
  | nil =>
    simp only [ph3, bigSepL_nil]
    iintro ⟨-, -, HO, Hk⟩
    iapply Hk
    isplitr
    · iempintro
    · iexists W; iexact HO
  | cons j l ih =>
    simp only [ph3, bigSepL_cons_sep, Prog.bind_lift]
    iintro ⟨#Hrec, ⟨⟨Hc, Hat⟩, Hl⟩, HO, Hk⟩
    iapply (Rounds.wp_wait_rest_token 𝒱₀ ER (sched m) (c : Thread nD τ) none (κ := K (c, .inr (3, j)))
        (wpE_waitDma2_eq 𝒱₀ (c : Thread nD τ) none Set.univ) (Set.mem_univ _) () (O := 0) (W := W) (R := 0) (m := 0) (T := ∅)
        (by rw [Nat.zero_add, expect_p2r])) $$ [Hc HO Hat]
    · isplitr; · iapply (inv_at m K (c, .inr (3, j))); iexact Hrec
      isplitl [Hc]; · iexact Hc
      isplitl [HO]; · iexact HO
      isplitr; · rw [MayWait_zero]; iempintro
      iexact Hat
    iintro ⟨HO, Hat, -, Hpay⟩
    ihave Hp := (Entails.of_eq (rest_p2r m c j)) $$ Hpay
    iapply (ih (insert (SemLoc.dma (semAt cc0_scratch3 j), ()) W))
    isplitr; · iexact Hrec
    isplitl [Hl]; · iexact Hl
    isplitl [HO]; · iexact HO
    iintro ⟨Hl', HW⟩
    iapply Hk
    isplitl [Hp Hat Hl']
    · isplitl [Hp Hat]
      · isplitl [Hp]; · iexact Hp
        iexact Hat
      · iexact Hl'
    · iexact HW

/-- Phase 4 over the chunks `l`: the two send-side waits of each chunk: the chunk's share of `x` and the forwarded
    chunk's place come back. -/
theorem wp_ph4 (K : Dev nD × CK → ℕ) (c : Dev nD) (l : List (Fin 32)) (W : Waits sig Unit)
    (k : P (F := F)) (Q : PUnit → sProp 𝕄) :
    iprop(records m K
        ∗ bigSepL l (fun j => iprop(cred (tallyAt (p1s c j) () N) ∗ atPos ER (p1s c j) 0 ∅ 0
            ∗ cred (tallyAt (p2s c j) () N) ∗ atPos ER (p2s c j) 0 ∅ 0))
        ∗ owes (c : Thread nD τ) 0 W
        ∗ ((bigSepL l (fun j => iprop(sendPay1 m c j ∗ atPos ER (p1s c j) 1 ∅ 0 ∗ recvPay1 m c j ∗ atPos ER (p2s c j) 1 ∅ 0))
              ∗ (∃ W', owes (c : Thread nD τ) 0 W'))
            -∗ wp frame (wpE (defs₀ (F := F)) 𝒱₀ (c : Thread nD τ) none) Set.univ k Q))
      ⊢ wp frame (wpE (defs₀ (F := F)) 𝒱₀ (c : Thread nD τ) none) Set.univ (ph4 c l k) Q := by
  induction l generalizing W with
  | nil =>
    simp only [ph4, bigSepL_nil]
    iintro ⟨-, -, HO, Hk⟩
    iapply Hk
    isplitr
    · iempintro
    · iexists W; iexact HO
  | cons j l ih =>
    simp only [ph4, bigSepL_cons_sep, Prog.bind_lift]
    iintro ⟨#Hrec, ⟨⟨Hc1, Hat1, Hc2, Hat2⟩, Hl⟩, HO, Hk⟩
    -- the send side of the chunk's transfer to the neighbour along y: the chunk's share of the staged block back
    iapply (Rounds.wp_wait_rest_token 𝒱₀ ER (sched m) (c : Thread nD τ) none (κ := K (c, .inr (0, j)))
        (wpE_waitDma2_eq 𝒱₀ (c : Thread nD τ) none Set.univ) (Set.mem_univ _) () (O := 0) (W := W) (R := 0) (m := 0) (T := ∅)
        (by rw [Nat.zero_add, expect_p1s])) $$ [Hc1 HO Hat1]
    · isplitr; · iapply (inv_at m K (c, .inr (0, j))); iexact Hrec
      isplitl [Hc1]; · iexact Hc1
      isplitl [HO]; · iexact HO
      isplitr; · rw [MayWait_zero]; iempintro
      iexact Hat1
    iintro ⟨HO, Hat1, -, Hpay1⟩
    ihave Hp1 := (Entails.of_eq (rest_p1s m c j)) $$ Hpay1
    -- the send side of the forwarding along x: the forwarded chunk's place back
    iapply (Rounds.wp_wait_rest_token 𝒱₀ ER (sched m) (c : Thread nD τ) none (κ := K (c, .inr (2, j)))
        (wpE_waitDma2_eq 𝒱₀ (c : Thread nD τ) none Set.univ) (Set.mem_univ _) () (O := 0)
        (W := insert (SemLoc.dma (semAt cc0_scratch0 j), ()) W) (R := 0) (m := 0) (T := ∅)
        (by rw [Nat.zero_add, expect_p2s])) $$ [Hc2 HO Hat2]
    · isplitr; · iapply (inv_at m K (c, .inr (2, j))); iexact Hrec
      isplitl [Hc2]; · iexact Hc2
      isplitl [HO]; · iexact HO
      isplitr; · rw [MayWait_zero]; iempintro
      iexact Hat2
    iintro ⟨HO, Hat2, -, Hpay2⟩
    ihave Hp2 := (Entails.of_eq (rest_p2s m c j)) $$ Hpay2
    iapply (ih (insert (SemLoc.dma (semAt cc0_scratch2 j), ()) (insert (SemLoc.dma (semAt cc0_scratch0 j), ()) W)))
    isplitr; · iexact Hrec
    isplitl [Hl]; · iexact Hl
    isplitl [HO]; · iexact HO
    iintro ⟨Hl', HW⟩
    iapply Hk
    isplitl [Hp1 Hat1 Hp2 Hat2 Hl']
    · isplitl [Hp1 Hat1 Hp2 Hat2]
      · isplitl [Hp1]; · iexact Hp1
        isplitl [Hat1]; · iexact Hat1
        isplitl [Hp2]; · iexact Hp2
        iexact Hat2
      · iexact Hl'
    · iexact HW

/-- The local copy's wait: the own block in place and the copy's share of `x` back. -/
theorem wp_locWait (K : Dev nD × CK → ℕ) (c : Dev nD) (W : Waits sig Unit) (k : P (F := F)) (Q : PUnit → sProp 𝕄) :
    iprop(records m K
        ∗ cred (tallyAt (locCell c) () NL) ∗ atPos ER (locCell c) 0 ∅ 0
        ∗ owes (c : Thread nD τ) 0 W
        ∗ ((locPay m c ∗ atPos ER (locCell c) 1 ∅ 0 ∗ (∃ W', owes (c : Thread nD τ) 0 W'))
            -∗ wp frame (wpE (defs₀ (F := F)) 𝒱₀ (c : Thread nD τ) none) Set.univ k Q))
      ⊢ wp frame (wpE (defs₀ (F := F)) 𝒱₀ (c : Thread nD τ) none) Set.univ
          (do Prog.lift (.waitDma2 cc0_scratch4.sem xM (oL c) (Memref.isWhole_whole _).wordExact (View.wordExact_bits rfl))
              k) Q := by
  simp only [Prog.bind_lift]
  iintro ⟨#Hrec, Hc, Hat, HO, Hk⟩
  iapply (Rounds.wp_wait_rest_token 𝒱₀ ER (sched m) (c : Thread nD τ) none (κ := K (c, .inl 1))
      (wpE_waitDma2_eq 𝒱₀ (c : Thread nD τ) none Set.univ) (Set.mem_univ _) () (O := 0) (W := W) (R := 0) (m := 0) (T := ∅)
      (by rw [Nat.zero_add, expect_loc])) $$ [Hc HO Hat]
  · isplitr; · iapply (inv_at m K (c, .inl 1)); iexact Hrec
    isplitl [Hc]; · iexact Hc
    isplitl [HO]; · iexact HO
    isplitr; · rw [MayWait_zero]; iempintro
    iexact Hat
  iintro ⟨HO, Hat, -, Hpay⟩
  ihave Hp := (Entails.of_eq (rest_loc m c)) $$ Hpay
  iapply Hk
  isplitl [Hp]; · iexact Hp
  isplitl [Hat]; · iexact Hat
  iexists _; iexact HO

end Cert.Kernel.AG

end
-- ==== Proof.KAGBody.lean ====
/-
  One device's body: from what it starts with to what it ends with, through the handshake and the phases.
-/
import proofs.«900097_g7700000000000098_dist_ag_v7x_xy2x2_y_m2048_n512_f32_1_alg».proof.Proof.KAGGlue
import proofs.«900097_g7700000000000098_dist_ag_v7x_xy2x2_y_m2048_n512_f32_1_alg».proof.Proof.KAGSteps1
import proofs.«900097_g7700000000000098_dist_ag_v7x_xy2x2_y_m2048_n512_f32_1_alg».proof.Proof.KAGSteps2

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => (Variants.none : Variants)

variable (m : (ℓ : Loc nD τ sig) → Buf (Elt F) ℓ)

/-- Over all 32 chunks a product of pairs is the pair of products. -/
theorem sepL (A B : Fin 32 → sProp 𝕄) : bigSepL chunks (fun j => iprop(A j ∗ B j)) = iprop(bigSepL chunks A ∗ bigSepL chunks B) := by
  rw [← toL, ← toL, ← toL, bigSep_sep']

/-! ## The phases over all 32 chunks, what each takes and leaves listed family by family -/

theorem ph1_all (K : Dev nD × CK → ℕ) (c : Dev nD) (O : CellTallies nD τ sig Unit) (W : Waits sig Unit) (k : P (F := F)) (Q : PUnit → sProp 𝕄) :
    iprop(records m K
        ∗ (bigSep Finset.univ fun j : Fin 32 => sendPay1 m c j)
        ∗ barPayY (F := F) c
        ∗ (bigSep Finset.univ fun j : Fin 32 => dutyTok ER (p1s c j) 0 false)
        ∗ (bigSep Finset.univ fun j : Fin 32 => dutyTok ER (p1r (yn c) j) 0 false)
        ∗ owes (c : Thread nD τ) (O + owe1 c chunks) W)
      ⊢ iprop((((bigSep Finset.univ fun j : Fin 32 => cred (tallyAt (p1s c j) () N)) ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ (ph1 c chunks k) Q) := by
  refine BIClass.wand_intro ?_
  have h := wp_ph1 m K c chunks O W k Q
  simp only [sepL] at h
  simp only [← toL] at h
  unfold barPayY
  refine BIBase.Entails.trans ?_ h
  iintro ⟨⟨#H0, H1, H2, H3, H4, H5⟩, H6⟩
  isplitr; · iexact H0
  isplitl [H1 H2 H3 H4]
  · isplitl [H1]; · iexact H1
    isplitl [H2]; · iexact H2
    isplitl [H3]; · iexact H3
    iexact H4
  isplitl [H5]; · iexact H5
  iexact H6

theorem ph2_all (K : Dev nD × CK → ℕ) (c : Dev nD) (W : Waits sig Unit) (k : P (F := F)) (Q : PUnit → sProp 𝕄) :
    iprop(records m K ∗ levAts L lv
        ∗ (bigSep Finset.univ fun j : Fin 32 => cred (tallyAt (p1r c j) () N))
        ∗ (bigSep Finset.univ fun j : Fin 32 => atPos ER (p1r c j) 0 ∅ 0)
        ∗ barPayX (F := F) c
        ∗ (bigSep Finset.univ fun j : Fin 32 => dutyTok ER (p2s c j) 0 false)
        ∗ (bigSep Finset.univ fun j : Fin 32 => dutyTok ER (p2r (xn c) j) 0 false)
        ∗ owes (c : Thread nD τ) (owe2 c chunks) W)
      ⊢ iprop((((bigSep Finset.univ fun j : Fin 32 => cred (tallyAt (p2s c j) () N))
              ∗ (bigSep Finset.univ fun j : Fin 32 => atPos ER (p1r c j) 1 ∅ 0)
              ∗ (∃ W', owes (c : Thread nD τ) 0 W')) -∗ wp frame (wpE (defs₀ (F := F)) 𝒱₀ (c : Thread nD τ) none) Set.univ k Q)
          -∗ wp frame (wpE (defs₀ (F := F)) 𝒱₀ (c : Thread nD τ) none) Set.univ (ph2 c chunks k) Q) := by
  refine BIClass.wand_intro ?_
  have h := wp_ph2 m K c chunks W k Q
  simp only [sepL] at h
  simp only [← toL] at h
  unfold barPayX
  refine BIBase.Entails.trans ?_ h
  iintro ⟨⟨#H0, #Hl, H1, H2, H3, H4, H5, H6⟩, H7⟩
  isplitr; · iexact H0
  isplitr; · iexact Hl
  isplitl [H1 H2 H3 H4 H5]
  · isplitl [H1]; · iexact H1
    isplitl [H2]; · iexact H2
    isplitl [H3]; · iexact H3
    isplitl [H4]; · iexact H4
    iexact H5
  isplitl [H6]; · iexact H6
  iintro ⟨⟨Ha, Hb⟩, Hc⟩
  iapply H7
  isplitl [Ha]; · iexact Ha
  isplitl [Hb]; · iexact Hb
  iexact Hc

theorem ph3_all (K : Dev nD × CK → ℕ) (c : Dev nD) (W : Waits sig Unit) (k : P (F := F)) (Q : PUnit → sProp 𝕄) :
    iprop(records m K
        ∗ (bigSep Finset.univ fun j : Fin 32 => cred (tallyAt (p2r c j) () N))
        ∗ (bigSep Finset.univ fun j : Fin 32 => atPos ER (p2r c j) 0 ∅ 0)
        ∗ owes (c : Thread nD τ) 0 W)
      ⊢ iprop((((bigSep Finset.univ fun j : Fin 32 => recvPay2 m c j)
              ∗ (bigSep Finset.univ fun j : Fin 32 => atPos ER (p2r c j) 1 ∅ 0)
              ∗ (∃ W', owes (c : Thread nD τ) 0 W')) -∗ wp frame (wpE (defs₀ (F := F)) 𝒱₀ (c : Thread nD τ) none) Set.univ k Q)
          -∗ wp frame (wpE (defs₀ (F := F)) 𝒱₀ (c : Thread nD τ) none) Set.univ (ph3 c chunks k) Q) := by
  refine BIClass.wand_intro ?_
  have h := wp_ph3 m K c chunks W k Q
  simp only [sepL] at h
  simp only [← toL] at h
  refine BIBase.Entails.trans ?_ h
  iintro ⟨⟨#H0, H1, H2, H6⟩, H7⟩
  isplitr; · iexact H0
  isplitl [H1 H2]
  · isplitl [H1]; · iexact H1
    iexact H2
  isplitl [H6]; · iexact H6
  iintro ⟨⟨Ha, Hb⟩, Hc⟩
  iapply H7
  isplitl [Ha]; · iexact Ha
  isplitl [Hb]; · iexact Hb
  iexact Hc

theorem ph4_all (K : Dev nD × CK → ℕ) (c : Dev nD) (W : Waits sig Unit) (k : P (F := F)) (Q : PUnit → sProp 𝕄) :
    iprop(records m K
        ∗ (bigSep Finset.univ fun j : Fin 32 => cred (tallyAt (p1s c j) () N))
        ∗ (bigSep Finset.univ fun j : Fin 32 => atPos ER (p1s c j) 0 ∅ 0)
        ∗ (bigSep Finset.univ fun j : Fin 32 => cred (tallyAt (p2s c j) () N))
        ∗ (bigSep Finset.univ fun j : Fin 32 => atPos ER (p2s c j) 0 ∅ 0)
        ∗ owes (c : Thread nD τ) 0 W)
      ⊢ iprop((((bigSep Finset.univ fun j : Fin 32 => sendPay1 m c j)
              ∗ (bigSep Finset.univ fun j : Fin 32 => atPos ER (p1s c j) 1 ∅ 0)
              ∗ (bigSep Finset.univ fun j : Fin 32 => recvPay1 m c j)
              ∗ (bigSep Finset.univ fun j : Fin 32 => atPos ER (p2s c j) 1 ∅ 0)
              ∗ (∃ W', owes (c : Thread nD τ) 0 W')) -∗ wp frame (wpE (defs₀ (F := F)) 𝒱₀ (c : Thread nD τ) none) Set.univ k Q)
          -∗ wp frame (wpE (defs₀ (F := F)) 𝒱₀ (c : Thread nD τ) none) Set.univ (ph4 c chunks k) Q) := by
  refine BIClass.wand_intro ?_
  have h := wp_ph4 m K c chunks W k Q
  simp only [sepL] at h
  simp only [← toL] at h
  refine BIBase.Entails.trans ?_ h
  iintro ⟨⟨#H0, H1, H2, H3, H4, H6⟩, H7⟩
  isplitr; · iexact H0
  isplitl [H1 H2 H3 H4]
  · isplitl [H1]; · iexact H1
    isplitl [H2]; · iexact H2
    isplitl [H3]; · iexact H3
    iexact H4
  isplitl [H6]; · iexact H6
  iintro ⟨⟨Ha, Hb, Hc, Hd⟩, He⟩
  iapply H7
  isplitl [Ha]; · iexact Ha
  isplitl [Hb]; · iexact Hb
  isplitl [Hc]; · iexact Hc
  isplitl [Hd]; · iexact Hd
  iexact He

/-! ## The body -/

/-- A staging buffer held whole, as the pipeline hands it over. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (K : Dev nD × CK → ℕ) (c : Dev nD) : sProp 𝕄 :=
  iprop((ghost m K c ∗ creds (F := F) c ∗ levAts L lv)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- After the handshake: phase 1, the local copy's enqueue, phases 2 to 4, the local copy's wait; then the own
    cells close and the buffers are whole again. -/
theorem sound_rest (K : Dev nD × CK → ℕ) (c : Dev nD) (W : Waits sig Unit) (g1 : Buf (Elt F) ((c : Thread nD τ).loc cc0_stg1_0))
    (Rst : Finset (Idx ((c : Thread nD τ).loc cc0_stg0_0))) (Kt : PUnit → sProp 𝕄) :
    iprop(records m K ∗ levAts L lv
        ∗ (bigSep Finset.univ fun j : Fin 32 => sendPay1 m c j) ∗ barPayY (F := F) c
        ∗ (bigSep Finset.univ fun j : Fin 32 => dutyTok ER (p1s c j) 0 false)
        ∗ (bigSep Finset.univ fun j : Fin 32 => dutyTok ER (p1r (yn c) j) 0 false)
        ∗ owes (c : Thread nD τ) (owe2 c chunks + owe1 c chunks) W
        ∗ (xM.view.loc (c : Thread nD τ) ↦[xM.view.set]{qR} xstg m c)
        ∗ ((oL c).view.loc (c : Thread nD τ) ↦[(oL c).view.set]{fullShare} g1)
        ∗ dutyTok ER (locCell c) 0 false ∗ atPos ER (locCell c) 0 ∅ 0
        ∗ (bigSep Finset.univ fun j : Fin 32 => cred (tallyAt (p1r c j) () N))
        ∗ (bigSep Finset.univ fun j : Fin 32 => atPos ER (p1r c j) 0 ∅ 0)
        ∗ barPayX (F := F) c
        ∗ (bigSep Finset.univ fun j : Fin 32 => dutyTok ER (p2s c j) 0 false)
        ∗ (bigSep Finset.univ fun j : Fin 32 => dutyTok ER (p2r (xn c) j) 0 false)
        ∗ (bigSep Finset.univ fun j : Fin 32 => cred (tallyAt (p2r c j) () N))
        ∗ (bigSep Finset.univ fun j : Fin 32 => atPos ER (p2r c j) 0 ∅ 0)
        ∗ (bigSep Finset.univ fun j : Fin 32 => atPos ER (p1s c j) 0 ∅ 0)
        ∗ (bigSep Finset.univ fun j : Fin 32 => atPos ER (p2s c j) 0 ∅ 0)
        ∗ (((c : Thread nD τ).loc cc0_stg0_0) ↦[Rst]{qL} xstg m c)
        ∗ (((bigSep Finset.univ fun j : Fin 32 => sendPay1 m c j) ∗ (((c : Thread nD τ).loc cc0_stg0_0) ↦[Rst]{qL} xstg m c)
              ∗ locPay m c
              ∗ (bigSep Finset.univ fun j : Fin 32 => recvPay1 m c j) ∗ (bigSep Finset.univ fun j : Fin 32 => recvPay2 m c j)
              ∗ Pipeline.ownSems0 osem c ∗ (∃ W', owes (c : Thread nD τ) 0 W')) -∗ Kt ⟨⟩))
      ⊢ wp frame (wpE (defs₀ (F := F)) 𝒱₀ (c : Thread nD τ) none) Set.univ (afterBarrier (F := F) c) Kt := by
  iintro ⟨#Hrec, #Hlev, HxS, HpY, Ht0, Ht1, HO, HxR, HoL, HtL, HaL, Hc1, Ha1, HpX, Ht2, Ht3, Hc3, Ha3, Ha0, Ha2, HxRest, Hk⟩
  unfold afterBarrier
  iapply (ph1_all m K c (owe2 c chunks) W _ Kt) $$ [HxS HpY Ht0 Ht1 HO]
  · isplitr; · iexact Hrec
    isplitl [HxS]; · iexact HxS
    isplitl [HpY]; · iexact HpY
    isplitl [Ht0]; · iexact Ht0
    isplitl [Ht1]; · iexact Ht1
    iexact HO
  iintro ⟨Hcs1, HO⟩
  iapply (wp_locEnq m K c g1 _ Kt)
  isplitr; · iexact Hrec
  isplitl [HxR]; · iexact HxR
  isplitl [HoL]; · iexact HoL
  isplitl [HtL]; · iexact HtL
  iintro HcL
  iapply (ph2_all m K c W _ Kt) $$ [Hc1 Ha1 HpX Ht2 Ht3 HO]
  · isplitr; · iexact Hrec
    isplitr; · iexact Hlev
    isplitl [Hc1]; · iexact Hc1
    isplitl [Ha1]; · iexact Ha1
    isplitl [HpX]; · iexact HpX
    isplitl [Ht2]; · iexact Ht2
    isplitl [Ht3]; · iexact Ht3
    iexact HO
  iintro ⟨Hcs2, Ha1', ⟨%W2, HO⟩⟩
  iapply (ph3_all m K c W2 _ Kt) $$ [Hc3 Ha3 HO]
  · isplitr; · iexact Hrec
    isplitl [Hc3]; · iexact Hc3
    isplitl [Ha3]; · iexact Ha3
    iexact HO
  iintro ⟨Hr2, Ha3', ⟨%W3, HO⟩⟩
  iapply (ph4_all m K c W3 _ Kt) $$ [Hcs1 Ha0 Hcs2 Ha2 HO]
  · isplitr; · iexact Hrec
    isplitl [Hcs1]; · iexact Hcs1
    isplitl [Ha0]; · iexact Ha0
    isplitl [Hcs2]; · iexact Hcs2
    isplitl [Ha2]; · iexact Ha2
    iexact HO
  iintro ⟨HxS, Ha0', Hr1, Ha2', ⟨%W4, HO⟩⟩
  iapply (wp_locWait m K c W4 _ Kt)
  isplitr; · iexact Hrec
  isplitl [HcL]; · iexact HcL
  isplitl [HaL]; · iexact HaL
  isplitl [HO]; · iexact HO
  iintro ⟨HlP, HaL', HO⟩
  imod (close_own m K c) $$ [HaL' Ha0' Ha1' Ha2' Ha3'] with Hsem
  · isplitr; · iexact Hrec
    rw [bigSep_OK]
    isplitl [HaL']; · iexact HaL'
    isplitl [Ha0']; · iexact Ha0'
    isplitl [Ha1']; · iexact Ha1'
    isplitl [Ha2']; · iexact Ha2'
    iexact Ha3'
  simp only [Prog.pure_eq_ret]
  rw [wp_ret]; imodintro
  iapply Hk
  isplitl [HxS]; · iexact HxS
  isplitl [HxRest]; · iexact HxRest
  isplitl [HlP]; · iexact HlP
  isplitl [Hr1]; · iexact Hr1
  isplitl [Hr2]; · iexact Hr2
  isplitl [Hsem]; · iexact Hsem
  iexact HO

/-- A place held at some contents is held at SOME contents. -/
theorem ex_pieces {ι : Type} [DecidableEq ι] (S : Finset ι) (c : Dev nD) (g : Buf (Elt F) ((c : Thread nD τ).loc cc0_stg1_0))
    (A : ι → Finset (Idx ((c : Thread nD τ).loc cc0_stg1_0))) :
    (bigSep S fun k => (((c : Thread nD τ).loc cc0_stg1_0) ↦[A k]{fullShare} g) : sProp 𝕄)
      ⊢ bigSep S fun k => iprop(∃ f, ((c : Thread nD τ).loc cc0_stg1_0) ↦[A k]{fullShare} f) :=
  bigSep_mono fun k _ =>
    (by iintro H; iexists g; iexact H :
      ((((c : Thread nD τ).loc cc0_stg1_0) ↦[A k]{fullShare} g) : sProp 𝕄) ⊢ iprop(∃ f, ((c : Thread nD τ).loc cc0_stg1_0) ↦[A k]{fullShare} f))

omit [FloatOps F] in
theorem xwhole_eq (c : Dev nD) (q : PosShare TreeShare) (f : Buf (Elt F) ((c : Thread nD τ).loc cc0_stg0_0)) :
    (xM.view.loc (c : Thread nD τ) ↦[xM.view.set]{q} f : sProp 𝕄) = (((c : Thread nD τ).loc cc0_stg0_0) ↦{q} f) := by
  rw [View.set_whole]

theorem fetch_0 (t : Fin cfg0.N) : (cfg0.win (0 : Fin 2)).fetch t = true := by rw [fin_N t]; rfl

set_option maxHeartbeats 1600000 in
/-- The body, from what the device starts with to what it ends with. -/
theorem sound_body (K : Dev nD × CK → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (F := F) xM (Memref.isWhole_whole _) oM (Memref.isWhole_whole _) cc0_scratch0 cc0_scratch1 cc0_scratch2 cc0_scratch3 cc0_scratch4) Kt := by
  rw [body_eq_folded]
  unfold folded
  simp only [Prog.lift, Prog.bind_op, Prog.bind_ret, wp_deviceId]
  unfold bodyPre ghost linear payToks creds
  simp only [bigSep_sep', bigSep_cells]
  iintro ⟨⟨⟨⟨#Hrec, ⟨⟨HaB, HaL⟩, Ha0, Ha1, Ha2, Ha3⟩, HtBY, HtBX, HtL, Ht0, Ht1, Ht2, Ht3⟩, ⟨HcB, Hc1, Hc3⟩, #Hlev⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave Hout' := (Entails.of_eq (out_pieces c g1)) $$ Hout
  icases Hout' with ⟨HoL, HoA, HoB⟩
  ihave Hx' := (pointsTo_share (PosShare.mem_left_op_right fullShare)).1 $$ Hx
  icases Hx' with ⟨HxL, HxR⟩
  obtain ⟨Rst, hR⟩ := x_pieces m c
  ihave HxL' := (Entails.of_eq hR) $$ HxL
  icases HxL' with ⟨HxS, HxRest⟩
  ihave HgY := ((ex_pieces Finset.univ c g1 fun k : Fin 32 => (oS4 c k).view.set).trans (barPayY_of (F := F) c (yn c) (yn_yn c))) $$ HoA
  ihave HgX := ((ex_pieces Finset.univ c g1 fun k : Fin 32 => (oS5 c k).view.set).trans (barPayX_of (F := F) c (xn c) (xn_xn c))) $$ HoB
  iapply (wp_barrier m K c W (afterBarrier c) Kt)
  isplitr; · iexact Hrec
  isplitr; · iexact Hlev
  isplitl [HO]; · iexact HO
  isplitl [HtBY]; · iexact HtBY
  isplitl [HtBX]; · iexact HtBX
  isplitl [HgY]; · iexact HgY
  isplitl [HgX]; · iexact HgX
  isplitl [HcB]; · iexact HcB
  isplitl [HaB]; · iexact HaB
  iintro ⟨HpY, HpX, HaB', HO⟩
  iapply (sound_rest m K c _ g1 Rst Kt)
  isplitr; · iexact Hrec
  isplitr; · iexact Hlev
  isplitl [HxS]; · iexact HxS
  isplitl [HpY]; · iexact HpY
  isplitl [Ht0]; · iexact Ht0
  isplitl [Ht1]; · iexact Ht1
  isplitl [HO]; · iexact HO
  isplitl [HxR]; · rw [xwhole_eq]; iexact HxR
  isplitl [HoL]; · iexact HoL
  isplitl [HtL]; · iexact HtL
  isplitl [HaL]; · iexact HaL
  isplitl [Hc1]; · iexact Hc1
  isplitl [Ha1]; · iexact Ha1
  isplitl [HpX]; · iexact HpX
  isplitl [Ht2]; · iexact Ht2
  isplitl [Ht3]; · iexact Ht3
  isplitl [Hc3]; · iexact Hc3
  isplitl [Ha3]; · iexact Ha3
  isplitl [Ha0]; · iexact Ha0
  isplitl [Ha2]; · iexact Ha2
  isplitl [HxRest]; · iexact HxRest
  iintro ⟨HxS, HxRest, HlP, Hr1, Hr2, Hsem, ⟨%W', HO⟩⟩
  iapply Hk
  unfold bodyPost Φ₁ Dat.owesAt Pipeline.owesWithin locPay recvPay1 recvPay2
  rw [show (dats m 0 c).owed t₀.succ = 0 from rfl]
  icases HlP with ⟨HoL, HxR⟩
  isplitl [Hsem]; · iexact Hsem
  isplitl [HO]
  · iexists W'
    isplitr; · ipureintro; exact fun _ _ => Or.inl trivial
    iexact HO
  isplitl [HxS HxRest HxR]
  · iexists _
    isplitr; · (ipureintro; rfl)
    ihave HxL := (Entails.of_eq hR.symm) $$ [HxS HxRest]
    · isplitl [HxS] <;> iassumption
    iapply (pointsTo_share (PosShare.mem_left_op_right fullShare)).2
    isplitl [HxL]; · iexact HxL
    rw [← xwhole_eq]; iexact HxR
  iexists _
  isplitr; · (ipureintro; rfl)
  iapply (Entails.of_eq (out_pieces c (outFinal m c)).symm)
  isplitl [HoL]; · iexact HoL
  isplitl [Hr1]; · iexact Hr1
  iexact Hr2

set_option maxRecDepth 100000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ (c : Thread nD τ) none) Set.univ
    (cc0_body (F := F) xM (Memref.isWhole_whole _) oM (Memref.isWhole_whole _) cc0_scratch0 cc0_scratch1 cc0_scratch2 cc0_scratch3 cc0_scratch4)
    (fun _ => bodyPost m c)
  unfold bodyPre' Φ₀ start
  iintro ⟨⟨⟨%K, Hg⟩, Hcr, Hlev⟩, Ho, Hx, Hout⟩
  iapply (sound_body m K c fun _ => bodyPost m c)
  unfold bodyPre
  isplitr []
  · isplitl [Hg Hcr Hlev]
    · isplitl [Hg]; · iexact Hg
      isplitl [Hcr]; · iexact Hcr
      iexact Hlev
    isplitl [Ho]; · iexact Ho
    isplitl [Hx] <;> iassumption
  · iintro H; iexact H

end Cert.Kernel.AG

end
-- ==== Proof.KAGFund.lean ====
/-
  Funding the protocol: the launch element of the protocol's copy of the rounds algebra makes, for every device,
  the round state of its 130 cells, its positions, and the duty tokens of its own cells' duties; the global step
  allocates every cell's invariant (for all four devices under one update: a barrier cell's invariant is shared
  by the three devices that touch it) and deals the tokens to the devices that pay the duties — a barrier's
  `false` token and a phase-1 receive token to the y-neighbour, a barrier's `true` token and a phase-2 receive
  token to the x-neighbour.
-/
import proofs.«900097_g7700000000000098_dist_ag_v7x_xy2x2_y_m2048_n512_f32_1_alg».proof.Proof.KAGData

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def ringCells : Finset (GSem nD τ sig) := Finset.univ.map ⟨kcell, kcell_injective⟩

/-- A device's own cells' duty tokens as minted: the barrier's `true` duty, and the `false` duty of every cell. -/
abbrev tokOf (ct : Dev nD × Option CK) : GSem nD τ sig × ℕ × Bool := match ct.2 with
  | none => (barCell ct.1, 0, true)
  | some x => (kcell (ct.1, x), 0, false)
theorem tokOf_injective : Function.Injective (tokOf : Dev nD × Option CK → GSem nD τ sig × ℕ × Bool) := by
  rintro ⟨c, t⟩ ⟨c', t'⟩ h
  cases t with
  | none =>
    cases t' with
    | none =>
      have h1 : c = c' := congrArg (fun x : GSem nD τ sig × ℕ × Bool => x.1.1.1) h
      rw [h1]
    | some y => exact Bool.noConfusion (show true = false from congrArg (fun x : GSem nD τ sig × ℕ × Bool => x.2.2) h)
  | some x =>
    cases t' with
    | none => exact Bool.noConfusion (show false = true from congrArg (fun x : GSem nD τ sig × ℕ × Bool => x.2.2) h)
    | some y =>
      have hk : kcell (c, x) = kcell (c', y) := congrArg (fun x : GSem nD τ sig × ℕ × Bool => x.1) h
      have he := kcell_injective hk
      rw [Prod.mk.injEq] at he
      rw [he.1, he.2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun t : Option CK => dutyTok ER (tokOf (c, t)).1 (tokOf (c, t)).2.1 (tokOf (c, t)).2.2

/-- What the launch element deals device `c`. -/
def G (c : Dev nD) : sProp 𝕄 :=
  iprop((bigSep Finset.univ fun x : CK => roundState ER (sched m) (kcell (c, x)) 0)
    ∗ (bigSep Finset.univ fun x : CK => iprop(atPos ER (kcell (c, x)) 0 ∅ 0 ∗ reached ER (kcell (c, x)) 0)) ∗ toks (F := F) c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : CK => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### Index arithmetic of the iterated conjunctions -/

/-- Over an optional index: the members at an index, and the one at none. -/
theorem bigSep_univ_option {M : Type} [URA M] {α : Type} [Fintype α] (Φ : Option α → sProp M) :
    bigSep Finset.univ Φ = iprop((bigSep Finset.univ fun a : α => Φ (some a)) ∗ Φ none) := by
  rw [bigSep_univ_equiv (Equiv.optionEquivSumPUnit.{0, 0} α).symm Φ, bigSep_univ_sum, bigSep_univ_of_subsingleton PUnit.unit]
  rfl

/-- Over a sum of index types: the members at the left indices and those at the right ones. -/
theorem bigSep_univ_sum' {M : Type} [URA M] {α β : Type} [Fintype α] [Fintype β] (Φ : α ⊕ β → sProp M) :
    bigSep Finset.univ Φ = iprop((bigSep Finset.univ fun a : α => Φ (.inl a)) ∗ bigSep Finset.univ fun b : β => Φ (.inr b)) :=
  bigSep_univ_sum Φ

theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- A family over a device's indexed cells, by kind of cell: the barrier's and the local copy's, then per array the 32 chunks'. -/
theorem bigSep_CK (c : Dev nD) (Φ : GSem nD τ sig → sProp 𝕄) :
    (bigSep Finset.univ fun x : CK => Φ (kcell (c, x)))
      = iprop((Φ (barCell c) ∗ Φ (locCell c))
          ∗ (bigSep Finset.univ fun k : Fin 32 => Φ (p1s c k)) ∗ (bigSep Finset.univ fun k : Fin 32 => Φ (p1r c k))
          ∗ (bigSep Finset.univ fun k : Fin 32 => Φ (p2s c k)) ∗ (bigSep Finset.univ fun k : Fin 32 => Φ (p2r c k))) := by
  rw [bigSep_univ_sum, bigSep_univ_two, bigSep_univ_prod, bigSep_fin4]
  rfl

/-! ### The semaphores at zero -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier's are the device's indexed cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [unscopedSems0_eq, bigSep_univ_sum' (fun x : CK => (semVal (kcell (c, x)) 0 : sProp 𝕄)), bigSep_univ_two]
  unfold Pipeline.ownSems0
  rw [bigSep_univ_sum' (fun k : OK => (semVal (((c : Dev nD).tc : Thread nD τ), osem k) 0 : sProp 𝕄)), bigSep_univ_of_subsingleton ()]
  iintro ⟨⟨HL, HK⟩, HB⟩
  isplitl [HB HL]
  · isplitl [HB]; · iexact HB
    iexact HL
  · iexact HK

/-! ### The global step, device by device, and the regrouping -/

/-- One device's cells allocated: each of its indexed cells' invariant at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (sched m) (kcell (c, x)) 0)
      ⊢ (|={Set.univ}=> bigSep Finset.univ fun x : CK => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ linear (F := F) c) ⊢ G' m c := by
  unfold G' ghost
  iintro H
  iexists K
  iexact H

/-- The two reflections of the mesh. -/
def yE : Dev nD ≃ Dev nD := ⟨yn, yn, yn_yn, yn_yn⟩
def xE : Dev nD ≃ Dev nD := ⟨xn, xn, xn_xn, xn_xn⟩

/-- A device's minted tokens, by kind of cell. -/
theorem toks_eq (c : Dev nD) : toks (F := F) c = iprop(
    ((dutyTok ER (barCell c) 0 false ∗ dutyTok ER (locCell c) 0 false)
      ∗ (bigSep Finset.univ fun k : Fin 32 => dutyTok ER (p1s c k) 0 false) ∗ (bigSep Finset.univ fun k : Fin 32 => dutyTok ER (p1r c k) 0 false)
      ∗ (bigSep Finset.univ fun k : Fin 32 => dutyTok ER (p2s c k) 0 false) ∗ (bigSep Finset.univ fun k : Fin 32 => dutyTok ER (p2r c k) 0 false))
    ∗ dutyTok ER (barCell c) 0 true) := by
  unfold toks
  rw [bigSep_univ_option]
  exact congrArg (fun P : sProp 𝕄 => iprop(P ∗ dutyTok ER (barCell c) 0 true)) (bigSep_CK c (fun g => dutyTok ER g 0 false))

/-- The tokens dealt over the mesh: a barrier's `false` token and the phase-1 receive tokens go to the y-neighbour, a
    barrier's `true` token and the phase-2 receive tokens to the x-neighbour (both reflections are involutions, so "to" and
    "from" the neighbour are the same reindexing); the send tokens and the local copy's stay. -/
theorem toks_around : (bigSep Finset.univ fun c : Dev nD => (toks (F := F) c : sProp 𝕄)) ⊢ bigSep Finset.univ fun c : Dev nD => payToks (F := F) c := by
  rw [bigSep_congr (s := Finset.univ) (fun (c : Dev nD) _ => toks_eq (F := F) c)]
  unfold payToks
  simp only [bigSep_sep']
  rw [bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => (bigSep Finset.univ fun k : Fin 32 => dutyTok ER (p1r c k) 0 false : sProp 𝕄)),
    bigSep_univ_equiv xE (fun c : Dev nD => (bigSep Finset.univ fun k : Fin 32 => dutyTok ER (p2r c k) 0 false : sProp 𝕄))]
  iintro ⟨⟨⟨HbF, HL⟩, H1s, H1r, H2s, H2r⟩, HbT⟩
  isplitl [HbF]; · iexact HbF
  isplitl [HbT]; · iexact HbT
  isplitl [HL]; · iexact HL
  isplitl [H1s]; · iexact H1s
  isplitl [H1r]; · iexact H1r
  isplitl [H2s]; · iexact H2s
  iexact H2r

/-- All devices' allocations regrouped: the names chosen into one function, the invariants and reached-marks shared
    by every device, each device's positions kept, the tokens dealt. -/
theorem regroup :
    (bigSep Finset.univ fun c : Dev nD => iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0)) ∗ toks (F := F) c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun x : CK => (atPos ER (kcell (c, x)) 0 ∅ 0 : sProp 𝕄)) (payToks (F := F))).symm).trans
      (bigSep_mono fun c _ => show _ ⊢ linear (F := F) c from Entails.of_eq (by unfold linear; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.AG

end
-- ==== Proof.KAGLaunch.lean ====
/-
  The launch: the protocol's cells funded and allocated for all four devices at once, every device dealt what
  its body starts from, and the run of @main: every fair execution of the four kernels terminates, the argument
  arrays unchanged and every device's result array holding the gathered array.
-/
import proofs.«900097_g7700000000000098_dist_ag_v7x_xy2x2_y_m2048_n512_f32_1_alg».proof.Proof.KAGFund

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "𝒱₀" => (Variants.none : Variants)

variable (m : (ℓ : Loc nD τ sig) → Buf (Elt F) ℓ) (ρ : Dev nD → PrngReg)

/-! ## The kernel's own semaphores -/

/-- An own semaphore as an indexed cell's. -/
def okCk : OK → CK
  | .inl _ => .inl 1
  | .inr bk => .inr bk
theorem okCk_injective : Function.Injective okCk := by
  rintro (a | a) (b | b) h
  · rfl
  · cases h
  · cases h
  · exact congrArg Sum.inr (Sum.inr.inj h)
theorem osem_eq (k : OK) : osem k = csem (okCk k) := by
  rcases k with a | bk <;> rfl

/-- An own semaphore is a DMA semaphore past the two staging ones. -/
theorem osem_dma (k : OK) : ∃ q : DmaSem sig, osem k = .dma q ∧ 2 ≤ q.val := by
  rcases k with a | ⟨i, j⟩
  · exact ⟨cc0_scratch4.sem, rfl, by rw [locS_val]; omega⟩
  · fin_cases i
    · exact ⟨semAt cc0_scratch0 j, rfl, by rw [semAt0_val]; omega⟩
    · exact ⟨semAt cc0_scratch1 j, rfl, by rw [semAt1_val]; omega⟩
    · exact ⟨semAt cc0_scratch2 j, rfl, by rw [semAt2_val]; omega⟩
    · exact ⟨semAt cc0_scratch3 j, rfl, by rw [semAt3_val]; omega⟩

/-- Every DMA semaphore of the pool is scoped. -/
theorem dma_scoped : ∀ q : DmaSem sig, (SemLoc.dma q : SemLoc sig).isScoped .tc = true := by decide +kernel

/-- The staging semaphores are the pool's first two. -/
theorem stage_sem_lt (w : Fin cfg0.W) (s : Fin (cfg0.win w).nbuf) : ((cfg0.win w).sem s).val < 2 := by
  fin_cases w <;> fin_cases s <;> decide

theorem ownSemFacts : Pipeline.OwnSemFacts cfg0.spec osem where
  isScoped k := by obtain ⟨q, hq, _⟩ := osem_dma k; rw [hq]; exact dma_scoped q
  inj a b h := okCk_injective (csem_injective (by rw [← osem_eq, ← osem_eq, h]))
  disj k w s h := by
    obtain ⟨q, hq, h2⟩ := osem_dma k
    rw [hq] at h
    have hq' : q = (cfg0.spec w).sem s := SemLoc.dma.inj h
    have h3 : ((cfg0.spec w).sem s).val < 2 := stage_sem_lt w s
    rw [hq'] at h2
    exact absurd h3 (by omega)

theorem share_eq (c : Dev nD) (w : Fin cfg0.W) : (dats m 0 c).share w = fullShare := by unfold Dat.share; split <;> rfl

/-! ## The launch credit -/

/-- What the others owe device `c`'s cells at launch: two units on its barrier cell, a chunk on each receive cell. -/
def T₀ (c : Dev nD) : CellTallies nD τ sig Unit :=
  tallyAt (barCell c) () 2 + ∑ k : Fin 32, (tallyAt (p1r c k) () N + tallyAt (p2r c k) () N)

/-- The list sums over the 32 chunks as sums over `Fin 32`. -/
theorem owe1_eq (d : Dev nD) : owe1 d chunks = ∑ k : Fin 32, (tallyAt (p1r (yn d) k) () N : CellTallies nD τ sig Unit) := by
  unfold owe1; exact (Fin.sum_univ_def _).symm
theorem owe2_eq (d : Dev nD) : owe2 d chunks = ∑ k : Fin 32, (tallyAt (p2r (xn d) k) () N : CellTallies nD τ sig Unit) := by
  unfold owe2; exact (Fin.sum_univ_def _).symm

/-- The two neighbour maps are involutions of the mesh. -/
def ynE : Dev nD ≃ Dev nD := ⟨yn, yn, yn_yn, yn_yn⟩
def xnE : Dev nD ≃ Dev nD := ⟨xn, xn, xn_xn, xn_xn⟩

/-- Summed over the devices, what is owed is what each device is owed: the sums over the payers are
    reindexed along the neighbour maps. -/
theorem owed_sum : (∑ d, O₀ d) = ∑ d, T₀ d := by
  have h1 : (∑ d : Dev nD, owe1 d chunks) = ∑ d : Dev nD, ∑ k : Fin 32, (tallyAt (p1r d k) () N : CellTallies nD τ sig Unit) := by
    rw [← Equiv.sum_comp ynE (fun d => ∑ k : Fin 32, (tallyAt (p1r d k) () N : CellTallies nD τ sig Unit))]
    exact Finset.sum_congr rfl fun d _ => owe1_eq d
  have h2 : (∑ d : Dev nD, owe2 d chunks) = ∑ d : Dev nD, ∑ k : Fin 32, (tallyAt (p2r d k) () N : CellTallies nD τ sig Unit) := by
    rw [← Equiv.sum_comp xnE (fun d => ∑ k : Fin 32, (tallyAt (p2r d k) () N : CellTallies nD τ sig Unit))]
    exact Finset.sum_congr rfl fun d _ => owe2_eq d
  have h3 : (∑ d : Dev nD, (tallyAt (barCell (xn d)) () 1 : CellTallies nD τ sig Unit)) = ∑ d : Dev nD, tallyAt (barCell d) () 1 :=
    Equiv.sum_comp xnE (fun d => (tallyAt (barCell d) () 1 : CellTallies nD τ sig Unit))
  have h4 : (∑ d : Dev nD, (tallyAt (barCell (yn d)) () 1 : CellTallies nD τ sig Unit)) = ∑ d : Dev nD, tallyAt (barCell d) () 1 :=
    Equiv.sum_comp ynE (fun d => (tallyAt (barCell d) () 1 : CellTallies nD τ sig Unit))
  have hl : (∑ d, O₀ d) = (((∑ d : Dev nD, ∑ k : Fin 32, (tallyAt (p2r d k) () N : CellTallies nD τ sig Unit))
      + ∑ d : Dev nD, ∑ k : Fin 32, (tallyAt (p1r d k) () N : CellTallies nD τ sig Unit))
      + ∑ d : Dev nD, tallyAt (barCell d) () 1) + ∑ d : Dev nD, tallyAt (barCell d) () 1 := by
    unfold O₀
    rw [Finset.sum_add_distrib, Finset.sum_add_distrib, Finset.sum_add_distrib, h1, h2, h3, h4]
  have hr : (∑ d, T₀ d) = ((∑ d : Dev nD, (tallyAt (barCell d) () 1 : CellTallies nD τ sig Unit)) + ∑ d : Dev nD, tallyAt (barCell d) () 1)
      + ((∑ d : Dev nD, ∑ k : Fin 32, (tallyAt (p1r d k) () N : CellTallies nD τ sig Unit))
        + ∑ d : Dev nD, ∑ k : Fin 32, (tallyAt (p2r d k) () N : CellTallies nD τ sig Unit)) := by
    unfold T₀
    rw [Finset.sum_add_distrib, ← Finset.sum_add_distrib (f := fun d : Dev nD => ∑ k : Fin 32, (tallyAt (p1r d k) () N : CellTallies nD τ sig Unit)),
      ← Finset.sum_add_distrib (f := fun d : Dev nD => (tallyAt (barCell d) () 1 : CellTallies nD τ sig Unit))]
    refine congrArg₂ (· + ·) (Finset.sum_congr rfl fun d _ => (tallyAt_add (barCell d) () 1 1).symm) (Finset.sum_congr rfl fun d _ => Finset.sum_add_distrib)
  rw [hl, hr, add_assoc, add_comm (∑ d : Dev nD, ∑ k : Fin 32, (tallyAt (p2r d k) () N : CellTallies nD τ sig Unit)), add_comm]

/-- What a device is owed sits on its own cells. -/
theorem T₀_own (d : Dev nD) (g : GSem nD τ sig) (h : T₀ d g ≠ 0) : g.1 = (d.tc : Thread nD τ) := by
  by_contra hne
  have hcell (sm : SemLoc sig) : g ≠ ((d : Thread nD τ), sm) := fun hg => hne (congrArg Prod.fst hg)
  apply h
  unfold T₀
  rw [Pi.add_apply, Finset.sum_apply, tallyAt_ne_cell (hcell _), zero_add]
  exact Finset.sum_eq_zero fun k _ => by rw [Pi.add_apply, tallyAt_ne_cell (hcell _), tallyAt_ne_cell (hcell _), add_zero]

/-- The launch credit of device `c`: its barrier's two units and the 64 arrivals. -/
theorem launch_creds (c : Dev nD) : (Pipeline.launchCred O₀ c : sProp 𝕄) ⊢ creds (F := F) c := by
  rw [Pipeline.launchCred_of_sum O₀ T₀ owed_sum T₀_own c]
  unfold T₀ creds
  refine (cred_add _ _).1.trans (sep_mono_right ?_)
  rw [Pipeline.cred_finsetSum]
  exact bigSep_mono fun k _ => (cred_add _ _).1

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

/-- The body's start is what the launch made; there is no scoped buffer besides the staging ones. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

/-- The body's end is the own semaphores at zero. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq]
  unfold Φ₁
  iintro H
  isplitr; · iempintro
  isplitl [H]; · iexact H
  iempintro

/-- The pipeline's own waits are on the staging semaphores, at level 0. -/
theorem waits (c : Dev nD) : (levAts L lv : sProp 𝕄) ⊢ Pipeline.cellsWaits cfgs (dats m) () 0 c :=
  Pipeline.cellsWaits_intro cfgs (dats m) () 0 c fun w s t =>
    mayWait_stage c _ (stage_sem_lt w s) _ (by
      rcases t with ⟨_ | _, ht⟩
      · exact Or.inl rfl
      · exact Or.inr rfl)

/-! ## The run -/

/-- Each window's array after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- At the compiled mesh, for any float instance, from any memory with zero counters: every weakly fair execution of
    @main terminates, and every final state has each window's array at `finalA`. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m c (0 : Fin 2) = m (win0_0.arr.view.loc (c : Thread nD τ)) :=
  (dats (F := F) m 0 c).arrAt_in (0 : Fin 2) rfl _

/-- The result array after the run is the gathered array. -/
theorem finalA_out (c : Dev nD) : finalA m c (1 : Fin 2) = outFinal m c := by
  show (dats m 0 c).arrAt (1 : Fin 2) ((t₀ : Fin cfg0.N).val + 1) = _
  rw [Dat.arrAt_succ, flush0_1 t₀, if_pos rfl]
  exact ((Memref.read_access_unit_zero (Elt F) main_v1 (funext fun a => Nat.zero_mul _) _ _).symm).trans (View.read_write_univ _ _)

end Cert.Kernel.AG

end
-- ==== Proof.AGRef.lean ====
/-
  The reference is the identity: its @main returns its argument array. Its run ends at once, in the
  memory it started from.

  The program is the empty line of host operations, so the buffers a device holds after it are the
  buffers it was launched with. The signature has one buffer per device, the argument array in HBM
  (every other table is empty, and no HBM index is a SparseCore's), so a statement about that one
  reference on every device is a statement about every location.
-/
import proofs.«900097_g7700000000000098_dist_ag_v7x_xy2x2_y_m2048_n512_f32_1_alg».proof.Defs
import proofs.«900097_g7700000000000098_dist_ag_v7x_xy2x2_y_m2048_n512_f32_1_alg».proof.Proof.Gen.ReferenceIdeal
import Idealize.ShloMosaic.Adequacy
import Idealize.ShloMosaic.Init
import Idealize.ShloMosaic.Lib.StableHlo.Run

noncomputable section

namespace Cert.ReferenceIdeal.RefRun

open Idealize.ShloMosaic Idealize.SL.Sem Cert.ReferenceIdeal

variable {F : FTy → Type} [FloatOps F]

/-- @main is the empty line of host operations. -/
theorem main_eq (c : Dev nD) : main (F := F) c = StableHlo.seq ([] : List (HloOp τ sig (Elt F))) := rfl

/-- No TensorCore buffer of the signature is scoped. -/
theorem scopedRefs_eq : (Finset.univ.filter fun b : Ref sig .tc => b.isScoped) = ∅ := by decide

/-- The signature has no semaphore, so none is scoped. -/
theorem scopedSems_eq : (Finset.univ.filter fun sm : SemLoc sig => sm.isScoped .tc) = ∅ := by decide

/-- A device has one buffer: the argument array, as the TensorCore names it. The HBM table has the one
    index, held by the device alone; every other table is empty. -/
theorem devRef_eq (b : DevRef τ sig) : b = Proc.devRef (τ := τ) .tc main_arg0 := by
  rcases b with ⟨tb, i, h⟩
  rcases tb with _ | _ | _ | ⟨κ, cs⟩
  · have hi : i = 0 := Subsingleton.elim _ _
    subst hi
    rfl
  · exact i.elim0
  · exact i.elim0
  · cases κ <;> cases cs <;> exact i.elim0

/-- Every fair execution of the reference ends, without fault, with every buffer as it began. -/
theorem run (m : (ℓ : Loc nD τ sig) → Buf (Elt F) ℓ) (g : Dev nD → PrngReg) :
    θ_run (defs (F := F)) (onTc (τ := τ) (main (F := F))) ⟨m, fun _ => 0, g⟩ (fun r => ∀ ℓ, r.2.mem ℓ = m ℓ) :=
  (θ_run defs _ _).mono (fun r h ℓ => by
      obtain ⟨d, b⟩ := ℓ
      obtain rfl := devRef_eq b
      exact h d main_arg0)
    (StableHlo.run_seq scopedRefs_eq scopedSems_eq defs main (fun _ => []) main_eq (fun _ => trivial) m g)

end Cert.ReferenceIdeal.RefRun

end
-- ==== Proof.lean ====
/-
  The certificate of the all-gather kernel on a 2 × 2 mesh against the identity on the whole array.

  Device (x, y) holds block y of the argument (2048 of its 4096 rows). After an entry handshake with both
  neighbours every device sends the half x of its block, in 32 chunks, to its y-neighbour, copies its own
  block into place, forwards each chunk it receives to its x-neighbour, and waits for everything it sent and
  everything sent to it. The frames: under the rounds discipline every wait is matched by a transfer or signal
  some device owes from launch, at levels barrier < first receive < forwarded receive, so every fair execution
  of the four kernels ends, and the staged argument is only read. The value: each copy lands rows of a block
  where the gathered array has them, so every device's result is block 0 then block 1 of the argument, which is
  the whole argument: what the reference, the identity, returns. No operation is idealized, so the idealization
  claim is empty; finiteness of the inputs is not used.
-/
import proofs.«900097_g7700000000000098_dist_ag_v7x_xy2x2_y_m2048_n512_f32_1_alg».proof.Defs
import proofs.«900097_g7700000000000098_dist_ag_v7x_xy2x2_y_m2048_n512_f32_1_alg».proof.Proof.Gen.Kernel
import proofs.«900097_g7700000000000098_dist_ag_v7x_xy2x2_y_m2048_n512_f32_1_alg».proof.Proof.Gen.KernelIdeal
import proofs.«900097_g7700000000000098_dist_ag_v7x_xy2x2_y_m2048_n512_f32_1_alg».proof.Proof.Gen.ReferenceIdeal
import proofs.«900097_g7700000000000098_dist_ag_v7x_xy2x2_y_m2048_n512_f32_1_alg».proof.Proof.Gen.Pre_finite_inputs_Kernel
import proofs.«900097_g7700000000000098_dist_ag_v7x_xy2x2_y_m2048_n512_f32_1_alg».proof.Proof.Gen.Pre_finite_inputs_ReferenceIdeal
import proofs.«900097_g7700000000000098_dist_ag_v7x_xy2x2_y_m2048_n512_f32_1_alg».proof.Proof.AGBody
import proofs.«900097_g7700000000000098_dist_ag_v7x_xy2x2_y_m2048_n512_f32_1_alg».proof.Proof.AGLaunch
import proofs.«900097_g7700000000000098_dist_ag_v7x_xy2x2_y_m2048_n512_f32_1_alg».proof.Proof.KAGBody
import proofs.«900097_g7700000000000098_dist_ag_v7x_xy2x2_y_m2048_n512_f32_1_alg».proof.Proof.KAGLaunch
import proofs.«900097_g7700000000000098_dist_ag_v7x_xy2x2_y_m2048_n512_f32_1_alg».proof.Proof.AGRef
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs_Kernel.Facts := Cert.Pre_finite_inputs_Kernel.Gen.facts
instance : Cert.Pre_finite_inputs_ReferenceIdeal.Facts := Cert.Pre_finite_inputs_ReferenceIdeal.Gen.facts

/-- The word-level kernel runs and leaves the argument arrays as they were. -/
theorem frame_k : Cert.frame_Kernel := fun m ρ _ =>
  (θ_run (Cert.Kernel.defs (F := Bits)) _ _).mono (fun _ h c => (h c 0).trans (Cert.Kernel.AG.finalA_x m c))
    (Cert.Kernel.AG.run_main m ρ (Cert.Kernel.AG.body_obligation m))

/-- So does the kernel read over the extended reals. -/
theorem frame_ki : Cert.frame_KernelIdeal := fun m ρ _ =>
  (θ_run (Cert.KernelIdeal.defs (F := Ideal)) _ _).mono (fun _ h c => (h c 0).trans (Cert.KernelIdeal.AG.finalA_x m c))
    (Cert.KernelIdeal.AG.run_main m ρ (Cert.KernelIdeal.AG.body_obligation m))

/-- The reference returns at once. -/
theorem frame_ri : Cert.frame_ReferenceIdeal := fun m ρ _ =>
  (θ_run (Cert.ReferenceIdeal.defs (F := Ideal)) _ _).mono (fun _ h c => h _) (Cert.ReferenceIdeal.RefRun.run m ρ)

/-- Every device ends with the gathered array, which is the whole argument; the reference ends with the whole
    argument untouched. -/
theorem algebraic : Cert.algebraic_KernelIdeal_ReferenceIdeal := by
  intro m ρ m' ρ' _ hagree
  refine ⟨m' _, ?_, ?_⟩
  · refine (θ_run (Cert.KernelIdeal.defs (F := Ideal)) _ _).mono (fun _ h c => ⟨?_, ?_⟩)
      (Cert.KernelIdeal.AG.run_main m ρ (Cert.KernelIdeal.AG.body_obligation m))
    · exact ((h c 1).trans (Cert.KernelIdeal.AG.finalA_out m c)).trans (Cert.KernelIdeal.AG.outFinal_whole m _ hagree c)
    · exact (h c 0).trans (Cert.KernelIdeal.AG.finalA_x m c)
  · exact (θ_run (Cert.ReferenceIdeal.defs (F := Ideal)) _ _).mono (fun _ h => ⟨h _, h _⟩) (Cert.ReferenceIdeal.RefRun.run m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
